-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x32 : Shape := ⟨3, ![64, 32, 32]⟩
abbrev S64x64x64 : Shape := ⟨3, ![64, 64, 64]⟩
abbrev S512x128 : Shape := ⟨2, ![512, 128]⟩
abbrev S64x32x32x9 : Shape := ⟨4, ![64, 32, 32, 9]⟩
abbrev S64x64x64x9 : Shape := ⟨4, ![64, 64, 64, 9]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S64x32x32x9 : S_.BroadcastsInDim S64x32x32x9 (![] : Fin 0 → Fin S64x32x32x9.rank)
  reducesTo_S64x32x32x9_S_d0_1_2_3 : S64x32x32x9.ReducesTo [0, 1, 2, 3] S_
  bcast_S_S64x64x64x9 : S_.BroadcastsInDim S64x64x64x9 (![] : Fin 0 → Fin S64x64x64x9.rank)
  reducesTo_S64x64x64x9_S_d0_1_2_3 : S64x64x64x9.ReducesTo [0, 1, 2, 3] S_

variable [Facts]

def fn_part1 {F : FTy → Type} [FloatOps F] (main_v13 : IVec S_ 1) (main_v16 : IVec S64x64x64x9 1) : IVec S_ 1 :=
  let main_c_5 : IVec S_ 1 := constantI S_ 1 1#1
  let main_v17 : IVec S_ 1 := (fun x v => Host.reduce IntOp.andi x v reducesTo_S64x64x64x9_S_d0_1_2_3 h_S_) main_v16 main_c_5
  let main_v18 : IVec S_ 1 := andi main_v13 main_v17
  main_v18

def fn {F : FTy → Type} [FloatOps F] (main_arg0 : IVec S64x32x32 32) (main_arg1 : IVec S64x64x64 32) (main_arg2 : FVec F S512x128 .f32) (main_arg3 : FVec F S512x128 .f32) (main_arg4 : FVec F S64x32x32x9 .f32) (main_arg5 : FVec F S64x64x64x9 .f32) : IVec S_ 1 :=
  let main_v0 : FVec F S512x128 .f32 := Host.absf main_arg2
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x128 .f32 := Host.absf main_arg3
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S64x32x32x9 .f32 := Host.absf main_arg4
  let main_cst_2 : FVec F S_ .f32 := constant S_ .f32 0x7F800000#32
  let main_v10 : FVec F S64x32x32x9 .f32 := broadcastInDim S64x32x32x9 ![] bcast_S_S64x32x32x9 main_cst_2
  let main_v11 : IVec S64x32x32x9 1 := cmpf .olt main_v9 main_v10
  let main_c_3 : IVec S_ 1 := constantI S_ 1 1#1
  let main_v12 : IVec S_ 1 := (fun x v => Host.reduce IntOp.andi x v reducesTo_S64x32x32x9_S_d0_1_2_3 h_S_) main_v11 main_c_3
  let main_v13 : IVec S_ 1 := andi main_v8 main_v12
  let main_v14 : FVec F S64x64x64x9 .f32 := Host.absf main_arg5
  let main_cst_4 : FVec F S_ .f32 := constant S_ .f32 0x7F800000#32
  let main_v15 : FVec F S64x64x64x9 .f32 := broadcastInDim S64x64x64x9 ![] bcast_S_S64x64x64x9 main_cst_4
  let main_v16 : IVec S64x64x64x9 1 := cmpf .olt main_v14 main_v15
  fn_part1 (F := F) main_v13 main_v16
-- ==== Kernel.lean ====
abbrev S64x32x32 : Shape := ⟨3, ![64, 32, 32]⟩
abbrev S64x64x64 : Shape := ⟨3, ![64, 64, 64]⟩
abbrev S512x128 : Shape := ⟨2, ![512, 128]⟩
abbrev S64x32x32x9 : Shape := ⟨4, ![64, 32, 32, 9]⟩
abbrev S64x64x64x9 : Shape := ⟨4, ![64, 64, 64, 9]⟩
abbrev S9 : Shape := ⟨1, ![9]⟩
abbrev S64x64x64x1 : Shape := ⟨4, ![64, 64, 64, 1]⟩
abbrev S1x1x1x9 : Shape := ⟨4, ![1, 1, 1, 9]⟩
abbrev S_ : Shape := ⟨0, ![]⟩
abbrev S64x4096 : Shape := ⟨2, ![64, 4096]⟩
abbrev S64x32x32x1 : Shape := ⟨4, ![64, 32, 32, 1]⟩
abbrev S64x1024 : Shape := ⟨2, ![64, 1024]⟩
abbrev S512x256 : Shape := ⟨2, ![512, 256]⟩
abbrev S64x5x1024x128 : Shape := ⟨4, ![64, 5, 1024, 128]⟩
abbrev S16x1024 : Shape := ⟨2, ![16, 1024]⟩
abbrev S16x1x1024x128 : Shape := ⟨4, ![16, 1, 1024, 128]⟩
abbrev S1x512 : Shape := ⟨2, ![1, 512]⟩
abbrev S1x1024 : Shape := ⟨2, ![1, 1024]⟩
abbrev S1024 : Shape := ⟨1, ![1024]⟩
abbrev S1024x1 : Shape := ⟨2, ![1024, 1]⟩
abbrev S1024x512 : Shape := ⟨2, ![1024, 512]⟩
abbrev S1024x256 : Shape := ⟨2, ![1024, 256]⟩
abbrev S1024x128 : Shape := ⟨2, ![1024, 128]⟩
abbrev S1x1x1024x128 : Shape := ⟨4, ![1, 1, 1024, 128]⟩
abbrev S64x655360 : Shape := ⟨2, ![64, 655360]⟩

abbrev nBuf : Space → Nat
  | .hbm => 74
  | .vmem => 8
  | .smem => 0
  | _ => 0

abbrev bufTy : (tb : Table) → Fin (tcTables nBuf tb) → BufTy
  | .hbm, ⟨0, _⟩ => ⟨S64x32x32, .i32⟩
  | .hbm, ⟨1, _⟩ => ⟨S64x64x64, .i32⟩
  | .hbm, ⟨2, _⟩ => ⟨S512x128, .f32⟩
  | .hbm, ⟨3, _⟩ => ⟨S512x128, .f32⟩
  | .hbm, ⟨4, _⟩ => ⟨S64x32x32x9, .f32⟩
  | .hbm, ⟨5, _⟩ => ⟨S64x64x64x9, .f32⟩
  | .hbm, ⟨6, _⟩ => ⟨S9, .i32⟩
  | .hbm, ⟨7, _⟩ => ⟨S64x64x64x1, .i32⟩
  | .hbm, ⟨8, _⟩ => ⟨S1x1x1x9, .i32⟩
  | .hbm, ⟨9, _⟩ => ⟨S64x64x64x9, .i32⟩
  | .hbm, ⟨10, _⟩ => ⟨S64x64x64x9, .i32⟩
  | .hbm, ⟨11, _⟩ => ⟨S64x64x64x9, .i32⟩
  | .hbm, ⟨12, _⟩ => ⟨S_, .i32⟩
  | .hbm, ⟨13, _⟩ => ⟨S64x64x64x9, .i32⟩
  | .hbm, ⟨14, _⟩ => ⟨S64x64x64x9, .i32⟩
  | .hbm, ⟨15, _⟩ => ⟨S_, .f32⟩
  | .hbm, ⟨16, _⟩ => ⟨S64x64x64x9, .f32⟩
  | .hbm, ⟨17, _⟩ => ⟨S64x64x64x9, .i1⟩
  | .hbm, ⟨18, _⟩ => ⟨S64x64x64x9, .i32⟩
  | .hbm, ⟨19, _⟩ => ⟨S64x64x64x9, .i32⟩
  | .hbm, ⟨20, _⟩ => ⟨S1x1x1x9, .i32⟩
  | .hbm, ⟨21, _⟩ => ⟨S64x64x64x9, .i32⟩
  | .hbm, ⟨22, _⟩ => ⟨S64x64x64x9, .i32⟩
  | .hbm, ⟨23, _⟩ => ⟨S_, .i32⟩
  | .hbm, ⟨24, _⟩ => ⟨S64x64x64, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S64x64x64, .i32⟩
  | .hbm, ⟨29, _⟩ => ⟨S64x64x64, .i32⟩
  | .hbm, ⟨30, _⟩ => ⟨S_, .i32⟩
  | .hbm, ⟨31, _⟩ => ⟨S64x64x64, .i32⟩
  | .hbm, ⟨32, _⟩ => ⟨S64x64x64, .i32⟩
  | .hbm, ⟨33, _⟩ => ⟨S64x4096, .i32⟩
  | .hbm, ⟨34, _⟩ => ⟨S9, .i32⟩
  | .hbm, ⟨35, _⟩ => ⟨S64x32x32x1, .i32⟩
  | .hbm, ⟨36, _⟩ => ⟨S1x1x1x9, .i32⟩
  | .hbm, ⟨37, _⟩ => ⟨S64x32x32x9, .i32⟩
  | .hbm, ⟨38, _⟩ => ⟨S64x32x32x9, .i32⟩
  | .hbm, ⟨39, _⟩ => ⟨S64x32x32x9, .i32⟩
  | .hbm, ⟨40, _⟩ => ⟨S_, .i32⟩
  | .hbm, ⟨41, _⟩ => ⟨S64x32x32x9, .i32⟩
  | .hbm, ⟨42, _⟩ => ⟨S64x32x32x9, .i32⟩
  | .hbm, ⟨43, _⟩ => ⟨S_, .f32⟩
  | .hbm, ⟨44, _⟩ => ⟨S64x32x32x9, .f32⟩
  | .hbm, ⟨45, _⟩ => ⟨S64x32x32x9, .i1⟩
  | .hbm, ⟨46, _⟩ => ⟨S64x32x32x9, .i32⟩
  | .hbm, ⟨47, _⟩ => ⟨S64x32x32x9, .i32⟩
  | .hbm, ⟨48, _⟩ => ⟨S1x1x1x9, .i32⟩
  | .hbm, ⟨49, _⟩ => ⟨S64x32x32x9, .i32⟩
  | .hbm, ⟨50, _⟩ => ⟨S64x32x32x9, .i32⟩
  | .hbm, ⟨51, _⟩ => ⟨S_, .i32⟩
  | .hbm, ⟨52, _⟩ => ⟨S64x32x32, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S64x32x32, .i32⟩
  | .hbm, ⟨57, _⟩ => ⟨S64x32x32, .i32⟩
  | .hbm, ⟨58, _⟩ => ⟨S_, .i32⟩
  | .hbm, ⟨59, _⟩ => ⟨S64x32x32, .i32⟩
  | .hbm, ⟨60, _⟩ => ⟨S64x32x32, .i32⟩
  | .hbm, ⟨61, _⟩ => ⟨S64x1024, .i32⟩
  | .hbm, ⟨62, _⟩ => ⟨S512x128, .bf16⟩
  | .hbm, ⟨63, _⟩ => ⟨S512x128, .f32⟩
  | .hbm, ⟨64, _⟩ => ⟨S512x128, .f32⟩
  | .hbm, ⟨65, _⟩ => ⟨S512x128, .bf16⟩
  | .hbm, ⟨66, _⟩ => ⟨S512x256, .bf16⟩
  | .hbm, ⟨67, _⟩ => ⟨S512x128, .bf16⟩
  | .hbm, ⟨68, _⟩ => ⟨S512x128, .f32⟩
  | .hbm, ⟨69, _⟩ => ⟨S512x128, .f32⟩
  | .hbm, ⟨70, _⟩ => ⟨S512x128, .bf16⟩
  | .hbm, ⟨71, _⟩ => ⟨S512x256, .bf16⟩
  | .hbm, ⟨72, _⟩ => ⟨S64x5x1024x128, .f32⟩
  | .hbm, ⟨73, _⟩ => ⟨S64x655360, .f32⟩
  | .local _ .vmem, ⟨0, _⟩ => ⟨S16x1024, .i32⟩
  | .local _ .vmem, ⟨1, _⟩ => ⟨S16x1024, .i32⟩
  | .local _ .vmem, ⟨2, _⟩ => ⟨S16x1024, .i32⟩
  | .local _ .vmem, ⟨3, _⟩ => ⟨S16x1024, .i32⟩
  | .local _ .vmem, ⟨4, _⟩ => ⟨S512x256, .bf16⟩
  | .local _ .vmem, ⟨5, _⟩ => ⟨S512x256, .bf16⟩
  | .local _ .vmem, ⟨6, _⟩ => ⟨S16x1x1024x128, .f32⟩
  | .local _ .vmem, ⟨7, _⟩ => ⟨S16x1x1024x128, .f32⟩
  | _, _ => ⟨S64x32x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_v15 : Ref sig .tc := ⟨.hbm, 24, rfl⟩
abbrev main_c_1 : Ref sig .tc := ⟨.hbm, 25, rfl⟩
abbrev main_c_2 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_c_6 : Ref sig .tc := ⟨.hbm, 53, rfl⟩
abbrev main_c_7 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 5], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c4_i32 : BitVec 32 := 4#32
  let v0 : BitVec 1 := Scalar.cmpi .slt arg1 c4_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c4_i32_0 : BitVec 32 := 4#32
  let v1 : BitVec 32 := Scalar.subi arg1 c4_i32_0
  let c0_i32 : BitVec 32 := 0#32
  let v2 : BitVec 32 := Scalar.select v0 c0_i32 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S16x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S16x1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S64x64x64_S64x64x64x1_0_1_2 : S64x64x64.BroadcastsInDim S64x64x64x1 (![0, 1, 2] : Fin 3 → Fin S64x64x64x1.rank)
  bcast_S9_S1x1x1x9_3 : S9.BroadcastsInDim S1x1x1x9 (![3] : Fin 1 → Fin S1x1x1x9.rank)
  bcast_S64x64x64x1_S64x64x64x9_0_1_2_3 : S64x64x64x1.BroadcastsInDim S64x64x64x9 (![0, 1, 2, 3] : Fin 4 → Fin S64x64x64x9.rank)
  bcast_S1x1x1x9_S64x64x64x9_0_1_2_3 : S1x1x1x9.BroadcastsInDim S64x64x64x9 (![0, 1, 2, 3] : Fin 4 → Fin S64x64x64x9.rank)
  bcast_S_S64x64x64x9 : S_.BroadcastsInDim S64x64x64x9 (![] : Fin 0 → Fin S64x64x64x9.rank)
  natLt_1_32 : 1 < 32
  reducesTo_S64x64x64x9_S64x64x64_d3 : S64x64x64x9.ReducesTo [3] S64x64x64
  h_S_ : 0 < S_.numel
  bcast_S_S64x64x64 : S_.BroadcastsInDim S64x64x64 (![] : Fin 0 → Fin S64x64x64.rank)
  shapeCasts_S64x64x64_S64x4096 : S64x64x64.ShapeCasts S64x4096
  bcast_S64x32x32_S64x32x32x1_0_1_2 : S64x32x32.BroadcastsInDim S64x32x32x1 (![0, 1, 2] : Fin 3 → Fin S64x32x32x1.rank)
  bcast_S64x32x32x1_S64x32x32x9_0_1_2_3 : S64x32x32x1.BroadcastsInDim S64x32x32x9 (![0, 1, 2, 3] : Fin 4 → Fin S64x32x32x9.rank)
  bcast_S1x1x1x9_S64x32x32x9_0_1_2_3 : S1x1x1x9.BroadcastsInDim S64x32x32x9 (![0, 1, 2, 3] : Fin 4 → Fin S64x32x32x9.rank)
  bcast_S_S64x32x32x9 : S_.BroadcastsInDim S64x32x32x9 (![] : Fin 0 → Fin S64x32x32x9.rank)
  reducesTo_S64x32x32x9_S64x32x32_d3 : S64x32x32x9.ReducesTo [3] S64x32x32
  bcast_S_S64x32x32 : S_.BroadcastsInDim S64x32x32 (![] : Fin 0 → Fin S64x32x32.rank)
  shapeCasts_S64x32x32_S64x1024 : S64x32x32.ShapeCasts S64x1024
  bitsLt_bf16_f32 : FTy.bits .bf16 < FTy.bits .f32
  concatenates_S512x128_S512x128_S512x256_d1 : Shape.Concatenates [S512x128, S512x128] S512x256 1
  iota_S1x512_d1_w32 : S1x512.Iotas .tc 32 [1]
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S16x1024_S1x1024_0_0 : ∀ a, (![0, 0] : Fin 2 → Nat) a + S1x1024.size a ≤ S16x1024.size a
  h_S1x1024 : 0 < S1x1024.numel
  shapeCasts_S1x1024_S1024 : S1x1024.ShapeCasts S1024
  shapeCasts_S1024_S1024x1 : S1024.ShapeCasts S1024x1
  broadcasts_S1024x1_S1024x512 : S1024x1.Broadcasts S1024x512
  broadcasts_S1x512_S1024x512 : S1x512.Broadcasts S1024x512
  slices_S1024x256_o0_0_S1024x128 : S1024x256.Slices ![0, 0] S1024x128
  slices_S1024x256_o0_128_S1024x128 : S1024x256.Slices ![0, 128] S1024x128
  inb_S16x1x1024x128_S1x1x1024x128_0_0_0_0 : ∀ a, (![0, 0, 0, 0] : Fin 4 → Nat) a + S1x1x1024x128.size a ≤ S16x1x1024x128.size a
  h_S1x1x1024x128 : 0 < S1x1x1024x128.numel
  shapeCasts_S1x1x1024x128_S1024x128 : S1x1x1024x128.ShapeCasts S1024x128
  shapeCasts_S1024x128_S1x1x1024x128 : S1024x128.ShapeCasts S1x1x1024x128
  inb_S16x1024_S1x1024_1_0 : ∀ a, (![1, 0] : Fin 2 → Nat) a + S1x1024.size a ≤ S16x1024.size a
  inb_S16x1x1024x128_S1x1x1024x128_1_0_0_0 : ∀ a, (![1, 0, 0, 0] : Fin 4 → Nat) a + S1x1x1024x128.size a ≤ S16x1x1024x128.size a
  inb_S16x1024_S1x1024_2_0 : ∀ a, (![2, 0] : Fin 2 → Nat) a + S1x1024.size a ≤ S16x1024.size a
  inb_S16x1x1024x128_S1x1x1024x128_2_0_0_0 : ∀ a, (![2, 0, 0, 0] : Fin 4 → Nat) a + S1x1x1024x128.size a ≤ S16x1x1024x128.size a
  inb_S16x1024_S1x1024_3_0 : ∀ a, (![3, 0] : Fin 2 → Nat) a + S1x1024.size a ≤ S16x1024.size a
  inb_S16x1x1024x128_S1x1x1024x128_3_0_0_0 : ∀ a, (![3, 0, 0, 0] : Fin 4 → Nat) a + S1x1x1024x128.size a ≤ S16x1x1024x128.size a
  inb_S16x1024_S1x1024_4_0 : ∀ a, (![4, 0] : Fin 2 → Nat) a + S1x1024.size a ≤ S16x1024.size a
  inb_S16x1x1024x128_S1x1x1024x128_4_0_0_0 : ∀ a, (![4, 0, 0, 0] : Fin 4 → Nat) a + S1x1x1024x128.size a ≤ S16x1x1024x128.size a
  inb_S16x1024_S1x1024_5_0 : ∀ a, (![5, 0] : Fin 2 → Nat) a + S1x1024.size a ≤ S16x1024.size a
  inb_S16x1x1024x128_S1x1x1024x128_5_0_0_0 : ∀ a, (![5, 0, 0, 0] : Fin 4 → Nat) a + S1x1x1024x128.size a ≤ S16x1x1024x128.size a
  inb_S16x1024_S1x1024_6_0 : ∀ a, (![6, 0] : Fin 2 → Nat) a + S1x1024.size a ≤ S16x1024.size a
  inb_S16x1x1024x128_S1x1x1024x128_6_0_0_0 : ∀ a, (![6, 0, 0, 0] : Fin 4 → Nat) a + S1x1x1024x128.size a ≤ S16x1x1024x128.size a
  inb_S16x1024_S1x1024_7_0 : ∀ a, (![7, 0] : Fin 2 → Nat) a + S1x1024.size a ≤ S16x1024.size a
  inb_S16x1x1024x128_S1x1x1024x128_7_0_0_0 : ∀ a, (![7, 0, 0, 0] : Fin 4 → Nat) a + S1x1x1024x128.size a ≤ S16x1x1024x128.size a
  inb_S16x1024_S1x1024_8_0 : ∀ a, (![8, 0] : Fin 2 → Nat) a + S1x1024.size a ≤ S16x1024.size a
  inb_S16x1x1024x128_S1x1x1024x128_8_0_0_0 : ∀ a, (![8, 0, 0, 0] : Fin 4 → Nat) a + S1x1x1024x128.size a ≤ S16x1x1024x128.size a
  inb_S16x1024_S1x1024_9_0 : ∀ a, (![9, 0] : Fin 2 → Nat) a + S1x1024.size a ≤ S16x1024.size a
  inb_S16x1x1024x128_S1x1x1024x128_9_0_0_0 : ∀ a, (![9, 0, 0, 0] : Fin 4 → Nat) a + S1x1x1024x128.size a ≤ S16x1x1024x128.size a
  inb_S16x1024_S1x1024_10_0 : ∀ a, (![10, 0] : Fin 2 → Nat) a + S1x1024.size a ≤ S16x1024.size a
  inb_S16x1x1024x128_S1x1x1024x128_10_0_0_0 : ∀ a, (![10, 0, 0, 0] : Fin 4 → Nat) a + S1x1x1024x128.size a ≤ S16x1x1024x128.size a
  inb_S16x1024_S1x1024_11_0 : ∀ a, (![11, 0] : Fin 2 → Nat) a + S1x1024.size a ≤ S16x1024.size a
  inb_S16x1x1024x128_S1x1x1024x128_11_0_0_0 : ∀ a, (![11, 0, 0, 0] : Fin 4 → Nat) a + S1x1x1024x128.size a ≤ S16x1x1024x128.size a
  inb_S16x1024_S1x1024_12_0 : ∀ a, (![12, 0] : Fin 2 → Nat) a + S1x1024.size a ≤ S16x1024.size a
  inb_S16x1x1024x128_S1x1x1024x128_12_0_0_0 : ∀ a, (![12, 0, 0, 0] : Fin 4 → Nat) a + S1x1x1024x128.size a ≤ S16x1x1024x128.size a
  inb_S16x1024_S1x1024_13_0 : ∀ a, (![13, 0] : Fin 2 → Nat) a + S1x1024.size a ≤ S16x1024.size a
  inb_S16x1x1024x128_S1x1x1024x128_13_0_0_0 : ∀ a, (![13, 0, 0, 0] : Fin 4 → Nat) a + S1x1x1024x128.size a ≤ S16x1x1024x128.size a
  inb_S16x1024_S1x1024_14_0 : ∀ a, (![14, 0] : Fin 2 → Nat) a + S1x1024.size a ≤ S16x1024.size a
  inb_S16x1x1024x128_S1x1x1024x128_14_0_0_0 : ∀ a, (![14, 0, 0, 0] : Fin 4 → Nat) a + S1x1x1024x128.size a ≤ S16x1x1024x128.size a
  inb_S16x1024_S1x1024_15_0 : ∀ a, (![15, 0] : Fin 2 → Nat) a + S1x1024.size a ≤ S16x1024.size a
  inb_S16x1x1024x128_S1x1x1024x128_15_0_0_0 : ∀ a, (![15, 0, 0, 0] : Fin 4 → Nat) a + S1x1x1024x128.size a ≤ S16x1x1024x128.size a
  shapeCasts_S64x5x1024x128_S64x655360 : S64x5x1024x128.ShapeCasts S64x655360
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024.size a ≤ S64x4096.size a
  hwx0_0 : ∀ i : grid0.Coords, EltTy.bits .i32 = 32 ∨ (Rect.block (s := S64x4096) S16x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S64x1024.size a
  hwx0_1 : ∀ i : grid0.Coords, EltTy.bits .i32 = 32 ∨ (Rect.block (s := S64x1024) S16x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1x1024x128.size a ≤ S64x5x1024x128.size a
  hwx0_4 : ∀ i : grid0.Coords, EltTy.bits .f32 = 32 ∨ (Rect.block (s := S64x5x1024x128) S16x1x1024x128.size (cc0_transform_4 i) (hinb0_4 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v17) S16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S16x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S16x1x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S64x32x32 : Shape := ⟨3, ![64, 32, 32]⟩
abbrev S64x64x64 : Shape := ⟨3, ![64, 64, 64]⟩
abbrev S512x128 : Shape := ⟨2, ![512, 128]⟩
abbrev S64x32x32x9 : Shape := ⟨4, ![64, 32, 32, 9]⟩
abbrev S64x64x64x9 : Shape := ⟨4, ![64, 64, 64, 9]⟩
abbrev S9 : Shape := ⟨1, ![9]⟩
abbrev S64x32x32x1 : Shape := ⟨4, ![64, 32, 32, 1]⟩
abbrev S1x1x1x9 : Shape := ⟨4, ![1, 1, 1, 9]⟩
abbrev S_ : Shape := ⟨0, ![]⟩
abbrev S64x64x64x1 : Shape := ⟨4, ![64, 64, 64, 1]⟩
abbrev S64x32x32x128 : Shape := ⟨4, ![64, 32, 32, 128]⟩
abbrev S64x64x64x128 : Shape := ⟨4, ![64, 64, 64, 128]⟩
abbrev S64x524288 : Shape := ⟨2, ![64, 524288]⟩
abbrev S64x131072 : Shape := ⟨2, ![64, 131072]⟩
abbrev S64x655360 : Shape := ⟨2, ![64, 655360]⟩

abbrev nBuf : Space → Nat
  | .hbm => 81
  | .vmem => 0
  | .smem => 0
  | _ => 0

abbrev bufTy : (tb : Table) → Fin (tcTables nBuf tb) → BufTy
  | .hbm, ⟨0, _⟩ => ⟨S64x32x32, .i32⟩
  | .hbm, ⟨1, _⟩ => ⟨S64x64x64, .i32⟩
  | .hbm, ⟨2, _⟩ => ⟨S512x128, .f32⟩
  | .hbm, ⟨3, _⟩ => ⟨S512x128, .f32⟩
  | .hbm, ⟨4, _⟩ => ⟨S64x32x32x9, .f32⟩
  | .hbm, ⟨5, _⟩ => ⟨S64x64x64x9, .f32⟩
  | .hbm, ⟨6, _⟩ => ⟨S9, .i32⟩
  | .hbm, ⟨7, _⟩ => ⟨S64x32x32x1, .i32⟩
  | .hbm, ⟨8, _⟩ => ⟨S1x1x1x9, .i32⟩
  | .hbm, ⟨9, _⟩ => ⟨S64x32x32x9, .i32⟩
  | .hbm, ⟨10, _⟩ => ⟨S64x32x32x9, .i32⟩
  | .hbm, ⟨11, _⟩ => ⟨S64x32x32x9, .i32⟩
  | .hbm, ⟨12, _⟩ => ⟨S_, .i32⟩
  | .hbm, ⟨13, _⟩ => ⟨S64x32x32x9, .i32⟩
  | .hbm, ⟨14, _⟩ => ⟨S64x32x32x9, .i32⟩
  | .hbm, ⟨15, _⟩ => ⟨S_, .f32⟩
  | .hbm, ⟨16, _⟩ => ⟨S64x32x32x9, .f32⟩
  | .hbm, ⟨17, _⟩ => ⟨S64x32x32x9, .i1⟩
  | .hbm, ⟨18, _⟩ => ⟨S64x32x32x9, .i32⟩
  | .hbm, ⟨19, _⟩ => ⟨S64x32x32x9, .i32⟩
  | .hbm, ⟨20, _⟩ => ⟨S1x1x1x9, .i32⟩
  | .hbm, ⟨21, _⟩ => ⟨S64x32x32x9, .i32⟩
  | .hbm, ⟨22, _⟩ => ⟨S64x32x32x9, .i32⟩
  | .hbm, ⟨23, _⟩ => ⟨S_, .i32⟩
  | .hbm, ⟨24, _⟩ => ⟨S64x32x32, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S64x32x32, .i32⟩
  | .hbm, ⟨29, _⟩ => ⟨S64x32x32, .i32⟩
  | .hbm, ⟨30, _⟩ => ⟨S_, .i32⟩
  | .hbm, ⟨31, _⟩ => ⟨S64x32x32, .i32⟩
  | .hbm, ⟨32, _⟩ => ⟨S64x32x32, .i32⟩
  | .hbm, ⟨33, _⟩ => ⟨S9, .i32⟩
  | .hbm, ⟨34, _⟩ => ⟨S64x64x64x1, .i32⟩
  | .hbm, ⟨35, _⟩ => ⟨S1x1x1x9, .i32⟩
  | .hbm, ⟨36, _⟩ => ⟨S64x64x64x9, .i32⟩
  | .hbm, ⟨37, _⟩ => ⟨S64x64x64x9, .i32⟩
  | .hbm, ⟨38, _⟩ => ⟨S64x64x64x9, .i32⟩
  | .hbm, ⟨39, _⟩ => ⟨S_, .i32⟩
  | .hbm, ⟨40, _⟩ => ⟨S64x64x64x9, .i32⟩
  | .hbm, ⟨41, _⟩ => ⟨S64x64x64x9, .i32⟩
  | .hbm, ⟨42, _⟩ => ⟨S_, .f32⟩
  | .hbm, ⟨43, _⟩ => ⟨S64x64x64x9, .f32⟩
  | .hbm, ⟨44, _⟩ => ⟨S64x64x64x9, .i1⟩
  | .hbm, ⟨45, _⟩ => ⟨S64x64x64x9, .i32⟩
  | .hbm, ⟨46, _⟩ => ⟨S64x64x64x9, .i32⟩
  | .hbm, ⟨47, _⟩ => ⟨S1x1x1x9, .i32⟩
  | .hbm, ⟨48, _⟩ => ⟨S64x64x64x9, .i32⟩
  | .hbm, ⟨49, _⟩ => ⟨S64x64x64x9, .i32⟩
  | .hbm, ⟨50, _⟩ => ⟨S_, .i32⟩
  | .hbm, ⟨51, _⟩ => ⟨S64x64x64, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S64x64x64, .i32⟩
  | .hbm, ⟨56, _⟩ => ⟨S64x64x64, .i32⟩
  | .hbm, ⟨57, _⟩ => ⟨S_, .i32⟩
  | .hbm, ⟨58, _⟩ => ⟨S64x64x64, .i32⟩
  | .hbm, ⟨59, _⟩ => ⟨S64x64x64, .i32⟩
  | .hbm, ⟨60, _⟩ => ⟨S_, .i32⟩
  | .hbm, ⟨61, _⟩ => ⟨S64x32x32, .i32⟩
  | .hbm, ⟨62, _⟩ => ⟨S64x32x32, .i1⟩
  | .hbm, ⟨63, _⟩ => ⟨S_, .i32⟩
  | .hbm, ⟨64, _⟩ => ⟨S64x32x32, .i32⟩
  | .hbm, ⟨65, _⟩ => ⟨S64x32x32, .i32⟩
  | .hbm, ⟨66, _⟩ => ⟨S64x32x32, .i32⟩
  | .hbm, ⟨67, _⟩ => ⟨S64x32x32x1, .i32⟩
  | .hbm, ⟨68, _⟩ => ⟨S64x32x32x128, .f32⟩
  | .hbm, ⟨69, _⟩ => ⟨S_, .i32⟩
  | .hbm, ⟨70, _⟩ => ⟨S64x64x64, .i32⟩
  | .hbm, ⟨71, _⟩ => ⟨S64x64x64, .i1⟩
  | .hbm, ⟨72, _⟩ => ⟨S_, .i32⟩
  | .hbm, ⟨73, _⟩ => ⟨S64x64x64, .i32⟩
  | .hbm, ⟨74, _⟩ => ⟨S64x64x64, .i32⟩
  | .hbm, ⟨75, _⟩ => ⟨S64x64x64, .i32⟩
  | .hbm, ⟨76, _⟩ => ⟨S64x64x64x1, .i32⟩
  | .hbm, ⟨77, _⟩ => ⟨S64x64x64x128, .f32⟩
  | .hbm, ⟨78, _⟩ => ⟨S64x524288, .f32⟩
  | .hbm, ⟨79, _⟩ => ⟨S64x131072, .f32⟩
  | .hbm, ⟨80, _⟩ => ⟨S64x655360, .f32⟩
  | _, _ => ⟨S64x32x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_v15 : Ref sig .tc := ⟨.hbm, 24, rfl⟩
abbrev main_c_1 : Ref sig .tc := ⟨.hbm, 25, rfl⟩
abbrev main_c_2 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_c_6 : Ref sig .tc := ⟨.hbm, 52, rfl⟩
abbrev main_c_7 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_v35 : Ref sig .tc := ⟨.hbm, 62, rfl⟩
abbrev main_c_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_10 : Ref sig .tc := ⟨.hbm, 69, rfl⟩
abbrev main_v41 : Ref sig .tc := ⟨.hbm, 70, rfl⟩
abbrev main_v42 : Ref sig .tc := ⟨.hbm, 71, rfl⟩
abbrev main_c_11 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩

abbrev nD : Nat := 1
abbrev τ : Topo := Topo.v7x

variable {F : FTy → Type} [FloatOps F]

class Facts₀ : Prop where
  bcast_S64x32x32_S64x32x32x1_0_1_2 : S64x32x32.BroadcastsInDim S64x32x32x1 (![0, 1, 2] : Fin 3 → Fin S64x32x32x1.rank)
  bcast_S9_S1x1x1x9_3 : S9.BroadcastsInDim S1x1x1x9 (![3] : Fin 1 → Fin S1x1x1x9.rank)
  bcast_S64x32x32x1_S64x32x32x9_0_1_2_3 : S64x32x32x1.BroadcastsInDim S64x32x32x9 (![0, 1, 2, 3] : Fin 4 → Fin S64x32x32x9.rank)
  bcast_S1x1x1x9_S64x32x32x9_0_1_2_3 : S1x1x1x9.BroadcastsInDim S64x32x32x9 (![0, 1, 2, 3] : Fin 4 → Fin S64x32x32x9.rank)
  bcast_S_S64x32x32x9 : S_.BroadcastsInDim S64x32x32x9 (![] : Fin 0 → Fin S64x32x32x9.rank)
  natLt_1_32 : 1 < 32
  reducesTo_S64x32x32x9_S64x32x32_d3 : S64x32x32x9.ReducesTo [3] S64x32x32
  h_S_ : 0 < S_.numel
  bcast_S_S64x32x32 : S_.BroadcastsInDim S64x32x32 (![] : Fin 0 → Fin S64x32x32.rank)
  bcast_S64x64x64_S64x64x64x1_0_1_2 : S64x64x64.BroadcastsInDim S64x64x64x1 (![0, 1, 2] : Fin 3 → Fin S64x64x64x1.rank)
  bcast_S64x64x64x1_S64x64x64x9_0_1_2_3 : S64x64x64x1.BroadcastsInDim S64x64x64x9 (![0, 1, 2, 3] : Fin 4 → Fin S64x64x64x9.rank)
  bcast_S1x1x1x9_S64x64x64x9_0_1_2_3 : S1x1x1x9.BroadcastsInDim S64x64x64x9 (![0, 1, 2, 3] : Fin 4 → Fin S64x64x64x9.rank)
  bcast_S_S64x64x64x9 : S_.BroadcastsInDim S64x64x64x9 (![] : Fin 0 → Fin S64x64x64x9.rank)
  reducesTo_S64x64x64x9_S64x64x64_d3 : S64x64x64x9.ReducesTo [3] S64x64x64
  bcast_S_S64x64x64 : S_.BroadcastsInDim S64x64x64 (![] : Fin 0 → Fin S64x64x64.rank)
  shapeCasts_S64x64x64x128_S64x524288 : S64x64x64x128.ShapeCasts S64x524288
  shapeCasts_S64x32x32x128_S64x131072 : S64x32x32x128.ShapeCasts S64x131072
  concatenates_S64x524288_S64x131072_S64x655360_d1 : Shape.Concatenates [S64x524288, S64x131072] S64x655360 1
  gather_S512x128_S64x32x32x1_S64x32x32x128_3_0_n_n_0_3_1128_wf : GatherDims.WF S512x128 S64x32x32x1 S64x32x32x128 [3] [0] [] [0] [] 3 ![1, 128]
  gather_S512x128_S64x64x64x1_S64x64x64x128_3_0_n_n_0_3_1128_wf : GatherDims.WF S512x128 S64x64x64x1 S64x64x64x128 [3] [0] [] [0] [] 3 ![1, 128]

variable [Facts₀]

def gather_S512x128_S64x32x32x1_S64x32x32x128_3_0_n_n_0_3_1128 : GatherDims S512x128 S64x32x32x1 S64x32x32x128 where
  offsetDims := [3]
  collapsedSliceDims := [0]
  operandBatchingDims := []
  startIndicesBatchingDims := []
  startIndexMap := [0]
  indexVectorDim := 3
  sliceSizes := ![1, 128]
  wf := gather_S512x128_S64x32x32x1_S64x32x32x128_3_0_n_n_0_3_1128_wf
def gather_S512x128_S64x64x64x1_S64x64x64x128_3_0_n_n_0_3_1128 : GatherDims S512x128 S64x64x64x1 S64x64x64x128 where
  offsetDims := [3]
  collapsedSliceDims := [0]
  operandBatchingDims := []
  startIndicesBatchingDims := []
  startIndexMap := [0]
  indexVectorDim := 3
  sliceSizes := ![1, 128]
  wf := gather_S512x128_S64x64x64x1_S64x64x64x128_3_0_n_n_0_3_1128_wf

class Facts : Prop extends Facts₀ where

variable [Facts]
-- ==== Proof.K.RunFine.lean ====
/-
  The kernel body at a grid point of the fine channel (second grid coordinate below 4): the first
  conditional is taken, the second is not. The body reads the sixteen rows of the fine index block and the
  fine table, and stores sixteen row slabs that tile the output block; the slabs are found by running the body.
-/
import proofs.«423538_j72052371358246_3_alg».proof.Proof.Gen.Kernel.Frame
import proofs.«423538_j72052371358246_3_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point of the fine channel the body leaves the index blocks and the tables as they were and the output
    block overwritten by the listed row slabs. -/
noncomputable def runFine (c : Dev nD) (i : grid0.Coords)
    (arg2 : Memref sig .tc .vmem S16x1024 .i32) (harg2 : arg2.IsWhole) (arg3 : Memref sig .tc .vmem S16x1024 .i32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S16x1x1024x128 .f32) (harg6 : arg6.IsWhole)
    (h1 : k0_cond1 i = 1#1) (h2 : ¬ k0_cond2 i = 1#1)
    (x0 x1 : Vec F S16x1024 .i32) (x2 x3 : Vec F S512x256 .bf16) :
    { L : List (View.Piece (Elt F) S16x1x1024x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__fused_kernel i arg2 harg2 arg3 harg3 arg4 harg4 arg5 harg5 arg6 harg6) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Body

end
-- ==== Proof.K.RunCoarse.lean ====
/-
  The kernel body at a grid point of the coarse channel (second grid coordinate 4): the first
  conditional is not taken, the second is. The body reads the sixteen rows of the coarse index block and the
  coarse table, and stores sixteen row slabs that tile the output block; the slabs are found by running the body.
-/
import proofs.«423538_j72052371358246_3_alg».proof.Proof.Gen.Kernel.Frame
import proofs.«423538_j72052371358246_3_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point of the coarse channel the body leaves the index blocks and the tables as they were and the output
    block overwritten by the listed row slabs. -/
noncomputable def runCoarse (c : Dev nD) (i : grid0.Coords)
    (arg2 : Memref sig .tc .vmem S16x1024 .i32) (harg2 : arg2.IsWhole) (arg3 : Memref sig .tc .vmem S16x1024 .i32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S16x1x1024x128 .f32) (harg6 : arg6.IsWhole)
    (h1 : ¬ k0_cond1 i = 1#1) (h2 : k0_cond2 i = 1#1)
    (x0 x1 : Vec F S16x1024 .i32) (x2 x3 : Vec F S512x256 .bf16) :
    { L : List (View.Piece (Elt F) S16x1x1024x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__fused_kernel i arg2 harg2 arg3 harg3 arg4 harg4 arg5 harg5 arg6 harg6) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Body

end
-- ==== Proof.K.Slabs.lean ====
/-
  The sixteen row slabs a grid point stores are one function of the block index: slab `a` is the one-hot
  product of row `a` of the point's index block with the channel's table, so the output block at
  `(a, 0, r, d)` depends on index word `(a, r)` and on the table alone.
-/
import proofs.«423538_j72052371358246_3_alg».proof.Proof.K.RunFine
import proofs.«423538_j72052371358246_3_alg».proof.Proof.K.RunCoarse
import Idealize.ShloMosaic.Lib.ValueIdx
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The rectangle of row `a` in a block of sixteen rows of 1024 index words. -/
def rowRect (a : Fin 16) : Rect S16x1024 :=
  Rect.unit (s := S16x1024) ![a.val, 0] S1x1024.size (fun d => by
    have := a.isLt
    match d with
    | ⟨0, _⟩ => show a.val + 1 ≤ 16; omega
    | ⟨1, _⟩ => show 0 + 1024 ≤ 1024; omega)

/-- The output block as one function: at `(a, 0, r, d)` the row payload of index row `a` at `(0, 0, r, d)`. -/
def slabs (T : Vec F S512x256 .bf16) (X : Vec F S16x1024 .i32) : Vec F S16x1x1024x128 .f32 :=
  fun y => k0_pay6 T (View.ld X (rowRect (y 0))) (ix4 (0 : Fin 1) (0 : Fin 1) (y 2) (y 3))

/-- The whole-table rectangle's offsets are zero. -/
theorem off2_zero : (![0, 0] : Fin 2 → ℕ) = fun _ => 0 :=
  funext fun a => by match a with | ⟨0, _⟩ => rfl | ⟨1, _⟩ => rfl

/-- A slab stored at row `k` whose payload is the row function of index row `k` is `slabs` on its rectangle. -/
theorem slab_piece (T : Vec F S512x256 .bf16) (X : Vec F S16x1024 .i32) (k : ℕ) (hk : k < 16)
    (inb4 : ∀ a, (![k, 0, 0, 0] : Fin 4 → ℕ) a + S1x1x1024x128.size a ≤ S16x1x1024x128.size a)
    (P : FVec F S1x1x1024x128 .f32) (hP : P = k0_pay6 T (View.ld X (rowRect ⟨k, hk⟩))) (x : S1x1x1024x128.Idx) :
    P x = slabs T X ((Rect.unit (s := S16x1x1024x128) ![k, 0, 0, 0] S1x1x1024x128.size inb4).emb x) := by
  subst hP
  unfold slabs
  have h0 : ((Rect.unit (s := S16x1x1024x128) ![k, 0, 0, 0] S1x1x1024x128.size inb4).emb x) 0 = (⟨k, hk⟩ : Fin 16) := by
    apply Fin.ext
    have hx : (x 0).val < 1 := (x 0).isLt
    show k + 1 * (x 0).val = k
    omega
  rw [h0]
  refine congrArg (k0_pay6 T (View.ld X (rowRect ⟨k, hk⟩))) (funext fun a => ?_)
  match a with
  | ⟨0, _⟩ => exact Fin.ext (by have hx : (x 0).val < 1 := (x 0).isLt; show (x 0).val = 0; omega)
  | ⟨1, _⟩ => exact Fin.ext (by have hx : (x 1).val < 1 := (x 1).isLt; show (x 1).val = 0; omega)
  | ⟨2, _⟩ => exact Fin.ext (by show (x 2).val = 0 + 1 * (x 2).val; omega)
  | ⟨3, _⟩ => exact Fin.ext (by show (x 3).val = 0 + 1 * (x 3).val; omega)

set_option maxHeartbeats 2000000 in
/-- What the fine run's stores leave in the output block reads as `slabs` of the fine table and the fine index
    block: each of the sixteen stores is the row function of its own index row, and the stores tile the block. -/
theorem read_runFine (c : Dev nD) (i : grid0.Coords)
    (arg2 : Memref sig .tc .vmem S16x1024 .i32) (harg2 : arg2.IsWhole) (arg3 : Memref sig .tc .vmem S16x1024 .i32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S16x1x1024x128 .f32) (harg6 : arg6.IsWhole)
    (h1 : k0_cond1 i = 1#1) (h2 : ¬ k0_cond2 i = 1#1)
    (x0 x1 : Vec F S16x1024 .i32) (x2 x3 : Vec F S512x256 .bf16)
    (f : arg6.view.ty.Contents (Elt F)) :
    arg6.view.read (Elt F) (arg6.view.writes (Elt F) f (runFine c i arg2 harg2 arg3 harg3 arg4 harg4 arg5 harg5 arg6 harg6 h1 h2 x0 x1 x2 x3).1)
      = slabs x2 x0 := by
  funext y
  refine View.read_writes_apply_of_pieces _ _ (slabs x2 x0) _ ?_ y ?_
  · unfold runFine; dsimp only; sl_unfold_words
    simp only [View.readAt_eq_ld, Memref.IsWhole.read_unread, View.ld_unit_zero (S := S512x256) off2_zero]
    intro p hp
    simp only [List.mem_cons, List.mem_nil_iff, or_false] at hp
    rcases hp with rfl | rfl | rfl | rfl | rfl | rfl | rfl | rfl | rfl | rfl | rfl | rfl | rfl | rfl | rfl | rfl
    · intro x; exact slab_piece x2 x0 15 (by omega) Facts₀.inb_S16x1x1024x128_S1x1x1024x128_15_0_0_0 _ rfl x
    · intro x; exact slab_piece x2 x0 14 (by omega) Facts₀.inb_S16x1x1024x128_S1x1x1024x128_14_0_0_0 _ rfl x
    · intro x; exact slab_piece x2 x0 13 (by omega) Facts₀.inb_S16x1x1024x128_S1x1x1024x128_13_0_0_0 _ rfl x
    · intro x; exact slab_piece x2 x0 12 (by omega) Facts₀.inb_S16x1x1024x128_S1x1x1024x128_12_0_0_0 _ rfl x
    · intro x; exact slab_piece x2 x0 11 (by omega) Facts₀.inb_S16x1x1024x128_S1x1x1024x128_11_0_0_0 _ rfl x
    · intro x; exact slab_piece x2 x0 10 (by omega) Facts₀.inb_S16x1x1024x128_S1x1x1024x128_10_0_0_0 _ rfl x
    · intro x; exact slab_piece x2 x0 9 (by omega) Facts₀.inb_S16x1x1024x128_S1x1x1024x128_9_0_0_0 _ rfl x
    · intro x; exact slab_piece x2 x0 8 (by omega) Facts₀.inb_S16x1x1024x128_S1x1x1024x128_8_0_0_0 _ rfl x
    · intro x; exact slab_piece x2 x0 7 (by omega) Facts₀.inb_S16x1x1024x128_S1x1x1024x128_7_0_0_0 _ rfl x
    · intro x; exact slab_piece x2 x0 6 (by omega) Facts₀.inb_S16x1x1024x128_S1x1x1024x128_6_0_0_0 _ rfl x
    · intro x; exact slab_piece x2 x0 5 (by omega) Facts₀.inb_S16x1x1024x128_S1x1x1024x128_5_0_0_0 _ rfl x
    · intro x; exact slab_piece x2 x0 4 (by omega) Facts₀.inb_S16x1x1024x128_S1x1x1024x128_4_0_0_0 _ rfl x
    · intro x; exact slab_piece x2 x0 3 (by omega) Facts₀.inb_S16x1x1024x128_S1x1x1024x128_3_0_0_0 _ rfl x
    · intro x; exact slab_piece x2 x0 2 (by omega) Facts₀.inb_S16x1x1024x128_S1x1x1024x128_2_0_0_0 _ rfl x
    · intro x; exact slab_piece x2 x0 1 (by omega) Facts₀.inb_S16x1x1024x128_S1x1x1024x128_1_0_0_0 _ rfl x
    · intro x; exact slab_piece x2 x0 0 (by omega) Facts₀.inb_S16x1x1024x128_S1x1x1024x128_0_0_0_0 _ rfl x
  · unfold runFine; dsimp only
    exact View.cover_of_tiledL (s := S16x1x1024x128) _ S1x1x1024x128.size (by sl_kernel_rfl) y

set_option maxHeartbeats 2000000 in
/-- What the coarse run's stores leave in the output block reads as `slabs` of the coarse table and the coarse index
    block: each of the sixteen stores is the row function of its own index row, and the stores tile the block. -/
theorem read_runCoarse (c : Dev nD) (i : grid0.Coords)
    (arg2 : Memref sig .tc .vmem S16x1024 .i32) (harg2 : arg2.IsWhole) (arg3 : Memref sig .tc .vmem S16x1024 .i32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S16x1x1024x128 .f32) (harg6 : arg6.IsWhole)
    (h1 : ¬ k0_cond1 i = 1#1) (h2 : k0_cond2 i = 1#1)
    (x0 x1 : Vec F S16x1024 .i32) (x2 x3 : Vec F S512x256 .bf16)
    (f : arg6.view.ty.Contents (Elt F)) :
    arg6.view.read (Elt F) (arg6.view.writes (Elt F) f (runCoarse c i arg2 harg2 arg3 harg3 arg4 harg4 arg5 harg5 arg6 harg6 h1 h2 x0 x1 x2 x3).1)
      = slabs x3 x1 := by
  funext y
  refine View.read_writes_apply_of_pieces _ _ (slabs x3 x1) _ ?_ y ?_
  · unfold runCoarse; dsimp only; sl_unfold_words
    simp only [View.readAt_eq_ld, Memref.IsWhole.read_unread, View.ld_unit_zero (S := S512x256) off2_zero]
    intro p hp
    simp only [List.mem_cons, List.mem_nil_iff, or_false] at hp
    rcases hp with rfl | rfl | rfl | rfl | rfl | rfl | rfl | rfl | rfl | rfl | rfl | rfl | rfl | rfl | rfl | rfl
    · intro x; exact slab_piece x3 x1 15 (by omega) Facts₀.inb_S16x1x1024x128_S1x1x1024x128_15_0_0_0 _ rfl x
    · intro x; exact slab_piece x3 x1 14 (by omega) Facts₀.inb_S16x1x1024x128_S1x1x1024x128_14_0_0_0 _ rfl x
    · intro x; exact slab_piece x3 x1 13 (by omega) Facts₀.inb_S16x1x1024x128_S1x1x1024x128_13_0_0_0 _ rfl x
    · intro x; exact slab_piece x3 x1 12 (by omega) Facts₀.inb_S16x1x1024x128_S1x1x1024x128_12_0_0_0 _ rfl x
    · intro x; exact slab_piece x3 x1 11 (by omega) Facts₀.inb_S16x1x1024x128_S1x1x1024x128_11_0_0_0 _ rfl x
    · intro x; exact slab_piece x3 x1 10 (by omega) Facts₀.inb_S16x1x1024x128_S1x1x1024x128_10_0_0_0 _ rfl x
    · intro x; exact slab_piece x3 x1 9 (by omega) Facts₀.inb_S16x1x1024x128_S1x1x1024x128_9_0_0_0 _ rfl x
    · intro x; exact slab_piece x3 x1 8 (by omega) Facts₀.inb_S16x1x1024x128_S1x1x1024x128_8_0_0_0 _ rfl x
    · intro x; exact slab_piece x3 x1 7 (by omega) Facts₀.inb_S16x1x1024x128_S1x1x1024x128_7_0_0_0 _ rfl x
    · intro x; exact slab_piece x3 x1 6 (by omega) Facts₀.inb_S16x1x1024x128_S1x1x1024x128_6_0_0_0 _ rfl x
    · intro x; exact slab_piece x3 x1 5 (by omega) Facts₀.inb_S16x1x1024x128_S1x1x1024x128_5_0_0_0 _ rfl x
    · intro x; exact slab_piece x3 x1 4 (by omega) Facts₀.inb_S16x1x1024x128_S1x1x1024x128_4_0_0_0 _ rfl x
    · intro x; exact slab_piece x3 x1 3 (by omega) Facts₀.inb_S16x1x1024x128_S1x1x1024x128_3_0_0_0 _ rfl x
    · intro x; exact slab_piece x3 x1 2 (by omega) Facts₀.inb_S16x1x1024x128_S1x1x1024x128_2_0_0_0 _ rfl x
    · intro x; exact slab_piece x3 x1 1 (by omega) Facts₀.inb_S16x1x1024x128_S1x1x1024x128_1_0_0_0 _ rfl x
    · intro x; exact slab_piece x3 x1 0 (by omega) Facts₀.inb_S16x1x1024x128_S1x1x1024x128_0_0_0_0 _ rfl x
  · unfold runCoarse; dsimp only
    exact View.cover_of_tiledL (s := S16x1x1024x128) _ S1x1x1024x128.size (by sl_kernel_rfl) y

end Cert.Kernel.Body

end
-- ==== Proof.K.Body.lean ====
/-
  The pipeline's proof data, the body obligation and the frame run. After the body at a grid point every
  input window still holds its block, and the output window holds `slabs` of the point's channel: the fine
  table and fine index block where the second grid coordinate is below 4, the coarse ones at coordinate 4.
-/
import proofs.«423538_j72052371358246_3_alg».proof.Proof.K.Slabs
import proofs.«423538_j72052371358246_3_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At every grid point exactly one of the two conditionals is taken. -/
theorem cond2_iff : ∀ t : Fin cfg0.N, k0_cond2 (grid0.coords t) = 1#1 ↔ ¬ k0_cond1 (grid0.coords t) = 1#1 :=
  (by decide +kernel : ∀ t : Fin grid0.N, k0_cond2 (grid0.coords t) = 1#1 ↔ ¬ k0_cond1 (grid0.coords t) = 1#1)

/-- What the body leaves in the output window's buffer at point `t`. -/
def outAt (c : Dev nD) (t : Fin cfg0.N) : Vec F S16x1x1024x128 .f32 :=
  if k0_cond1 (grid0.coords t) = 1#1 then slabs (iblk m c 2 t) (iblk m c 0 t) else slabs (iblk m c 3 t) (iblk m c 1 t)

/-- The proof data of the one pipeline on core `c`: the arrays as the region finds them; after the body each
    input's buffer at its block and the output's at `outAt`; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Each window's current staging memref at point `t`, and its wholeness. -/
abbrev ms0 (t : Fin cfg0.N) : Memref sig .tc .vmem S16x1024 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x1024 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x1x1024x128 .f32 := win0_4.stage (cfg0.slots t 4)
abbrev hs4 (t : Fin cfg0.N) : (ms4 t).IsWhole := hstage0_4 ((cfg0.slots t 4).cast nbuf0_4)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- No window is idle at any grid point: the inputs never are, and of the output's two conditionals one is taken
    at every point. -/
theorem liveAt : ∀ (w : Fin 5) (t : Fin cfg0.N), cfg0.idle w (grid0.coords t) = false := by decide +kernel

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 2000000 in
/-- The body at any point: the inputs' memrefs hold their blocks, so the run of the point's channel applies;
    what its stores leave in the output buffer reads as `slabs` of that channel; the invariant and the core's
    owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
      unfold Dat.leavesExact; rw [liveAt 0 t],
    show (dats m 0 c).leavesExact 1 t = owns (c : Thread nD τ) (ms1 t) fullShare ((dats m 0 c).after 1 t) from by
      unfold Dat.leavesExact; rw [liveAt 1 t],
    show (dats m 0 c).leavesExact 2 t = owns (c : Thread nD τ) (ms2 t) fullShare ((dats m 0 c).after 2 t) from by
      unfold Dat.leavesExact; rw [liveAt 2 t],
    show (dats m 0 c).leavesExact 3 t = owns (c : Thread nD τ) (ms3 t) fullShare ((dats m 0 c).after 3 t) from by
      unfold Dat.leavesExact; rw [liveAt 3 t],
    show (dats m 0 c).leavesExact 4 t = owns (c : Thread nD τ) (ms4 t) fullShare ((dats m 0 c).after 4 t) from by
      unfold Dat.leavesExact; rw [liveAt 4 t],
    after0_0, after0_1, after0_2, after0_3, after0_4]
  iintro ⟨HΦ, Ho, ⟨%d0, H0⟩, ⟨%d1, H1⟩, ⟨%d2, H2⟩, ⟨%d3, H3⟩, ⟨%d4, H4⟩⟩
  by_cases hc : k0_cond1 (grid0.coords t) = 1#1
  · have hc2 : ¬ k0_cond2 (grid0.coords t) = 1#1 := fun h => (cond2_iff t).mp h hc
    iapply ((runFine c (grid0.coords t) (ms0 t) (hs0 t) (ms1 t) (hs1 t) (ms2 t) (hs2 t) (ms3 t) (hs3 t) (ms4 t) (hs4 t) hc hc2
      (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%f, H4⟩⟩
    isplitl [HΦ]; · iexact HΦ
    isplitl [Ho]; · iexact Ho
    isplitl [H0]; · iexact H0
    isplitl [H1]; · iexact H1
    isplitl [H2]; · iexact H2
    isplitl [H3]; · iexact H3
    unfold owns
    iexists _; isplitr
    swap; · iexact H4
    ipureintro
    rw [read_runFine]
    unfold outAt
    rw [if_pos hc]
  · have hc2 : k0_cond2 (grid0.coords t) = 1#1 := (cond2_iff t).mpr hc
    iapply ((runCoarse c (grid0.coords t) (ms0 t) (hs0 t) (ms1 t) (hs1 t) (ms2 t) (hs2 t) (ms3 t) (hs3 t) (ms4 t) (hs4 t) hc hc2
      (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%f, H4⟩⟩
    isplitl [HΦ]; · iexact HΦ
    isplitl [Ho]; · iexact Ho
    isplitl [H0]; · iexact H0
    isplitl [H1]; · iexact H1
    isplitl [H2]; · iexact H2
    isplitl [H3]; · iexact H3
    unfold owns
    iexists _; isplitr
    swap; · iexact H4
    ipureintro
    rw [read_runCoarse]
    unfold outAt
    rw [if_neg hc]

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of the program terminates, and the final state has
    every array of the pipeline at what the proof data's writes-back leave and every other buffer as the
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end without a fault and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KI.RunFine.lean ====
/-
  The kernel body at a grid point of the fine channel (second grid coordinate below 4): the first
  conditional is taken, the second is not. The body reads the sixteen rows of the fine index block and the
  fine table, and stores sixteen row slabs that tile the output block; the slabs are found by running the body.
-/
import proofs.«423538_j72052371358246_3_alg».proof.Proof.Gen.KernelIdeal.Frame
import proofs.«423538_j72052371358246_3_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point of the fine channel the body leaves the index blocks and the tables as they were and the output
    block overwritten by the listed row slabs. -/
noncomputable def runFine (c : Dev nD) (i : grid0.Coords)
    (arg2 : Memref sig .tc .vmem S16x1024 .i32) (harg2 : arg2.IsWhole) (arg3 : Memref sig .tc .vmem S16x1024 .i32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S16x1x1024x128 .f32) (harg6 : arg6.IsWhole)
    (h1 : k0_cond1 i = 1#1) (h2 : ¬ k0_cond2 i = 1#1)
    (x0 x1 : Vec F S16x1024 .i32) (x2 x3 : Vec F S512x256 .bf16) :
    { L : List (View.Piece (Elt F) S16x1x1024x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__fused_kernel i arg2 harg2 arg3 harg3 arg4 harg4 arg5 harg5 arg6 harg6) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Body

end
-- ==== Proof.KI.RunCoarse.lean ====
/-
  The kernel body at a grid point of the coarse channel (second grid coordinate 4): the first
  conditional is not taken, the second is. The body reads the sixteen rows of the coarse index block and the
  coarse table, and stores sixteen row slabs that tile the output block; the slabs are found by running the body.
-/
import proofs.«423538_j72052371358246_3_alg».proof.Proof.Gen.KernelIdeal.Frame
import proofs.«423538_j72052371358246_3_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point of the coarse channel the body leaves the index blocks and the tables as they were and the output
    block overwritten by the listed row slabs. -/
noncomputable def runCoarse (c : Dev nD) (i : grid0.Coords)
    (arg2 : Memref sig .tc .vmem S16x1024 .i32) (harg2 : arg2.IsWhole) (arg3 : Memref sig .tc .vmem S16x1024 .i32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S16x1x1024x128 .f32) (harg6 : arg6.IsWhole)
    (h1 : ¬ k0_cond1 i = 1#1) (h2 : k0_cond2 i = 1#1)
    (x0 x1 : Vec F S16x1024 .i32) (x2 x3 : Vec F S512x256 .bf16) :
    { L : List (View.Piece (Elt F) S16x1x1024x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__fused_kernel i arg2 harg2 arg3 harg3 arg4 harg4 arg5 harg5 arg6 harg6) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Body

end
-- ==== Proof.KI.Slabs.lean ====
/-
  The sixteen row slabs a grid point stores are one function of the block index: slab `a` is the one-hot
  product of row `a` of the point's index block with the channel's table, so the output block at
  `(a, 0, r, d)` depends on index word `(a, r)` and on the table alone.
-/
import proofs.«423538_j72052371358246_3_alg».proof.Proof.KI.RunFine
import proofs.«423538_j72052371358246_3_alg».proof.Proof.KI.RunCoarse
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The rectangle of row `a` in a block of sixteen rows of 1024 index words. -/
def rowRect (a : Fin 16) : Rect S16x1024 :=
  Rect.unit (s := S16x1024) ![a.val, 0] S1x1024.size (fun d => by
    have := a.isLt
    match d with
    | ⟨0, _⟩ => show a.val + 1 ≤ 16; omega
    | ⟨1, _⟩ => show 0 + 1024 ≤ 1024; omega)

/-- The output block as one function: at `(a, 0, r, d)` the row payload of index row `a` at `(0, 0, r, d)`. -/
def slabs (T : Vec F S512x256 .bf16) (X : Vec F S16x1024 .i32) : Vec F S16x1x1024x128 .f32 :=
  fun y => k0_pay6 T (View.ld X (rowRect (y 0))) (ix4 (0 : Fin 1) (0 : Fin 1) (y 2) (y 3))

/-- The whole-table rectangle's offsets are zero. -/
theorem off2_zero : (![0, 0] : Fin 2 → ℕ) = fun _ => 0 :=
  funext fun a => by match a with | ⟨0, _⟩ => rfl | ⟨1, _⟩ => rfl

/-- A slab stored at row `k` whose payload is the row function of index row `k` is `slabs` on its rectangle. -/
theorem slab_piece (T : Vec F S512x256 .bf16) (X : Vec F S16x1024 .i32) (k : ℕ) (hk : k < 16)
    (inb4 : ∀ a, (![k, 0, 0, 0] : Fin 4 → ℕ) a + S1x1x1024x128.size a ≤ S16x1x1024x128.size a)
    (P : FVec F S1x1x1024x128 .f32) (hP : P = k0_pay6 T (View.ld X (rowRect ⟨k, hk⟩))) (x : S1x1x1024x128.Idx) :
    P x = slabs T X ((Rect.unit (s := S16x1x1024x128) ![k, 0, 0, 0] S1x1x1024x128.size inb4).emb x) := by
  subst hP
  unfold slabs
  have h0 : ((Rect.unit (s := S16x1x1024x128) ![k, 0, 0, 0] S1x1x1024x128.size inb4).emb x) 0 = (⟨k, hk⟩ : Fin 16) := by
    apply Fin.ext
    have hx : (x 0).val < 1 := (x 0).isLt
    show k + 1 * (x 0).val = k
    omega
  rw [h0]
  refine congrArg (k0_pay6 T (View.ld X (rowRect ⟨k, hk⟩))) (funext fun a => ?_)
  match a with
  | ⟨0, _⟩ => exact Fin.ext (by have hx : (x 0).val < 1 := (x 0).isLt; show (x 0).val = 0; omega)
  | ⟨1, _⟩ => exact Fin.ext (by have hx : (x 1).val < 1 := (x 1).isLt; show (x 1).val = 0; omega)
  | ⟨2, _⟩ => exact Fin.ext (by show (x 2).val = 0 + 1 * (x 2).val; omega)
  | ⟨3, _⟩ => exact Fin.ext (by show (x 3).val = 0 + 1 * (x 3).val; omega)

set_option maxHeartbeats 2000000 in
/-- What the fine run's stores leave in the output block reads as `slabs` of the fine table and the fine index
    block: each of the sixteen stores is the row function of its own index row, and the stores tile the block. -/
theorem read_runFine (c : Dev nD) (i : grid0.Coords)
    (arg2 : Memref sig .tc .vmem S16x1024 .i32) (harg2 : arg2.IsWhole) (arg3 : Memref sig .tc .vmem S16x1024 .i32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S16x1x1024x128 .f32) (harg6 : arg6.IsWhole)
    (h1 : k0_cond1 i = 1#1) (h2 : ¬ k0_cond2 i = 1#1)
    (x0 x1 : Vec F S16x1024 .i32) (x2 x3 : Vec F S512x256 .bf16)
    (f : arg6.view.ty.Contents (Elt F)) :
    arg6.view.read (Elt F) (arg6.view.writes (Elt F) f (runFine c i arg2 harg2 arg3 harg3 arg4 harg4 arg5 harg5 arg6 harg6 h1 h2 x0 x1 x2 x3).1)
      = slabs x2 x0 := by
  funext y
  refine View.read_writes_apply_of_pieces _ _ (slabs x2 x0) _ ?_ y ?_
  · unfold runFine; dsimp only; sl_unfold_words
    simp only [View.readAt_eq_ld, Memref.IsWhole.read_unread, View.ld_unit_zero (S := S512x256) off2_zero]
    intro p hp
    simp only [List.mem_cons, List.mem_nil_iff, or_false] at hp
    rcases hp with rfl | rfl | rfl | rfl | rfl | rfl | rfl | rfl | rfl | rfl | rfl | rfl | rfl | rfl | rfl | rfl
    · intro x; exact slab_piece x2 x0 15 (by omega) Facts₀.inb_S16x1x1024x128_S1x1x1024x128_15_0_0_0 _ rfl x
    · intro x; exact slab_piece x2 x0 14 (by omega) Facts₀.inb_S16x1x1024x128_S1x1x1024x128_14_0_0_0 _ rfl x
    · intro x; exact slab_piece x2 x0 13 (by omega) Facts₀.inb_S16x1x1024x128_S1x1x1024x128_13_0_0_0 _ rfl x
    · intro x; exact slab_piece x2 x0 12 (by omega) Facts₀.inb_S16x1x1024x128_S1x1x1024x128_12_0_0_0 _ rfl x
    · intro x; exact slab_piece x2 x0 11 (by omega) Facts₀.inb_S16x1x1024x128_S1x1x1024x128_11_0_0_0 _ rfl x
    · intro x; exact slab_piece x2 x0 10 (by omega) Facts₀.inb_S16x1x1024x128_S1x1x1024x128_10_0_0_0 _ rfl x
    · intro x; exact slab_piece x2 x0 9 (by omega) Facts₀.inb_S16x1x1024x128_S1x1x1024x128_9_0_0_0 _ rfl x
    · intro x; exact slab_piece x2 x0 8 (by omega) Facts₀.inb_S16x1x1024x128_S1x1x1024x128_8_0_0_0 _ rfl x
    · intro x; exact slab_piece x2 x0 7 (by omega) Facts₀.inb_S16x1x1024x128_S1x1x1024x128_7_0_0_0 _ rfl x
    · intro x; exact slab_piece x2 x0 6 (by omega) Facts₀.inb_S16x1x1024x128_S1x1x1024x128_6_0_0_0 _ rfl x
    · intro x; exact slab_piece x2 x0 5 (by omega) Facts₀.inb_S16x1x1024x128_S1x1x1024x128_5_0_0_0 _ rfl x
    · intro x; exact slab_piece x2 x0 4 (by omega) Facts₀.inb_S16x1x1024x128_S1x1x1024x128_4_0_0_0 _ rfl x
    · intro x; exact slab_piece x2 x0 3 (by omega) Facts₀.inb_S16x1x1024x128_S1x1x1024x128_3_0_0_0 _ rfl x
    · intro x; exact slab_piece x2 x0 2 (by omega) Facts₀.inb_S16x1x1024x128_S1x1x1024x128_2_0_0_0 _ rfl x
    · intro x; exact slab_piece x2 x0 1 (by omega) Facts₀.inb_S16x1x1024x128_S1x1x1024x128_1_0_0_0 _ rfl x
    · intro x; exact slab_piece x2 x0 0 (by omega) Facts₀.inb_S16x1x1024x128_S1x1x1024x128_0_0_0_0 _ rfl x
  · unfold runFine; dsimp only
    exact View.cover_of_tiledL (s := S16x1x1024x128) _ S1x1x1024x128.size (by sl_kernel_rfl) y

set_option maxHeartbeats 2000000 in
/-- What the coarse run's stores leave in the output block reads as `slabs` of the coarse table and the coarse index
    block: each of the sixteen stores is the row function of its own index row, and the stores tile the block. -/
theorem read_runCoarse (c : Dev nD) (i : grid0.Coords)
    (arg2 : Memref sig .tc .vmem S16x1024 .i32) (harg2 : arg2.IsWhole) (arg3 : Memref sig .tc .vmem S16x1024 .i32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S16x1x1024x128 .f32) (harg6 : arg6.IsWhole)
    (h1 : ¬ k0_cond1 i = 1#1) (h2 : k0_cond2 i = 1#1)
    (x0 x1 : Vec F S16x1024 .i32) (x2 x3 : Vec F S512x256 .bf16)
    (f : arg6.view.ty.Contents (Elt F)) :
    arg6.view.read (Elt F) (arg6.view.writes (Elt F) f (runCoarse c i arg2 harg2 arg3 harg3 arg4 harg4 arg5 harg5 arg6 harg6 h1 h2 x0 x1 x2 x3).1)
      = slabs x3 x1 := by
  funext y
  refine View.read_writes_apply_of_pieces _ _ (slabs x3 x1) _ ?_ y ?_
  · unfold runCoarse; dsimp only; sl_unfold_words
    simp only [View.readAt_eq_ld, Memref.IsWhole.read_unread, View.ld_unit_zero (S := S512x256) off2_zero]
    intro p hp
    simp only [List.mem_cons, List.mem_nil_iff, or_false] at hp
    rcases hp with rfl | rfl | rfl | rfl | rfl | rfl | rfl | rfl | rfl | rfl | rfl | rfl | rfl | rfl | rfl | rfl
    · intro x; exact slab_piece x3 x1 15 (by omega) Facts₀.inb_S16x1x1024x128_S1x1x1024x128_15_0_0_0 _ rfl x
    · intro x; exact slab_piece x3 x1 14 (by omega) Facts₀.inb_S16x1x1024x128_S1x1x1024x128_14_0_0_0 _ rfl x
    · intro x; exact slab_piece x3 x1 13 (by omega) Facts₀.inb_S16x1x1024x128_S1x1x1024x128_13_0_0_0 _ rfl x
    · intro x; exact slab_piece x3 x1 12 (by omega) Facts₀.inb_S16x1x1024x128_S1x1x1024x128_12_0_0_0 _ rfl x
    · intro x; exact slab_piece x3 x1 11 (by omega) Facts₀.inb_S16x1x1024x128_S1x1x1024x128_11_0_0_0 _ rfl x
    · intro x; exact slab_piece x3 x1 10 (by omega) Facts₀.inb_S16x1x1024x128_S1x1x1024x128_10_0_0_0 _ rfl x
    · intro x; exact slab_piece x3 x1 9 (by omega) Facts₀.inb_S16x1x1024x128_S1x1x1024x128_9_0_0_0 _ rfl x
    · intro x; exact slab_piece x3 x1 8 (by omega) Facts₀.inb_S16x1x1024x128_S1x1x1024x128_8_0_0_0 _ rfl x
    · intro x; exact slab_piece x3 x1 7 (by omega) Facts₀.inb_S16x1x1024x128_S1x1x1024x128_7_0_0_0 _ rfl x
    · intro x; exact slab_piece x3 x1 6 (by omega) Facts₀.inb_S16x1x1024x128_S1x1x1024x128_6_0_0_0 _ rfl x
    · intro x; exact slab_piece x3 x1 5 (by omega) Facts₀.inb_S16x1x1024x128_S1x1x1024x128_5_0_0_0 _ rfl x
    · intro x; exact slab_piece x3 x1 4 (by omega) Facts₀.inb_S16x1x1024x128_S1x1x1024x128_4_0_0_0 _ rfl x
    · intro x; exact slab_piece x3 x1 3 (by omega) Facts₀.inb_S16x1x1024x128_S1x1x1024x128_3_0_0_0 _ rfl x
    · intro x; exact slab_piece x3 x1 2 (by omega) Facts₀.inb_S16x1x1024x128_S1x1x1024x128_2_0_0_0 _ rfl x
    · intro x; exact slab_piece x3 x1 1 (by omega) Facts₀.inb_S16x1x1024x128_S1x1x1024x128_1_0_0_0 _ rfl x
    · intro x; exact slab_piece x3 x1 0 (by omega) Facts₀.inb_S16x1x1024x128_S1x1x1024x128_0_0_0_0 _ rfl x
  · unfold runCoarse; dsimp only
    exact View.cover_of_tiledL (s := S16x1x1024x128) _ S1x1x1024x128.size (by sl_kernel_rfl) y

end Cert.KernelIdeal.Body

end
-- ==== Proof.KI.Body.lean ====
/-
  The pipeline's proof data, the body obligation and the frame run. After the body at a grid point every
  input window still holds its block, and the output window holds `slabs` of the point's channel: the fine
  table and fine index block where the second grid coordinate is below 4, the coarse ones at coordinate 4.
-/
import proofs.«423538_j72052371358246_3_alg».proof.Proof.KI.Slabs
import proofs.«423538_j72052371358246_3_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At every grid point exactly one of the two conditionals is taken. -/
theorem cond2_iff : ∀ t : Fin cfg0.N, k0_cond2 (grid0.coords t) = 1#1 ↔ ¬ k0_cond1 (grid0.coords t) = 1#1 :=
  (by decide +kernel : ∀ t : Fin grid0.N, k0_cond2 (grid0.coords t) = 1#1 ↔ ¬ k0_cond1 (grid0.coords t) = 1#1)

/-- What the body leaves in the output window's buffer at point `t`. -/
def outAt (c : Dev nD) (t : Fin cfg0.N) : Vec F S16x1x1024x128 .f32 :=
  if k0_cond1 (grid0.coords t) = 1#1 then slabs (iblk m c 2 t) (iblk m c 0 t) else slabs (iblk m c 3 t) (iblk m c 1 t)

/-- The proof data of the one pipeline on core `c`: the arrays as the region finds them; after the body each
    input's buffer at its block and the output's at `outAt`; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Each window's current staging memref at point `t`, and its wholeness. -/
abbrev ms0 (t : Fin cfg0.N) : Memref sig .tc .vmem S16x1024 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x1024 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x1x1024x128 .f32 := win0_4.stage (cfg0.slots t 4)
abbrev hs4 (t : Fin cfg0.N) : (ms4 t).IsWhole := hstage0_4 ((cfg0.slots t 4).cast nbuf0_4)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- No window is idle at any grid point: the inputs never are, and of the output's two conditionals one is taken
    at every point. -/
theorem liveAt : ∀ (w : Fin 5) (t : Fin cfg0.N), cfg0.idle w (grid0.coords t) = false := by decide +kernel

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 2000000 in
/-- The body at any point: the inputs' memrefs hold their blocks, so the run of the point's channel applies;
    what its stores leave in the output buffer reads as `slabs` of that channel; the invariant and the core's
    owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
      unfold Dat.leavesExact; rw [liveAt 0 t],
    show (dats m 0 c).leavesExact 1 t = owns (c : Thread nD τ) (ms1 t) fullShare ((dats m 0 c).after 1 t) from by
      unfold Dat.leavesExact; rw [liveAt 1 t],
    show (dats m 0 c).leavesExact 2 t = owns (c : Thread nD τ) (ms2 t) fullShare ((dats m 0 c).after 2 t) from by
      unfold Dat.leavesExact; rw [liveAt 2 t],
    show (dats m 0 c).leavesExact 3 t = owns (c : Thread nD τ) (ms3 t) fullShare ((dats m 0 c).after 3 t) from by
      unfold Dat.leavesExact; rw [liveAt 3 t],
    show (dats m 0 c).leavesExact 4 t = owns (c : Thread nD τ) (ms4 t) fullShare ((dats m 0 c).after 4 t) from by
      unfold Dat.leavesExact; rw [liveAt 4 t],
    after0_0, after0_1, after0_2, after0_3, after0_4]
  iintro ⟨HΦ, Ho, ⟨%d0, H0⟩, ⟨%d1, H1⟩, ⟨%d2, H2⟩, ⟨%d3, H3⟩, ⟨%d4, H4⟩⟩
  by_cases hc : k0_cond1 (grid0.coords t) = 1#1
  · have hc2 : ¬ k0_cond2 (grid0.coords t) = 1#1 := fun h => (cond2_iff t).mp h hc
    iapply ((runFine c (grid0.coords t) (ms0 t) (hs0 t) (ms1 t) (hs1 t) (ms2 t) (hs2 t) (ms3 t) (hs3 t) (ms4 t) (hs4 t) hc hc2
      (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%f, H4⟩⟩
    isplitl [HΦ]; · iexact HΦ
    isplitl [Ho]; · iexact Ho
    isplitl [H0]; · iexact H0
    isplitl [H1]; · iexact H1
    isplitl [H2]; · iexact H2
    isplitl [H3]; · iexact H3
    unfold owns
    iexists _; isplitr
    swap; · iexact H4
    ipureintro
    rw [read_runFine]
    unfold outAt
    rw [if_pos hc]
  · have hc2 : k0_cond2 (grid0.coords t) = 1#1 := (cond2_iff t).mpr hc
    iapply ((runCoarse c (grid0.coords t) (ms0 t) (hs0 t) (ms1 t) (hs1 t) (ms2 t) (hs2 t) (ms3 t) (hs3 t) (ms4 t) (hs4 t) hc hc2
      (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%f, H4⟩⟩
    isplitl [HΦ]; · iexact HΦ
    isplitl [Ho]; · iexact Ho
    isplitl [H0]; · iexact H0
    isplitl [H1]; · iexact H1
    isplitl [H2]; · iexact H2
    isplitl [H3]; · iexact H3
    unfold owns
    iexists _; isplitr
    swap; · iexact H4
    ipureintro
    rw [read_runCoarse]
    unfold outAt
    rw [if_neg hc]

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of the program terminates, and the final state has
    every array of the pipeline at what the proof data's writes-back leave and every other buffer as the
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end without a fault and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.KI.Final.lean ====
/-
  From the blocks to the whole result array, and through the reshape after the region.

  The grid has twenty points; point t has coordinates (t / 5, t mod 5). At point t the output window's block
  is rows 16 (t / 5) … 16 (t / 5) + 15 of channel t mod 5 of the result array f32[64, 5, 1024, 128]; the
  channels 0 … 3 are the fine ones (table: the fine table, index words: row block t / 5 and positions
  1024 (t mod 5) … of the fine words), channel 4 is the coarse one (the coarse table and the coarse words).
  Every block is the restriction of ONE function G of the array index, so after the twenty write-backs,
  whose blocks tile the array, the array is G; the program's result is G read through the row-major
  flattening f32[64, 5, 1024, 128] → f32[64, 655360].
-/
import proofs.«423538_j72052371358246_3_alg».proof.Proof.KI.Body
import Idealize.ShloMosaic.Lib.ValueIdx
import Idealize.ShloMosaic.Lib.Pipeline.Value

set_option maxRecDepth 16384

noncomputable section

namespace Cert.KernelIdeal.Final

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- The flat result read at (b, j) is the four-axis array at (b, j / 131072, j / 128 mod 1024, j mod 128):
    both indices have the same row-major position. -/
theorem reshape_apply (A : FVec F S64x5x1024x128 .f32) (b : Fin 64) (j : Fin 655360) :
    shapeCast S64x655360 A shapeCasts_S64x5x1024x128_S64x655360 (ix2 b j)
      = A (ix4 b (⟨j.val / 131072, by have := j.isLt; omega⟩ : Fin 5)
            (⟨j.val / 128 % 1024, by omega⟩ : Fin 1024) (⟨j.val % 128, by omega⟩ : Fin 128)) := by
  refine shapeCast_apply A _ (ix2 b j) _ ?_
  rw [Shape.rowMajor_val_four, Shape.rowMajor_val_two]
  show ((b.val * 5 + j.val / 131072) * 1024 + j.val / 128 % 1024) * 128 + j.val % 128 = b.val * 655360 + j.val
  have := j.isLt
  omega

/-- Row b of the fine word array, positions 1024 p … 1024 p + 1023, as a row vector. -/
def wordRow (W : IVec S64x4096 32) (b : Fin 64) (p : ℕ) (hp : p < 4) : Vec F S1x1024 .i32 :=
  fun z => W (ix2 b (⟨1024 * p + (z 1).val, by have h : (z 1).val < 1024 := (z 1).isLt; omega⟩ : Fin 4096))

/-- Row b of the coarse word array as a row vector. -/
def wordRowC (W : IVec S64x1024 32) (b : Fin 64) : Vec F S1x1024 .i32 :=
  fun z => W (ix2 b (⟨(z 1).val, (z 1).isLt⟩ : Fin 1024))

/-- The index maps of the five windows and the channel condition, decided over the twenty grid points:
    point t has grid coordinates (t / 5, t mod 5). -/
theorem idx_facts : ∀ t : Fin cfg0.N,
    win0_4.index t (0 : Fin 4) = t.val / 5 ∧ win0_4.index t (1 : Fin 4) = t.val % 5
    ∧ win0_4.index t (2 : Fin 4) = 0 ∧ win0_4.index t (3 : Fin 4) = 0
    ∧ win0_0.index t (0 : Fin 2) = t.val / 5 ∧ win0_0.index t (1 : Fin 2) = min (t.val % 5) 3
    ∧ win0_1.index t (0 : Fin 2) = t.val / 5 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ (k0_cond1 (grid0.coords t) = 1#1 ↔ t.val % 5 < 4) :=
  (by decide +kernel : ∀ t : Fin grid0.N, _)

/-- The result function over the four arrays it reads: at (b, p, r, d) with p < 4 the row payload of the
    fine table and row b, positions 1024 p …, of the fine words; at p = 4 that of the coarse table and row b
    of the coarse words; each read at (0, 0, r, d). -/
def Gof (T40 T45 : Vec F S512x256 .bf16) (W17 : IVec S64x4096 32) (W35 : IVec S64x1024 32) :
    FVec F S64x5x1024x128 .f32 := fun i =>
  if hp : (i 1).val < 4 then
    k0_pay6 T40 (wordRow W17 (i 0) (i 1).val hp) (ix4 (0 : Fin 1) (0 : Fin 1) (i 2) (i 3))
  else
    k0_pay6 T45 (wordRowC W35 (i 0)) (ix4 (0 : Fin 1) (0 : Fin 1) (i 2) (i 3))

theorem Gof_fine (T40 T45 : Vec F S512x256 .bf16) (W17 : IVec S64x4096 32) (W35 : IVec S64x1024 32)
    (i : S64x5x1024x128.Idx) (hp : (i 1).val < 4) :
    Gof T40 T45 W17 W35 i = k0_pay6 T40 (wordRow W17 (i 0) (i 1).val hp) (ix4 (0 : Fin 1) (0 : Fin 1) (i 2) (i 3)) :=
  dif_pos hp

theorem Gof_coarse (T40 T45 : Vec F S512x256 .bf16) (W17 : IVec S64x4096 32) (W35 : IVec S64x1024 32)
    (i : S64x5x1024x128.Idx) (hp : ¬ (i 1).val < 4) :
    Gof T40 T45 W17 W35 i = k0_pay6 T45 (wordRowC W35 (i 0)) (ix4 (0 : Fin 1) (0 : Fin 1) (i 2) (i 3)) :=
  dif_neg hp

/-- The region's result array as one function of the arrays the region finds. -/
def G (c : Dev nD) : FVec F S64x5x1024x128 .f32 :=
  Gof (V m c main_v40) (V m c main_v45) (V m c main_v17) (V m c main_v35)

theorem G_fine (c : Dev nD) (b : Fin 64) (p : Fin 5) (hp : p.val < 4) (r : Fin 1024) (d : Fin 128) :
    G m c (ix4 b p r d) = k0_pay6 (V m c main_v40 : Vec F S512x256 .bf16)
      (wordRow (V m c main_v17 : IVec S64x4096 32) b p.val hp) (ix4 (0 : Fin 1) (0 : Fin 1) r d) := by
  unfold G
  exact Gof_fine _ _ _ _ (ix4 b p r d) hp

theorem G_coarse (c : Dev nD) (b : Fin 64) (p : Fin 5) (hp : ¬ p.val < 4) (r : Fin 1024) (d : Fin 128) :
    G m c (ix4 b p r d) = k0_pay6 (V m c main_v45 : Vec F S512x256 .bf16)
      (wordRowC (V m c main_v35 : IVec S64x1024 32) b) (ix4 (0 : Fin 1) (0 : Fin 1) r d) := by
  unfold G
  exact Gof_coarse _ _ _ _ (ix4 b p r d) hp

/-- A slab block read at y, given its table, the words of its row y 0 and its last two coordinates. -/
theorem slabs_eq (T T' : Vec F S512x256 .bf16) (X : Vec F S16x1024 .i32) (R : Vec F S1x1024 .i32)
    (y : S16x1x1024x128.Idx) (r : Fin 1024) (d : Fin 128)
    (hT : T = T') (hR : ∀ z : S1x1024.Idx, X ((rowRect (y 0)).idx z) = R z)
    (hr : (y 2).val = r.val) (hd : (y 3).val = d.val) :
    slabs T X y = k0_pay6 T' R (ix4 (0 : Fin 1) (0 : Fin 1) r d) := by
  subst hT
  unfold slabs
  have e1 : View.ld X (rowRect (y 0)) = R := funext hR
  rw [e1]
  refine congrArg (k0_pay6 T R) (funext fun a => ?_)
  match a with
  | ⟨0, _⟩ => rfl
  | ⟨1, _⟩ => rfl
  | ⟨2, _⟩ => exact Fin.ext hr
  | ⟨3, _⟩ => exact Fin.ext hd

/-- A slab block of the fine channel: with table T the fine table and index block X rows 16 q …, positions
    1024 p …, of the fine words, the block at y is the result function at (16 q + y 0, p, y 2, y 3). -/
theorem slabs_fine_of (T T40 T45 : Vec F S512x256 .bf16) (X : Vec F S16x1024 .i32) (W17 : IVec S64x4096 32)
    (W35 : IVec S64x1024 32) (q p : ℕ) (hp : p < 4) (y : S16x1x1024x128.Idx) (i : S64x5x1024x128.Idx)
    (hT : T = T40)
    (hX : ∀ (x : S16x1024.Idx) (k : S64x4096.Idx), (k 0).val = q * 16 + (x 0).val → (k 1).val = p * 1024 + (x 1).val → X x = W17 k)
    (h0 : (i 0).val = q * 16 + (y 0).val) (h1 : (i 1).val = p) (h2 : (i 2).val = (y 2).val) (h3 : (i 3).val = (y 3).val) :
    slabs T X y = Gof T40 T45 W17 W35 i := by
  have hp' : (i 1).val < 4 := by omega
  rw [Gof_fine T40 T45 W17 W35 i hp']
  refine slabs_eq T T40 X _ y (i 2) (i 3) hT (fun z => ?_) h2.symm h3.symm
  unfold wordRow
  refine hX _ _ ?_ ?_
  · have hz : (z 0).val < 1 := (z 0).isLt
    show (i 0).val = q * 16 + ((y 0).val + 1 * (z 0).val)
    omega
  · show 1024 * (i 1).val + (z 1).val = p * 1024 + (0 + 1 * (z 1).val)
    omega

/-- A slab block of the coarse channel: with table T the coarse table and index block X rows 16 q … of the
    coarse words, the block at y is the result function at (16 q + y 0, 4, y 2, y 3). -/
theorem slabs_coarse_of (T T40 T45 : Vec F S512x256 .bf16) (X : Vec F S16x1024 .i32) (W17 : IVec S64x4096 32)
    (W35 : IVec S64x1024 32) (q p : ℕ) (hp : ¬ p < 4) (y : S16x1x1024x128.Idx) (i : S64x5x1024x128.Idx)
    (hT : T = T45)
    (hX : ∀ (x : S16x1024.Idx) (k : S64x1024.Idx), (k 0).val = q * 16 + (x 0).val → (k 1).val = (x 1).val → X x = W35 k)
    (h0 : (i 0).val = q * 16 + (y 0).val) (h1 : (i 1).val = p) (h2 : (i 2).val = (y 2).val) (h3 : (i 3).val = (y 3).val) :
    slabs T X y = Gof T40 T45 W17 W35 i := by
  have hp' : ¬ (i 1).val < 4 := by omega
  rw [Gof_coarse T40 T45 W17 W35 i hp']
  refine slabs_eq T T45 X _ y (i 2) (i 3) hT (fun z => ?_) h2.symm h3.symm
  unfold wordRowC
  refine hX _ _ ?_ ?_
  · have hz : (z 0).val < 1 := (z 0).isLt
    show (i 0).val = q * 16 + ((y 0).val + 1 * (z 0).val)
    omega
  · show (z 1).val = 0 + 1 * (z 1).val
    omega

/-- Window 0's block of point t, read off any array A of the fine words' shape, at x: A at row 16 (t / 5) + x 0,
    position 1024 min (t mod 5, 3) + x 1. -/
theorem blk0_read (A : IVec S64x4096 32) (t : Fin cfg0.N) (x : S16x1024.Idx) (k : S64x4096.Idx)
    (hk0 : (k 0).val = t.val / 5 * 16 + (x 0).val) (hk1 : (k 1).val = min (t.val % 5) 3 * 1024 + (x 1).val) :
    ((cfg0.win 0).blk t).view.read (Elt F) A x = A k := by
  obtain ⟨-, -, -, -, e0, e1, -⟩ := idx_facts t
  rw [View.read_apply]
  show A _ = A _
  refine congrArg A (funext fun a => Fin.ext ?_)
  match a with
  | ⟨0, _⟩ => show win0_0.index t (0 : Fin 2) * 16 + 1 * (x 0).val = (k 0).val; rw [e0, hk0]; omega
  | ⟨1, _⟩ => show win0_0.index t (1 : Fin 2) * 1024 + 1 * (x 1).val = (k 1).val; rw [e1, hk1]; omega

/-- Window 1's block of point t, read off any array A of the coarse words' shape, at x: A at row 16 (t / 5) + x 0,
    position x 1. -/
theorem blk1_read (A : IVec S64x1024 32) (t : Fin cfg0.N) (x : S16x1024.Idx) (k : S64x1024.Idx)
    (hk0 : (k 0).val = t.val / 5 * 16 + (x 0).val) (hk1 : (k 1).val = (x 1).val) :
    ((cfg0.win 1).blk t).view.read (Elt F) A x = A k := by
  obtain ⟨-, -, -, -, -, -, e0, e1, -⟩ := idx_facts t
  rw [View.read_apply]
  show A _ = A _
  refine congrArg A (funext fun a => Fin.ext ?_)
  match a with
  | ⟨0, _⟩ => show win0_1.index t (0 : Fin 2) * 16 + 1 * (x 0).val = (k 0).val; rw [e0, hk0]; omega
  | ⟨1, _⟩ => show win0_1.index t (1 : Fin 2) * 1024 + 1 * (x 1).val = (k 1).val; rw [e1, hk1]; omega

/-- Window 2's block of any point, read off any array of the tables' shape, is the array. -/
theorem blk2_read (A : Vec F S512x256 .bf16) (t : Fin cfg0.N) :
    ((cfg0.win 2).blk t).view.read (Elt F) A = A := by
  obtain ⟨-, -, -, -, -, -, -, -, e0, e1, -⟩ := idx_facts t
  funext x
  rw [View.read_apply]
  show A _ = A _
  refine congrArg A (funext fun a => Fin.ext ?_)
  match a with
  | ⟨0, _⟩ => show win0_2.index t (0 : Fin 2) * 512 + 1 * (x 0).val = (x 0).val; rw [e0]; omega
  | ⟨1, _⟩ => show win0_2.index t (1 : Fin 2) * 256 + 1 * (x 1).val = (x 1).val; rw [e1]; omega

/-- Window 3's block of any point, read off any array of the tables' shape, is the array. -/
theorem blk3_read (A : Vec F S512x256 .bf16) (t : Fin cfg0.N) :
    ((cfg0.win 3).blk t).view.read (Elt F) A = A := by
  obtain ⟨-, -, -, -, -, -, -, -, -, -, e0, e1, -⟩ := idx_facts t
  funext x
  rw [View.read_apply]
  show A _ = A _
  refine congrArg A (funext fun a => Fin.ext ?_)
  match a with
  | ⟨0, _⟩ => show win0_3.index t (0 : Fin 2) * 512 + 1 * (x 0).val = (x 0).val; rw [e0]; omega
  | ⟨1, _⟩ => show win0_3.index t (1 : Fin 2) * 256 + 1 * (x 1).val = (x 1).val; rw [e1]; omega

/-- The fine index block of point t at x is the fine word array at row 16 (t / 5) + x 0,
    position 1024 min (t mod 5, 3) + x 1. -/
theorem iblk0_apply (c : Dev nD) (t : Fin cfg0.N) (x : S16x1024.Idx) (k : S64x4096.Idx)
    (hk0 : (k 0).val = t.val / 5 * 16 + (x 0).val) (hk1 : (k 1).val = min (t.val % 5) 3 * 1024 + (x 1).val) :
    (iblk m c 0 t : Vec F S16x1024 .i32) x = (V m c main_v17 : IVec S64x4096 32) k := by
  unfold iblk
  exact blk0_read (F := F) (V m c main_v17) t x k hk0 hk1

/-- The coarse index block of point t at x is the coarse word array at row 16 (t / 5) + x 0, position x 1. -/
theorem iblk1_apply (c : Dev nD) (t : Fin cfg0.N) (x : S16x1024.Idx) (k : S64x1024.Idx)
    (hk0 : (k 0).val = t.val / 5 * 16 + (x 0).val) (hk1 : (k 1).val = (x 1).val) :
    (iblk m c 1 t : Vec F S16x1024 .i32) x = (V m c main_v35 : IVec S64x1024 32) k := by
  unfold iblk
  exact blk1_read (F := F) (V m c main_v35) t x k hk0 hk1

/-- The fine table's block at every point is the whole fine table. -/
theorem iblk2_eq (c : Dev nD) (t : Fin cfg0.N) :
    (iblk m c 2 t : Vec F S512x256 .bf16) = (V m c main_v40 : Vec F S512x256 .bf16) := by
  unfold iblk
  exact blk2_read (F := F) (V m c main_v40) t

/-- The coarse table's block at every point is the whole coarse table. -/
theorem iblk3_eq (c : Dev nD) (t : Fin cfg0.N) :
    (iblk m c 3 t : Vec F S512x256 .bf16) = (V m c main_v45 : Vec F S512x256 .bf16) := by
  unfold iblk
  exact blk3_read (F := F) (V m c main_v45) t

/-- What point t writes back is block t of the result function: the point's channel is decided by t mod 5,
    its table block is the whole table, and its index block is rows 16 (t / 5) … of the channel's words. -/
theorem flushed_eq (c : Dev nD) (t : Fin cfg0.N) :
    (dats m 0 c).after 4 t = ((cfg0.win 4).blk t).view.read (Elt F) (G m c) := by
  obtain ⟨e0, e1, e2, e3, -, -, -, -, -, -, -, -, hc⟩ := idx_facts t
  rw [after0_4]
  refine funext fun (y : S16x1x1024x128.Idx) => ?_
  show outAt m c t y = G m c (((cfg0.win 4).blk t).view.emb y)
  have hy1 : (y 1).val < 1 := (y 1).isLt
  unfold outAt G
  by_cases ht : t.val % 5 < 4
  · rw [if_pos (hc.mpr ht)]
    refine slabs_fine_of (iblk m c 2 t) (V m c main_v40) (V m c main_v45) (iblk m c 0 t) (V m c main_v17) (V m c main_v35)
      (t.val / 5) (t.val % 5) ht y _ (iblk2_eq m c t)
      (fun x k hk0 hk1 => iblk0_apply m c t x k hk0 (by rw [hk1, Nat.min_eq_left (by omega)])) ?_ ?_ ?_ ?_
    · show win0_4.index t (0 : Fin 4) * 16 + 1 * (y 0).val = t.val / 5 * 16 + (y 0).val; rw [e0]; omega
    · show win0_4.index t (1 : Fin 4) * 1 + 1 * (y 1).val = t.val % 5; rw [e1]; omega
    · show win0_4.index t (2 : Fin 4) * 1024 + 1 * (y 2).val = (y 2).val; rw [e2]; omega
    · show win0_4.index t (3 : Fin 4) * 128 + 1 * (y 3).val = (y 3).val; rw [e3]; omega
  · rw [if_neg (fun h => ht (hc.mp h))]
    refine slabs_coarse_of (iblk m c 3 t) (V m c main_v40) (V m c main_v45) (iblk m c 1 t) (V m c main_v17) (V m c main_v35)
      (t.val / 5) (t.val % 5) ht y _ (iblk3_eq m c t)
      (fun x k hk0 hk1 => iblk1_apply m c t x k hk0 hk1) ?_ ?_ ?_ ?_
    · show win0_4.index t (0 : Fin 4) * 16 + 1 * (y 0).val = t.val / 5 * 16 + (y 0).val; rw [e0]; omega
    · show win0_4.index t (1 : Fin 4) * 1 + 1 * (y 1).val = t.val % 5; rw [e1]; omega
    · show win0_4.index t (2 : Fin 4) * 1024 + 1 * (y 2).val = (y 2).val; rw [e2]; omega
    · show win0_4.index t (3 : Fin 4) * 128 + 1 * (y 3).val = (y 3).val; rw [e3]; omega

/-- Every index (b, p, r, d) of the result array lies in the block of the point 5 (b / 16) + p, so after
    the twenty write-backs the array is the result function. -/
theorem final (c : Dev nD) : (dats m 0 c).arrAt 4 cfg0.N = G m c :=
  (dats m 0 c).arrAt_eq_of_cover 4 (G m c) (fun t _ => flushed_eq m c t) fun i => by
    have hN : cfg0.N = 20 := N_0
    have hi0 : (i 0).val < 64 := (i 0).isLt
    have hi1 : (i 1).val < 5 := (i 1).isLt
    have hi2 : (i 2).val < 1024 := (i 2).isLt
    have hi3 : (i 3).val < 128 := (i 3).isLt
    have ht : 5 * ((i 0).val / 16) + (i 1).val < cfg0.N := by rw [hN]; omega
    obtain ⟨t, htv⟩ : ∃ t : Fin cfg0.N, t.val = 5 * ((i 0).val / 16) + (i 1).val := ⟨⟨_, ht⟩, rfl⟩
    obtain ⟨e0, e1, e2, e3, -⟩ := idx_facts t
    refine ⟨t, flush0_4 t, ?_⟩
    show i ∈ ((View.whole main_v46).slice (win0_4.rect t)).set
    rw [View.set_slice_whole, Rect.mem_set_unit]
    intro a
    match a with
    | ⟨0, _⟩ =>
      show win0_4.index t (0 : Fin 4) * 16 ≤ (i 0).val ∧ (i 0).val < win0_4.index t (0 : Fin 4) * 16 + 16
      rw [e0]; omega
    | ⟨1, _⟩ =>
      show win0_4.index t (1 : Fin 4) * 1 ≤ (i 1).val ∧ (i 1).val < win0_4.index t (1 : Fin 4) * 1 + 1
      rw [e1]; omega
    | ⟨2, _⟩ =>
      show win0_4.index t (2 : Fin 4) * 1024 ≤ (i 2).val ∧ (i 2).val < win0_4.index t (2 : Fin 4) * 1024 + 1024
      rw [e2]; omega
    | ⟨3, _⟩ =>
      show win0_4.index t (3 : Fin 4) * 128 ≤ (i 3).val ∧ (i 3).val < win0_4.index t (3 : Fin 4) * 128 + 128
      rw [e3]; omega

/-- The one operation after the region flattens the result array: the program's final result is the result
    function, reshaped. -/
theorem result_eq (c : Dev nD) :
    Pipeline.afterTail₀ cfgs (dats m) 0 (V0 m) [hostOps1] c main_v47
      = shapeCast S64x655360 (G m c) shapeCasts_S64x5x1024x128_S64x655360 := by
  have hA : Pipeline.withArrays (cfgs 0).spec c (V0 m c) (fun w => (dats m 0 c).arrAt w (cfgs 0).N)
      (Proc.devRef .tc main_v46) = G m c :=
    (Pipeline.withArrays_arr spec0 launch0.win.arr_inj c _ _ 4).trans (final m c)
  unfold Pipeline.afterTail₀
  show StableHlo.after hostOps1 _ (Proc.devRef .tc main_v47) = _
  after_results
  rw [hA]
  rfl

end Cert.KernelIdeal.Final

end
-- ==== Proof.KI.KernelRun.lean ====
/-
  The idealized kernel program's run with its result named: the region leaves the result array at the
  whole-array function `Final.G`, and the one operation after the region reshapes it to 64 rows of 655360.
-/
import proofs.«423538_j72052371358246_3_alg».proof.Proof.KI.Final

set_option maxRecDepth 16384

noncomputable section

namespace Cert.KernelIdeal.KernelRun

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution terminates with the result at the reshaped `Final.G` and the six arguments
    unchanged: the frame run's post read at the result buffer (no window's array, so it ends as the operation
    after the region leaves it) and at the arguments. -/
theorem run : θ_run defs (onTc (τ := τ) (main (F := F))) ⟨m, fun _ => 0, ρ⟩ (fun r => ∀ c : Dev nD,
      r.2.mem ((c.tc : Thread nD τ).loc main_v47) = shapeCast S64x655360 (Cert.KernelIdeal.Final.G m c) shapeCasts_S64x5x1024x128_S64x655360
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v47 (Pipeline.mem_restRefs_of main_v47 (by decide) (by decide))).trans (Cert.KernelIdeal.Final.result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KernelRun

end
-- ==== Proof.KI.RowValue.lean ====
/-
  The kernel body's row payload read at one index, at the ideal values.

  The body gathers rows of a table by a matrix product with a one-hot matrix. For a row of 1024 index words R and a
  table T of 512 rows and 256 columns, the one-hot matrix has, at (r, k), the value one when word r is the number k and
  zero otherwise; its product with T, accumulated from zero, has at (r, n) the sum over k of these indicators times
  T (k, n). Since 0 * x = 0 and 1 * x = x for every extended real x, that sum is T at row (word r) whenever the word is
  below 512, with no finiteness asked of the table. The payload adds the left and the right half of that row: at
  (0, 0, r, d) it is T (word r, d) + T (word r, d + 128).
-/
import proofs.«423538_j72052371358246_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RowValue

open Cert.KernelIdeal Cert.KernelIdeal.Gen Idealize.ShloMosaic Idealize.ShloMosaic.ValueIdx
open scoped BigOperators

/-! ## The product's operand indices, axis by axis

At output index (r, n) and contraction position k the left operand is read at (r, k) and the right one at (k, n). -/

theorem lhs_row (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide),
    dif_pos (show (0 : Fin S1024x512.rank) ∈ dot_S1024x512_S512x256_S1024x256_1_0_0_1_n_n.lhsNonContracting by decide)]
  rfl

theorem lhs_col (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q

theorem rhs_row (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q

theorem rhs_col (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide),
    dif_pos (show (1 : Fin S512x256.rank) ∈ dot_S1024x512_S512x256_S1024x256_1_0_0_1_n_n.rhsNonContracting by decide)]
  rfl

/-- The product into the zero accumulator, read at (r, n): the sum over the contracted coordinate. -/
theorem matmul_at (A : FVec Ideal S1024x512 .bf16) (B : FVec Ideal S512x256 .bf16) (r : Fin 1024) (n : Fin 256) :
    matmul dot_S1024x512_S512x256_S1024x256_1_0_0_1_n_n none A B (constant (F := Ideal) S1024x256 .f32 0x00000000#32) (ix2 r n)
      = ∑ k : Fin 512, A (ix2 r k) * B (ix2 k n) := by
  show FloatOps.matmul dot_S1024x512_S512x256_S1024x256_1_0_0_1_n_n none A B _ (ix2 r n) = _
  rw [Ideal.matmul_constant_zero_apply,
    ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 r n)
      ((contrEquiv1 dot_S1024x512_S512x256_S1024x256_1_0_0_1_n_n 512 rfl rfl).symm k) = ix2 r k :=
    funext fun a => Fin.ext (by
      match a with
      | ⟨0, _⟩ => exact lhs_row _ _
      | ⟨1, _⟩ => exact (lhs_col _ _).trans hk)
  have er : dot_S1024x512_S512x256_S1024x256_1_0_0_1_n_n.rhsIdx (ix2 r n)
      ((contrEquiv1 dot_S1024x512_S512x256_S1024x256_1_0_0_1_n_n 512 rfl rfl).symm k) = ix2 k n :=
    funext fun a => Fin.ext (by
      match a with
      | ⟨0, _⟩ => exact (rhs_row _ _).trans hk
      | ⟨1, _⟩ => exact rhs_col _ _)
  rw [el, er]

/-! ## A vector as a column, and a column repeated along the rows -/

/-- A vector `[a]` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The one-hot row -/

/-- A condition bit widened to a word and converted: one where it holds, zero where it does not. -/
theorem bit_to_real (c : BitVec 1) :
    (FloatOps.sitofp (F := Ideal) .f32 (c.setWidth 32) : Ideal .f32) = if c = 1#1 then (1 : EReal) else 0 := by
  rcases BitVec.eq_zero_or_eq_one c with h | h
  · subst h
    show ((((0#1 : BitVec 1).setWidth 32).toInt : ℝ) : EReal) = _
    rw [if_neg (by decide)]
    have : ((0#1 : BitVec 1).setWidth 32).toInt = 0 := by decide
    rw [this]; norm_cast
  · subst h
    show ((((1#1 : BitVec 1).setWidth 32).toInt : ℝ) : EReal) = _
    rw [if_pos rfl]
    have : ((1#1 : BitVec 1).setWidth 32).toInt = 1 := by decide
    rw [this]; norm_cast

/-- The comparison of two words for equality gives the bit `1` exactly when they are equal. -/
theorem cmpi_eq_one_iff (x y : BitVec 32) : IntOp.cmpi .eq x y = 1#1 ↔ x = y := by
  show BitVec.ofBool (x == y) = 1#1 ↔ x = y
  by_cases h : x = y
  · subst h
    have hb : (x == x) = true := beq_self_eq_true x
    rw [hb]
    exact ⟨fun _ => rfl, fun _ => rfl⟩
  · have hb : (x == y) = false := beq_false_of_ne h
    rw [hb]
    exact ⟨fun e => absurd e (by decide), fun e => absurd e h⟩

/-- The one-hot matrix at (r, k): one where row word r is the number k, zero elsewhere. -/
theorem onehot_apply (R : IVec S1x1024 32)
    (h1 : S1x1024.ShapeCasts S1024) (h2 : S1024.ShapeCasts S1024x1) (h3 : S1024x1.Broadcasts S1024x512)
    (h4 : S1x512.Iotas .tc 32 [1]) (h5 : S1x512.Broadcasts S1024x512) (h6 : 1 < 32)
    (h7 : FTy.bits .bf16 < FTy.bits .f32) (r : Fin 1024) (k : Fin 512) :
    (truncf .bf16 (sitofp (F := Ideal) .f32 (extui 32 (cmpi .eq
        (broadcastTo S1024x512 (shapeCast S1024x1 (shapeCast S1024 R h1) h2) h3)
        (broadcastTo S1024x512 (iota .tc S1x512 32 [1] h4) h5)) h6)) h7 : FVec Ideal S1024x512 .bf16) (ix2 r k)
      = if R (ix2 (0 : Fin 1) r) = BitVec.ofNat 32 k.val then (1 : EReal) else 0 := by
  show FloatOps.sitofp (F := Ideal) .f32 ((IntOp.cmpi .eq
      (broadcastTo S1024x512 (shapeCast S1024x1 (shapeCast S1024 R h1) h2) h3 (ix2 r k))
      (broadcastTo S1024x512 (iota .tc S1x512 32 [1] h4) h5 (ix2 r k))).setWidth 32) = _
  rw [broadcastTo_a1_ab_apply, shapeCast_a_a1_apply, shapeCast_1a_a_apply, broadcastTo_1b_ab_apply,
    iota_single_apply, bit_to_real]
  show (if IntOp.cmpi .eq (R (ix2 (0 : Fin 1) r)) (BitVec.ofNat 32 k.val) = 1#1 then (1 : EReal) else 0) = _
  by_cases h : R (ix2 (0 : Fin 1) r) = BitVec.ofNat 32 k.val
  · rw [if_pos ((cmpi_eq_one_iff _ _).mpr h), if_pos h]
  · rw [if_neg (fun e => h ((cmpi_eq_one_iff _ _).mp e)), if_neg h]

/-! ## The selected row -/

/-- A number below 512 written as a word is a given word exactly when it is that word's number. -/
theorem ofNat_eq_iff (w : BitVec 32) (k : Fin 512) (hlt : w.toNat < 512) :
    w = BitVec.ofNat 32 k.val ↔ k = ⟨w.toNat, hlt⟩ := by
  constructor
  · intro e
    apply Fin.ext
    show k.val = w.toNat
    rw [e, BitVec.toNat_ofNat]
    have := k.isLt
    exact (Nat.mod_eq_of_lt (by omega)).symm
  · intro e
    apply BitVec.eq_of_toNat_eq
    rw [BitVec.toNat_ofNat, e]
    show w.toNat = w.toNat % 2 ^ 32
    exact (Nat.mod_eq_of_lt (by omega)).symm

/-- A sum weighted by the indicator of one position is the term at that position; no finiteness is asked of the
    terms, since `0 * x = 0` and `1 * x = x` for every extended real. -/
theorem sum_onehot (w : BitVec 32) (hlt : w.toNat < 512) (f : Fin 512 → EReal) :
    ∑ k : Fin 512, (if w = BitVec.ofNat 32 k.val then (1 : EReal) else 0) * f k = f ⟨w.toNat, hlt⟩ := by
  rw [Finset.sum_eq_single (⟨w.toNat, hlt⟩ : Fin 512)]
  · rw [if_pos ((ofNat_eq_iff w _ hlt).mpr rfl), one_mul]
  · intro b _ hb
    rw [if_neg (fun e => hb ((ofNat_eq_iff w b hlt).mp e)), zero_mul]
  · intro h
    exact absurd (Finset.mem_univ _) h

/-! ## The payload at an index -/

/-- Row r of the product of the one-hot matrix with the table is the table's row numbered by word r. -/
theorem matmul_row (T : FVec Ideal S512x256 .bf16) (R : IVec S1x1024 32)
    (h1 : S1x1024.ShapeCasts S1024) (h2 : S1024.ShapeCasts S1024x1) (h3 : S1024x1.Broadcasts S1024x512)
    (h4 : S1x512.Iotas .tc 32 [1]) (h5 : S1x512.Broadcasts S1024x512) (h6 : 1 < 32)
    (h7 : FTy.bits .bf16 < FTy.bits .f32) (h8 : S512x256.ShapeCasts S512x256) (r : Fin 1024) (n : Fin 256)
    (hlt : (R (ix2 (0 : Fin 1) r)).toNat < 512) :
    matmul dot_S1024x512_S512x256_S1024x256_1_0_0_1_n_n none
        (truncf .bf16 (sitofp (F := Ideal) .f32 (extui 32 (cmpi .eq
          (broadcastTo S1024x512 (shapeCast S1024x1 (shapeCast S1024 R h1) h2) h3)
          (broadcastTo S1024x512 (iota .tc S1x512 32 [1] h4) h5)) h6)) h7 : FVec Ideal S1024x512 .bf16)
        (shapeCast S512x256 T h8) (constant (F := Ideal) S1024x256 .f32 0x00000000#32) (ix2 r n)
      = T (ix2 ⟨(R (ix2 (0 : Fin 1) r)).toNat, hlt⟩ n) := by
  rw [matmul_at, shapeCast_self]
  refine (Finset.sum_congr rfl fun k _ => ?_).trans
    (sum_onehot (R (ix2 (0 : Fin 1) r)) hlt (fun k => T (ix2 k n)))
  rw [onehot_apply]

/-- THE PAYLOAD AT (0, 0, r, d): the two halves of the table's row numbered by word r, added. -/
theorem slab_apply (T : Vec Ideal S512x256 .bf16) (R : Vec Ideal S1x1024 .i32) (r : Fin 1024) (d : Fin 128)
    (hlt : (R (ix2 (0 : Fin 1) r)).toNat < 512) :
    k0_pay6 (F := Ideal) T R (ix4 (0 : Fin 1) (0 : Fin 1) r d)
      = T (ix2 ⟨(R (ix2 (0 : Fin 1) r)).toNat, hlt⟩ ⟨d.val, by have := d.isLt; omega⟩)
        + T (ix2 ⟨(R (ix2 (0 : Fin 1) r)).toNat, hlt⟩ ⟨d.val + 128, by have := d.isLt; omega⟩) := by
  unfold k0_pay6 k0_pay5
  refine (shapeCast_apply _ _ (ix4 (0 : Fin 1) (0 : Fin 1) r d) (ix2 r d) (by
    rw [Shape.rowMajor_val_four, Shape.rowMajor_val_two]
    show r.val * 128 + d.val = (((0 * 1 + 0) * 1024 + r.val) * 128 + d.val)
    omega)).trans ?_
  refine (addf_apply _ _ _).trans ?_
  refine congrArg₂ (· + ·) ?_ ?_
  · refine (slice2_axis1_apply 0 _ _ r d (⟨d.val, by have := d.isLt; omega⟩ : Fin 256) (Nat.zero_add _).symm).trans ?_
    exact matmul_row T R _ _ _ _ _ _ _ _ r _ hlt
  · refine (slice2_axis1_apply 128 _ _ r d (⟨d.val + 128, by have := d.isLt; omega⟩ : Fin 256) (Nat.add_comm _ _)).trans ?_
    exact matmul_row T R _ _ _ _ _ _ _ _ r _ hlt

end Cert.KernelIdeal.RowValue
-- ==== Proof.KI.HostPrefix.lean ====
/-
  The host operations of the program that run before its one kernel call, in closed form: what they
  leave in the four arrays the call reads. Per channel the index words go through a chain of bit
  operations that ends in a signed clip into [0, 511] and are then reshaped to rows; per codebook
  the table is the pair (high part | low part) laid side by side, the high part the codebook
  rounded to the short format and the low part the rounded remainder.
-/
import proofs.«423538_j72052371358246_3_alg».proof.Proof.Gen.KernelIdeal.Frame
import Idealize.ShloMosaic.Lib.StableHlo.Run
import Idealize.ShloMosaic.Lib.ValueIdx
import Idealize.ShloMosaic.Lib.Pipeline.Value
import Idealize.ShloMosaic.Lib.WordArith

set_option maxRecDepth 16384

noncomputable section

namespace Cert.KernelIdeal.HostPrefix

open Cert.KernelIdeal Cert.KernelIdeal.Gen
open Idealize.ShloMosaic Idealize.ShloMosaic.TcCoe Idealize.ShloMosaic.ValueIdx

variable {F : FTy → Type} [FloatOps F]

/-! ## The composed terms -/

/-- The fine channel's index words after the whole chain: bit `k` (for `k < 9`) of the word is flipped where
    the noise entry `k` is below the threshold, the nine bits are summed back with their weights, and the
    result is clipped (signed) into `[0, 511]`. -/
def wordsF (a1 : IVec S64x64x64 32) (a5 : FVec F S64x64x64x9 .f32) : IVec S64x64x64 32 :=
  minsi (broadcastInDim S64x64x64 ![] bcast_S_S64x64x64 (id (constantI S_ 32 511#32)))
    (maxsi (broadcastInDim S64x64x64 ![] bcast_S_S64x64x64 (id (constantI S_ 32 0#32)))
      (Host.reduce IntOp.addi
        (Host.shli
          (xori
            (andi
              (Host.shrsi
                (broadcastInDim S64x64x64x9 ![0, 1, 2, 3] bcast_S64x64x64x1_S64x64x64x9_0_1_2_3
                  (broadcastInDim S64x64x64x1 ![0, 1, 2] bcast_S64x64x64_S64x64x64x1_0_1_2 a1))
                (broadcastInDim S64x64x64x9 ![0, 1, 2, 3] bcast_S1x1x1x9_S64x64x64x9_0_1_2_3
                  (broadcastInDim S1x1x1x9 ![3] bcast_S9_S1x1x1x9_3 (iotaInDim S9 32 0))))
              (broadcastInDim S64x64x64x9 ![] bcast_S_S64x64x64x9 (constantI S_ 32 1#32)))
            (extui 32 (cmpf .olt a5 (broadcastInDim S64x64x64x9 ![] bcast_S_S64x64x64x9 (constant (F := F) S_ .f32 0x3CA3D70A#32))) natLt_1_32))
          (broadcastInDim S64x64x64x9 ![0, 1, 2, 3] bcast_S1x1x1x9_S64x64x64x9_0_1_2_3
            (broadcastInDim S1x1x1x9 ![3] bcast_S9_S1x1x1x9_3 (iotaInDim S9 32 0))))
        (constantI S_ 32 0#32) reducesTo_S64x64x64x9_S64x64x64_d3 h_S_))

/-- The coarse channel's index words after the same chain at the coarse extents. -/
def wordsC (a0 : IVec S64x32x32 32) (a4 : FVec F S64x32x32x9 .f32) : IVec S64x32x32 32 :=
  minsi (broadcastInDim S64x32x32 ![] bcast_S_S64x32x32 (id (constantI S_ 32 511#32)))
    (maxsi (broadcastInDim S64x32x32 ![] bcast_S_S64x32x32 (id (constantI S_ 32 0#32)))
      (Host.reduce IntOp.addi
        (Host.shli
          (xori
            (andi
              (Host.shrsi
                (broadcastInDim S64x32x32x9 ![0, 1, 2, 3] bcast_S64x32x32x1_S64x32x32x9_0_1_2_3
                  (broadcastInDim S64x32x32x1 ![0, 1, 2] bcast_S64x32x32_S64x32x32x1_0_1_2 a0))
                (broadcastInDim S64x32x32x9 ![0, 1, 2, 3] bcast_S1x1x1x9_S64x32x32x9_0_1_2_3
                  (broadcastInDim S1x1x1x9 ![3] bcast_S9_S1x1x1x9_3 (iotaInDim S9 32 0))))
              (broadcastInDim S64x32x32x9 ![] bcast_S_S64x32x32x9 (constantI S_ 32 1#32)))
            (extui 32 (cmpf .olt a4 (broadcastInDim S64x32x32x9 ![] bcast_S_S64x32x32x9 (constant (F := F) S_ .f32 0x3CA3D70A#32))) natLt_1_32))
          (broadcastInDim S64x32x32x9 ![0, 1, 2, 3] bcast_S1x1x1x9_S64x32x32x9_0_1_2_3
            (broadcastInDim S1x1x1x9 ![3] bcast_S9_S1x1x1x9_3 (iotaInDim S9 32 0))))
        (constantI S_ 32 0#32) reducesTo_S64x32x32x9_S64x32x32_d3 h_S_))

/-- A codebook's table: the codebook rounded to the short format, and beside it the rounded remainder of
    the codebook less that rounding read back in the long format. -/
def hiLo (cb : FVec F S512x128 .f32) : FVec F S512x256 .bf16 :=
  concatenate S512x256 1
    [⟨S512x128, truncf .bf16 cb bitsLt_bf16_f32⟩,
     ⟨S512x128, truncf .bf16 (subf cb (extf .f32 (truncf .bf16 cb bitsLt_bf16_f32) bitsLt_bf16_f32)) bitsLt_bf16_f32⟩]
    concatenates_S512x128_S512x128_S512x256_d1

/-! ## The two tables as the region finds them -/

section Launched
variable (m : (ℓ : Loc nD τ sig) → Buf (Elt F) ℓ)

set_option maxHeartbeats 4000000 in
/-- The fine codebook's table as the region finds it. -/
theorem V_v40 (c : Dev nD) :
    (V m c main_v40 : FVec F S512x256 .bf16) = hiLo (m ((c : Thread nD τ).loc main_arg3)) := by
  show (V m c main_v40 : FVec F S512x256 .bf16) = _
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

set_option maxHeartbeats 4000000 in
/-- The coarse codebook's table as the region finds it. -/
theorem V_v45 (c : Dev nD) :
    (V m c main_v45 : FVec F S512x256 .bf16) = hiLo (m ((c : Thread nD τ).loc main_arg2)) := by
  show (V m c main_v45 : FVec F S512x256 .bf16) = _
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

end Launched

/-! ## The reshapes read at an index -/

/-- Row `b` of the reshaped fine words at column `n` is the word at `(b, n / 64, n % 64)`. -/
theorem words17_apply (a : IVec S64x64x64 32) (b : Fin 64) (n : Fin 4096) :
    shapeCast S64x4096 a shapeCasts_S64x64x64_S64x4096 (ix2 b n)
      = a (ix3 b ⟨n.val / 64, by have := n.isLt; omega⟩ ⟨n.val % 64, Nat.mod_lt _ (by decide)⟩) :=
  shapeCast_apply a shapeCasts_S64x64x64_S64x4096 _ _ (by
    rw [Shape.rowMajor_val_three, Shape.rowMajor_val_two]
    show (b.val * 64 + n.val / 64) * 64 + n.val % 64 = b.val * 4096 + n.val
    omega)

/-- Row `b` of the reshaped coarse words at column `n` is the word at `(b, n / 32, n % 32)`. -/
theorem words35_apply (a : IVec S64x32x32 32) (b : Fin 64) (n : Fin 1024) :
    shapeCast S64x1024 a shapeCasts_S64x32x32_S64x1024 (ix2 b n)
      = a (ix3 b ⟨n.val / 32, by have := n.isLt; omega⟩ ⟨n.val % 32, Nat.mod_lt _ (by decide)⟩) :=
  shapeCast_apply a shapeCasts_S64x32x32_S64x1024 _ _ (by
    rw [Shape.rowMajor_val_three, Shape.rowMajor_val_two]
    show (b.val * 32 + n.val / 32) * 32 + n.val % 32 = b.val * 1024 + n.val
    omega)

/-! ## The clip's range -/

/-- A word clipped (signed) below at zero and above at 511 is, as a natural number, below 512. -/
theorem clip_lt (x : BitVec 32) : (IntOp.minsi 511#32 (IntOp.maxsi 0#32 x)).toNat < 512 := by
  have h2 : (IntOp.maxsi 0#32 x).toNat < 2 ^ 31 := by
    have := WordArith.two_mul_toNat_maxsi_zero_lt x
    rw [Scalar.maxsi] at this
    omega
  rw [WordArith.toNat_minsi_of_lt 511#32 _ (by decide) h2]
  have : (511#32 : BitVec 32).toNat = 511 := by decide
  omega

/-- The same for a whole array of words clipped entry by entry against the two constants. -/
theorem clipVec_lt {s : Shape} (h : S_.BroadcastsInDim s (![] : Fin 0 → Fin s.rank)) (x : IVec s 32) (i : s.Idx) :
    (minsi (broadcastInDim s ![] h (id (constantI S_ 32 511#32)))
      (maxsi (broadcastInDim s ![] h (id (constantI S_ 32 0#32))) x) i).toNat < 512 :=
  clip_lt (x i)

/-- Every fine index word is below 512 after the chain. -/
theorem wordsF_lt (a1 : IVec S64x64x64 32) (a5 : FVec F S64x64x64x9 .f32) (i : S64x64x64.Idx) :
    (wordsF (F := F) a1 a5 i).toNat < 512 := by
  unfold wordsF
  exact clipVec_lt bcast_S_S64x64x64 _ i

/-- Every coarse index word is below 512 after the chain. -/
theorem wordsC_lt (a0 : IVec S64x32x32 32) (a4 : FVec F S64x32x32x9 .f32) (i : S64x32x32.Idx) :
    (wordsC (F := F) a0 a4 i).toNat < 512 := by
  unfold wordsC
  exact clipVec_lt bcast_S_S64x32x32 _ i

/-! ## The tables read at a column, over the reals -/

/-- Column `d` of the high half of a table is the codebook's entry: over the reals the change of format
    is the identity. -/
theorem hiLo_apply_hi (cb : FVec Ideal S512x128 .f32) (k : Fin 512) (d : Fin 128) :
    hiLo (F := Ideal) cb (ix2 k ⟨d.val, by have := d.isLt; omega⟩) = cb (ix2 k d) := by
  unfold hiLo
  refine (concatenate_pair_apply_left (t := S512x256) (s₁ := S512x128) (s₂ := S512x128) (1 : Fin 2) _ _
    concatenates_S512x128_S512x128_S512x256_d1
    (ix2 k (⟨d.val, by have := d.isLt; omega⟩ : Fin 256)) rfl (ix2 k d) ?_).trans ?_
  · intro b; match b with | ⟨0, _⟩ => rfl | ⟨1, _⟩ => rfl
  · rfl

/-- Column `d + 128` of a table, in its low half, is the codebook's entry less itself: over the reals the
    rounding the remainder is taken against is the identity. -/
theorem hiLo_apply_lo (cb : FVec Ideal S512x128 .f32) (k : Fin 512) (d : Fin 128) :
    hiLo (F := Ideal) cb (ix2 k ⟨d.val + 128, by have := d.isLt; omega⟩) = cb (ix2 k d) - cb (ix2 k d) := by
  unfold hiLo
  refine (concatenate_pair_apply_right (t := S512x256) (s₁ := S512x128) (s₂ := S512x128) (1 : Fin 2) _ _
    concatenates_S512x128_S512x128_S512x256_d1
    (ix2 k (⟨d.val + 128, by have := d.isLt; omega⟩ : Fin 256)) rfl rfl (ix2 k d) ?_ ?_).trans ?_
  · intro b hb; match b, hb with | ⟨0, _⟩, _ => rfl | ⟨1, _⟩, hb => exact absurd rfl hb
  · rfl
  · rfl

/-! ## The index rows as the region finds them

The chain is read in stretches, each over an arbitrary valuation of the buffers: the summed words, then the
clip around them (an inlined function, whose typed references transport along identities), then the reshape. -/

/-- The fine channel's summed words before the clip. -/
def sumF (a1 : IVec S64x64x64 32) (a5 : FVec F S64x64x64x9 .f32) : IVec S64x64x64 32 :=
  Host.reduce IntOp.addi
    (Host.shli
      (xori
        (andi
          (Host.shrsi
            (broadcastInDim S64x64x64x9 ![0, 1, 2, 3] bcast_S64x64x64x1_S64x64x64x9_0_1_2_3
              (broadcastInDim S64x64x64x1 ![0, 1, 2] bcast_S64x64x64_S64x64x64x1_0_1_2 a1))
            (broadcastInDim S64x64x64x9 ![0, 1, 2, 3] bcast_S1x1x1x9_S64x64x64x9_0_1_2_3
              (broadcastInDim S1x1x1x9 ![3] bcast_S9_S1x1x1x9_3 (iotaInDim S9 32 0))))
          (broadcastInDim S64x64x64x9 ![] bcast_S_S64x64x64x9 (constantI S_ 32 1#32)))
        (extui 32 (cmpf .olt a5 (broadcastInDim S64x64x64x9 ![] bcast_S_S64x64x64x9 (constant (F := F) S_ .f32 0x3CA3D70A#32))) natLt_1_32))
      (broadcastInDim S64x64x64x9 ![0, 1, 2, 3] bcast_S1x1x1x9_S64x64x64x9_0_1_2_3
        (broadcastInDim S1x1x1x9 ![3] bcast_S9_S1x1x1x9_3 (iotaInDim S9 32 0))))
    (constantI S_ 32 0#32) reducesTo_S64x64x64x9_S64x64x64_d3 h_S_

/-- The coarse channel's summed words before the clip. -/
def sumC (a0 : IVec S64x32x32 32) (a4 : FVec F S64x32x32x9 .f32) : IVec S64x32x32 32 :=
  Host.reduce IntOp.addi
    (Host.shli
      (xori
        (andi
          (Host.shrsi
            (broadcastInDim S64x32x32x9 ![0, 1, 2, 3] bcast_S64x32x32x1_S64x32x32x9_0_1_2_3
              (broadcastInDim S64x32x32x1 ![0, 1, 2] bcast_S64x32x32_S64x32x32x1_0_1_2 a0))
            (broadcastInDim S64x32x32x9 ![0, 1, 2, 3] bcast_S1x1x1x9_S64x32x32x9_0_1_2_3
              (broadcastInDim S1x1x1x9 ![3] bcast_S9_S1x1x1x9_3 (iotaInDim S9 32 0))))
          (broadcastInDim S64x32x32x9 ![] bcast_S_S64x32x32x9 (constantI S_ 32 1#32)))
        (extui 32 (cmpf .olt a4 (broadcastInDim S64x32x32x9 ![] bcast_S_S64x32x32x9 (constant (F := F) S_ .f32 0x3CA3D70A#32))) natLt_1_32))
      (broadcastInDim S64x32x32x9 ![0, 1, 2, 3] bcast_S1x1x1x9_S64x32x32x9_0_1_2_3
        (broadcastInDim S1x1x1x9 ![3] bcast_S9_S1x1x1x9_3 (iotaInDim S9 32 0))))
    (constantI S_ 32 0#32) reducesTo_S64x32x32x9_S64x32x32_d3 h_S_

/-- The fine words are the clip of the summed words. -/
theorem wordsF_eq (a1 : IVec S64x64x64 32) (a5 : FVec F S64x64x64x9 .f32) :
    wordsF a1 a5 = minsi (broadcastInDim S64x64x64 ![] bcast_S_S64x64x64 (id (constantI S_ 32 511#32)))
      (maxsi (broadcastInDim S64x64x64 ![] bcast_S_S64x64x64 (id (constantI S_ 32 0#32))) (sumF a1 a5)) := rfl

/-- The coarse words are the clip of the summed words. -/
theorem wordsC_eq (a0 : IVec S64x32x32 32) (a4 : FVec F S64x32x32x9 .f32) :
    wordsC a0 a4 = minsi (broadcastInDim S64x32x32 ![] bcast_S_S64x32x32 (id (constantI S_ 32 511#32)))
      (maxsi (broadcastInDim S64x32x32 ![] bcast_S_S64x32x32 (id (constantI S_ 32 0#32))) (sumC a0 a4)) := rfl

section Stretches
variable (W : Valuation τ sig (Elt F))

/-- Running two stretches of operations one after the other is running the second from where the first ends. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op ops ih => exact ih _

set_option maxHeartbeats 4000000 in
/-- The first stretch leaves the fine channel's summed words, -/
theorem after0_v15 :
    (StableHlo.after hostOps0 W (Proc.devRef .tc main_v15) : IVec S64x64x64 32)
      = sumF (W (Proc.devRef .tc main_arg1)) (W (Proc.devRef .tc main_arg5)) := by
  simp only [Gen.hostOps0]
  after_results_simp
  rfl

set_option maxHeartbeats 4000000 in
/-- the clip's lower bound -/
theorem after0_c1 :
    (StableHlo.after hostOps0 W (Proc.devRef .tc main_c_1) : IVec S_ 32) = constantI S_ 32 0#32 := by
  simp only [Gen.hostOps0]
  after_results_simp

set_option maxHeartbeats 4000000 in
/-- and its upper bound. -/
theorem after0_c2 :
    (StableHlo.after hostOps0 W (Proc.devRef .tc main_c_2) : IVec S_ 32) = constantI S_ 32 511#32 := by
  simp only [Gen.hostOps0]
  after_results_simp

set_option maxHeartbeats 4000000 in
/-- The clip's stretch, over any contents of the bounds and of the words. -/
theorem after1_v16 :
    (StableHlo.after hostOps0_1 W (Proc.devRef .tc main_v16) : IVec S64x64x64 32)
      = minsi (broadcastInDim S64x64x64 ![] bcast_S_S64x64x64 (id (W (Proc.devRef .tc main_c_2) : IVec S_ 32)))
          (maxsi (broadcastInDim S64x64x64 ![] bcast_S_S64x64x64 (id (W (Proc.devRef .tc main_c_1) : IVec S_ 32)))
            (W (Proc.devRef .tc main_v15) : IVec S64x64x64 32)) := by
  simp only [Gen.hostOps0_1]
  after_results_simp
  rfl

set_option maxHeartbeats 4000000 in
/-- The rest of the operations leave, in the fine index rows, the reshape of the clipped words. -/
theorem after2_v17 :
    (StableHlo.after (hostOps0_2 ++ (hostOps0_3 ++ hostOps0_4)) W (Proc.devRef .tc main_v17) : IVec S64x4096 32)
      = shapeCast S64x4096 (W (Proc.devRef .tc main_v16) : IVec S64x64x64 32) shapeCasts_S64x64x64_S64x4096 := by
  simp only [Gen.hostOps0_2, Gen.hostOps0_3, Gen.hostOps0_4, List.cons_append, List.nil_append]
  after_results_simp
  rfl

set_option maxHeartbeats 4000000 in
/-- The operations through the coarse chain leave the coarse channel's summed words, -/
theorem afterC_v33 :
    (StableHlo.after (hostOps0 ++ (hostOps0_1 ++ hostOps0_2)) W (Proc.devRef .tc main_v33) : IVec S64x32x32 32)
      = sumC (W (Proc.devRef .tc main_arg0)) (W (Proc.devRef .tc main_arg4)) := by
  simp only [Gen.hostOps0, Gen.hostOps0_1, Gen.hostOps0_2, List.cons_append, List.nil_append]
  after_results_simp
  rfl

set_option maxHeartbeats 4000000 in
/-- the coarse clip's lower bound -/
theorem afterC_c6 :
    (StableHlo.after (hostOps0 ++ (hostOps0_1 ++ hostOps0_2)) W (Proc.devRef .tc main_c_6) : IVec S_ 32)
      = constantI S_ 32 0#32 := by
  simp only [Gen.hostOps0, Gen.hostOps0_1, Gen.hostOps0_2, List.cons_append, List.nil_append]
  after_results_simp

set_option maxHeartbeats 4000000 in
/-- and its upper bound. -/
theorem afterC_c7 :
    (StableHlo.after (hostOps0 ++ (hostOps0_1 ++ hostOps0_2)) W (Proc.devRef .tc main_c_7) : IVec S_ 32)
      = constantI S_ 32 511#32 := by
  simp only [Gen.hostOps0, Gen.hostOps0_1, Gen.hostOps0_2, List.cons_append, List.nil_append]
  after_results_simp

set_option maxHeartbeats 4000000 in
/-- The coarse clip's stretch, over any contents of the bounds and of the words. -/
theorem after3_v34 :
    (StableHlo.after hostOps0_3 W (Proc.devRef .tc main_v34) : IVec S64x32x32 32)
      = minsi (broadcastInDim S64x32x32 ![] bcast_S_S64x32x32 (id (W (Proc.devRef .tc main_c_7) : IVec S_ 32)))
          (maxsi (broadcastInDim S64x32x32 ![] bcast_S_S64x32x32 (id (W (Proc.devRef .tc main_c_6) : IVec S_ 32)))
            (W (Proc.devRef .tc main_v33) : IVec S64x32x32 32)) := by
  simp only [Gen.hostOps0_3]
  after_results_simp
  rfl

set_option maxHeartbeats 4000000 in
/-- The last stretch leaves, in the coarse index rows, the reshape of the clipped words. -/
theorem after4_v35 :
    (StableHlo.after hostOps0_4 W (Proc.devRef .tc main_v35) : IVec S64x1024 32)
      = shapeCast S64x1024 (W (Proc.devRef .tc main_v34) : IVec S64x32x32 32) shapeCasts_S64x32x32_S64x1024 := by
  simp only [Gen.hostOps0_4]
  after_results_simp
  rfl

end Stretches

section LaunchedWords
variable (m : (ℓ : Loc nD τ sig) → Buf (Elt F) ℓ)

/-- The region's valuation, cut after the first stretch and after the fine clip. -/
theorem V0_splitF (c : Dev nD) :
    V0 m c = StableHlo.after (hostOps0_2 ++ (hostOps0_3 ++ hostOps0_4))
      (StableHlo.after hostOps0_1 (StableHlo.after hostOps0 (fun b => m (c, b)))) := by
  show StableHlo.after (List.flatten [hostOps0, hostOps0_1, hostOps0_2, hostOps0_3, hostOps0_4]) _ = _
  rw [← after_append, ← after_append]
  simp only [List.flatten_cons, List.flatten_nil, List.append_nil]

/-- The fine index rows as the region finds them: the clipped words, reshaped. -/
theorem V_v17 (c : Dev nD) :
    (V m c main_v17 : IVec S64x4096 32)
      = shapeCast S64x4096 (wordsF (m ((c : Thread nD τ).loc main_arg1)) (m ((c : Thread nD τ).loc main_arg5)))
          shapeCasts_S64x64x64_S64x4096 := by
  show (V0 m c (Proc.devRef .tc main_v17) : IVec S64x4096 32) = _
  rw [V0_splitF, after2_v17, after1_v16, after0_v15, after0_c1, after0_c2, wordsF_eq]

/-- The region's valuation, cut before the coarse clip and after it. -/
theorem V0_splitC (c : Dev nD) :
    V0 m c = StableHlo.after hostOps0_4
      (StableHlo.after hostOps0_3 (StableHlo.after (hostOps0 ++ (hostOps0_1 ++ hostOps0_2)) (fun b => m (c, b)))) := by
  show StableHlo.after (List.flatten [hostOps0, hostOps0_1, hostOps0_2, hostOps0_3, hostOps0_4]) _ = _
  rw [← after_append, ← after_append]
  simp only [List.flatten_cons, List.flatten_nil, List.append_nil, List.append_assoc]

/-- The coarse index rows as the region finds them: the clipped words, reshaped. -/
theorem V_v35 (c : Dev nD) :
    (V m c main_v35 : IVec S64x1024 32)
      = shapeCast S64x1024 (wordsC (m ((c : Thread nD τ).loc main_arg0)) (m ((c : Thread nD τ).loc main_arg4)))
          shapeCasts_S64x32x32_S64x1024 := by
  show (V0 m c (Proc.devRef .tc main_v35) : IVec S64x1024 32) = _
  rw [V0_splitC, after4_v35, after3_v34, afterC_v33, afterC_c6, afterC_c7, wordsC_eq]

end LaunchedWords

end Cert.KernelIdeal.HostPrefix
-- ==== Proof.Finite.lean ====
/-
  From the certificate's precondition to "every codebook entry is a real number".

  The precondition is the conjunction of four tests, one per float input: every entry x of the
  array satisfies |x| < +∞. Over the extended reals |x| = max x (-x), and the bit pattern
  0x7F800000 denotes +∞ (the top element), so the test says x is neither +∞ nor -∞: x is the
  image of a real number. Each test is a reduction by "and" over all axes whose result is 1, so
  the comparison holds at every index of the array.
-/
import proofs.«423538_j72052371358246_3_alg».proof.Defs
import proofs.«423538_j72052371358246_3_alg».proof.Proof.Gen.Pre_finite_inputs
import proofs.«423538_j72052371358246_3_alg».proof.Proof.Gen.KernelIdeal
import Idealize.ShloMosaic.Lib.ReduceAll
import Idealize.ShloMosaic.Lib.ValueIdx
import Idealize.ShloMosaic.PureOps.Ideal.Laws

noncomputable section

namespace Cert.Finite

open Idealize.ShloMosaic Idealize.SL.Sem

/-- The shape of rank 0 has exactly one index. -/
instance subsingleton_scalar_idx : Subsingleton Cert.Pre_finite_inputs.S_.Idx :=
  ⟨fun a b => funext fun d => d.elim0⟩

/-- The single-precision pattern with all exponent bits set and a zero significand denotes +∞. -/
theorem inf_bits : Ideal.ofBits .f32 0x7F800000#32 = (⊤ : EReal) := by
  simp [Ideal.ofBits, Ideal.ieee]

/-- An extended real whose absolute value max x (-x) lies below +∞ is a real: at x = -∞ the
    maximum is -(-∞) = +∞, at x = +∞ it is +∞ itself. -/
theorem real_of_abs_lt_top (x : EReal) (h : max x (-x) < ⊤) : ∃ y : ℝ, x = ((y : ℝ) : EReal) := by
  induction x using EReal.rec with
  | bot => simp at h
  | coe y => exact ⟨y, rfl⟩
  | top => simp at h

/-- The ordered "less than" comparison answering 1 means a < b in the linear order. -/
theorem lt_of_cmp_olt (a b : EReal) (h : Ideal.cmp .olt a b = 1#1) : a < b := by
  unfold Ideal.cmp at h
  by_contra hn
  simp [hn] at h

/-- One test of the precondition, at any shape: if the "and" over all axes of |x| < +∞ is 1,
    then every entry of x is a real. -/
theorem real_of_all_lt_inf {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1)
    (i : s.Idx) : ∃ y : ℝ, x i = ((y : ℝ) : EReal) := by
  -- the reduction being 1 gives the comparison at the index i
  have hi := Host.reduce_andi_all _ _ hr hu _ e i
  -- read at i: the absolute value of x i against the broadcast constant
  have hi' : Ideal.cmp .olt (max (x i) (-(x i))) (Ideal.ofBits .f32 0x7F800000#32) = 1#1 := hi
  rw [inf_bits] at hi'
  exact real_of_abs_lt_top (x i) (lt_of_cmp_olt _ _ hi')

/-- The four tests of the precondition, separated: on every device each of the four float inputs
    passes its own test. -/
theorem tests [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ((∀ i : Cert.KernelIdeal.S512x128.Idx, ∃ y : ℝ, (m ((c.tc : Thread Cert.KernelIdeal.nD Cert.KernelIdeal.τ).loc Cert.KernelIdeal.main_arg2) : FVec Ideal Cert.KernelIdeal.S512x128 .f32) i = ((y : ℝ) : EReal))
      ∧ (∀ i : Cert.KernelIdeal.S512x128.Idx, ∃ y : ℝ, (m ((c.tc : Thread Cert.KernelIdeal.nD Cert.KernelIdeal.τ).loc Cert.KernelIdeal.main_arg3) : FVec Ideal Cert.KernelIdeal.S512x128 .f32) i = ((y : ℝ) : EReal)))
    ∧ ((∀ i : Cert.KernelIdeal.S64x32x32x9.Idx, ∃ y : ℝ, (m ((c.tc : Thread Cert.KernelIdeal.nD Cert.KernelIdeal.τ).loc Cert.KernelIdeal.main_arg4) : FVec Ideal Cert.KernelIdeal.S64x32x32x9 .f32) i = ((y : ℝ) : EReal))
      ∧ (∀ i : Cert.KernelIdeal.S64x64x64x9.Idx, ∃ y : ℝ, (m ((c.tc : Thread Cert.KernelIdeal.nD Cert.KernelIdeal.τ).loc Cert.KernelIdeal.main_arg5) : FVec Ideal Cert.KernelIdeal.S64x64x64x9 .f32) i = ((y : ℝ) : EReal))) := by
  have h0 := congrFun (h c) ValueIdx.ix0
  dsimp only [Cert.Pre_finite_inputs.fn, Cert.Pre_finite_inputs.fn_part1] at h0
  -- the result is ((t₂ ∧ t₃) ∧ t₄) ∧ t₅, each tᵢ the test of one input
  obtain ⟨h123, h4⟩ := IntOp.andi_eq_one.1 h0
  obtain ⟨h12, h3⟩ := IntOp.andi_eq_one.1 h123
  obtain ⟨h1, h2⟩ := IntOp.andi_eq_one.1 h12
  exact ⟨⟨fun i => real_of_all_lt_inf _ _ _ _ h1 i, fun i => real_of_all_lt_inf _ _ _ _ h2 i⟩,
    ⟨fun i => real_of_all_lt_inf _ _ _ _ h3 i, fun i => real_of_all_lt_inf _ _ _ _ h4 i⟩⟩

/-- Under the precondition every entry of the two codebooks is a real number. -/
theorem codebooks_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S512x128.Idx, ∃ y : ℝ, (m ((c.tc : Thread Cert.KernelIdeal.nD Cert.KernelIdeal.τ).loc Cert.KernelIdeal.main_arg2) : FVec Ideal Cert.KernelIdeal.S512x128 .f32) i = ((y : ℝ) : EReal))
    ∧ (∀ i : Cert.KernelIdeal.S512x128.Idx, ∃ y : ℝ, (m ((c.tc : Thread Cert.KernelIdeal.nD Cert.KernelIdeal.τ).loc Cert.KernelIdeal.main_arg3) : FVec Ideal Cert.KernelIdeal.S512x128 .f32) i = ((y : ℝ) : EReal)) :=
  (tests m h c).1

/-- Under the precondition every entry of the two arrays of uniforms is a real number. -/
theorem uniforms_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S64x32x32x9.Idx, ∃ y : ℝ, (m ((c.tc : Thread Cert.KernelIdeal.nD Cert.KernelIdeal.τ).loc Cert.KernelIdeal.main_arg4) : FVec Ideal Cert.KernelIdeal.S64x32x32x9 .f32) i = ((y : ℝ) : EReal))
    ∧ (∀ i : Cert.KernelIdeal.S64x64x64x9.Idx, ∃ y : ℝ, (m ((c.tc : Thread Cert.KernelIdeal.nD Cert.KernelIdeal.τ).loc Cert.KernelIdeal.main_arg5) : FVec Ideal Cert.KernelIdeal.S64x64x64x9 .f32) i = ((y : ℝ) : EReal)) :=
  (tests m h c).2

end Cert.Finite

end
-- ==== Proof.Spec.lean ====
/-
  What both programs compute, over plain index types: the result's row `b` is the fine grid's 4096
  gathered codebook rows (128 features each) laid end to end, followed by the coarse grid's 1024.
  A received index word selects the codebook row of that number.
-/
import Idealize.ShloMosaic.Lib.ValueIdx

noncomputable section

namespace Cert.Spec

/-- Row number `w` of a 512-row codebook at feature `d` (zero for a word that is no row number; the received
    words are clipped into range, so that case never arises). -/
def rowAt (cb : Fin 512 → Fin 128 → EReal) (w : BitVec 32) (d : Fin 128) : EReal :=
  if h : w.toNat < 512 then cb ⟨w.toNat, h⟩ d else 0

/-- Entry `(b, j)` of the result: flat column `j` is feature `j % 128` of position `j / 128`; the first
    4096 positions are the fine grid's, the last 1024 the coarse grid's. -/
def result (cbF cbC : Fin 512 → Fin 128 → EReal) (wF : Fin 64 → Fin 4096 → BitVec 32) (wC : Fin 64 → Fin 1024 → BitVec 32)
    (b : Fin 64) (j : Fin 655360) : EReal :=
  if h : j.val < 524288 then rowAt cbF (wF b ⟨j.val / 128, by omega⟩) ⟨j.val % 128, Nat.mod_lt _ (by decide)⟩
  else rowAt cbC (wC b ⟨(j.val - 524288) / 128, by have := j.isLt; omega⟩) ⟨j.val % 128, Nat.mod_lt _ (by decide)⟩

theorem rowAt_of_lt (cb : Fin 512 → Fin 128 → EReal) (w : BitVec 32) (d : Fin 128) (h : w.toNat < 512) :
    rowAt cb w d = cb ⟨w.toNat, h⟩ d := dif_pos h

end Cert.Spec

end
-- ==== Proof.KI.KernelValue.lean ====
/-
  The kernel program's result array read at one index, at the ideal values, is the specification's entry.

  Each table the kernel multiplies by holds, for codebook row k, the row itself in its left 128 columns and the
  difference of the row with itself in its right 128 columns. The payload adds the two halves of the row a word selects.
  On a real number y the sum y + (y - y) is y, so where the codebook's entries are real the payload is the codebook's
  row at the word's number: the specification's row. The result array is the 64 x 5 x 1024 x 128 array of payloads
  flattened along its last three axes; flat column j is feature j % 128 of position j / 128, and the first four of
  the five slabs hold the fine grid's 4096 positions, the last the coarse grid's 1024.
-/
import proofs.«423538_j72052371358246_3_alg».proof.Proof.KI.RowValue
import proofs.«423538_j72052371358246_3_alg».proof.Proof.KI.HostPrefix
import proofs.«423538_j72052371358246_3_alg».proof.Proof.KI.Final
import proofs.«423538_j72052371358246_3_alg».proof.Proof.Finite
import proofs.«423538_j72052371358246_3_alg».proof.Proof.Spec

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx

/-! ## One payload entry against the codebook -/

/-- On a real number, the number plus its difference with itself is the number. -/
theorem real_add_sub_self (x : EReal) (hx : ∃ y : ℝ, x = ((y : ℝ) : EReal)) : x + (x - x) = x := by
  obtain ⟨y, rfl⟩ := hx
  rw [← EReal.coe_sub, sub_self, EReal.coe_zero, add_zero]

/-- Over a table whose left half is a real codebook and whose right half is the codebook's difference with itself,
    the payload at (0, 0, r, d) is the codebook's row numbered by word r, at feature d. -/
theorem entry_of_table (cb : FVec Ideal S512x128 .f32) (hcb : ∀ i, ∃ y : ℝ, cb i = ((y : ℝ) : EReal)) (T : Vec Ideal S512x256 .bf16)
    (hhi : ∀ (k : Fin 512) (d : Fin 128), T (ix2 k ⟨d.val, by have := d.isLt; omega⟩) = cb (ix2 k d))
    (hlo : ∀ (k : Fin 512) (d : Fin 128), T (ix2 k ⟨d.val + 128, by have := d.isLt; omega⟩) = cb (ix2 k d) - cb (ix2 k d))
    (R : Vec Ideal S1x1024 .i32) (r : Fin 1024) (d : Fin 128) (hlt : (R (ix2 (0 : Fin 1) r)).toNat < 512) :
    k0_pay6 (F := Ideal) T R (ix4 (0 : Fin 1) (0 : Fin 1) r d)
      = Cert.Spec.rowAt (fun k d => cb (ix2 k d)) (R (ix2 (0 : Fin 1) r)) d := by
  rw [Cert.KernelIdeal.RowValue.slab_apply T R r d hlt, Cert.Spec.rowAt_of_lt _ _ _ hlt, hhi, hlo]
  exact real_add_sub_self _ (hcb _)

/-! ## The result array at an index -/

/-- Position `j / 128` of flat column `j` in the fine part: slab `j / 131072`, row `j / 128 % 1024`. -/
theorem fine_position (j : ℕ) (hj : j < 524288) : 1024 * (j / 131072) + j / 128 % 1024 = j / 128 := by omega

/-- Position of flat column `j` in the coarse part: the row `j / 128 % 1024` of the last slab. -/
theorem coarse_position (j : ℕ) (h0 : 524288 ≤ j) (h1 : j < 655360) : j / 128 % 1024 = (j - 524288) / 128 := by omega

/-- THE KERNEL PROGRAM'S RESULT AT (b, j) is the specification's entry there. -/
theorem kernel_entry [Cert.Pre_finite_inputs.Facts] (m : (ℓ : Loc nD τ sig) → Buf (Elt Ideal) ℓ) (hpre : Cert.Pre_KernelIdeal m)
    (c : Dev nD) (b : Fin 64) (j : Fin 655360) :
    shapeCast S64x655360 (Cert.KernelIdeal.Final.G (F := Ideal) m c) shapeCasts_S64x5x1024x128_S64x655360 (ix2 b j)
      = Cert.Spec.result (fun k d => (m ((c : Thread nD τ).loc main_arg3) : FVec Ideal S512x128 .f32) (ix2 k d))
          (fun k d => (m ((c : Thread nD τ).loc main_arg2) : FVec Ideal S512x128 .f32) (ix2 k d))
          (fun b n => Cert.KernelIdeal.HostPrefix.wordsF (F := Ideal) (m ((c : Thread nD τ).loc main_arg1)) (m ((c : Thread nD τ).loc main_arg5))
            (ix3 b ⟨n.val / 64, by have := n.isLt; omega⟩ ⟨n.val % 64, Nat.mod_lt _ (by decide)⟩))
          (fun b n => Cert.KernelIdeal.HostPrefix.wordsC (F := Ideal) (m ((c : Thread nD τ).loc main_arg0)) (m ((c : Thread nD τ).loc main_arg4))
            (ix3 b ⟨n.val / 32, by have := n.isLt; omega⟩ ⟨n.val % 32, Nat.mod_lt _ (by decide)⟩)) b j := by
  have hjlt := j.isLt
  have hreal := Cert.Finite.codebooks_real m hpre c
  refine (Cert.KernelIdeal.Final.reshape_apply _ b j).trans ?_
  unfold Cert.Spec.result
  by_cases hj : j.val < 524288
  · rw [dif_pos hj]
    have hp : (⟨j.val / 131072, by omega⟩ : Fin 5).val < 4 := by show j.val / 131072 < 4; omega
    refine (Cert.KernelIdeal.Final.G_fine m c b ⟨j.val / 131072, by omega⟩ hp _ _).trans ?_
    rw [Cert.KernelIdeal.HostPrefix.V_v40, Cert.KernelIdeal.HostPrefix.V_v17]
    -- the word the row vector holds at this row
    have hn : (⟨1024 * (j.val / 131072) + j.val / 128 % 1024, by omega⟩ : Fin 4096) = ⟨j.val / 128, by omega⟩ :=
      Fin.ext (fine_position j.val hj)
    have hw : (Cert.KernelIdeal.Final.wordRow (F := Ideal)
          (shapeCast S64x4096 (Cert.KernelIdeal.HostPrefix.wordsF (F := Ideal) (m ((c : Thread nD τ).loc main_arg1)) (m ((c : Thread nD τ).loc main_arg5)))
            shapeCasts_S64x64x64_S64x4096) b (j.val / 131072) hp)
          (ix2 (0 : Fin 1) (⟨j.val / 128 % 1024, Nat.mod_lt _ (by decide)⟩ : Fin 1024))
        = Cert.KernelIdeal.HostPrefix.wordsF (F := Ideal) (m ((c : Thread nD τ).loc main_arg1)) (m ((c : Thread nD τ).loc main_arg5))
            (ix3 b ⟨j.val / 128 / 64, by omega⟩ ⟨j.val / 128 % 64, Nat.mod_lt _ (by decide)⟩) := by
      show shapeCast S64x4096 _ shapeCasts_S64x64x64_S64x4096
          (ix2 b (⟨1024 * (j.val / 131072) + j.val / 128 % 1024, by omega⟩ : Fin 4096)) = _
      rw [hn]
      exact Cert.KernelIdeal.HostPrefix.words17_apply _ b ⟨j.val / 128, by omega⟩
    have hlt := Cert.KernelIdeal.HostPrefix.wordsF_lt (F := Ideal) (m ((c : Thread nD τ).loc main_arg1)) (m ((c : Thread nD τ).loc main_arg5))
      (ix3 b ⟨j.val / 128 / 64, by omega⟩ ⟨j.val / 128 % 64, Nat.mod_lt _ (by decide)⟩)
    rw [← hw] at hlt
    refine (entry_of_table (m ((c : Thread nD τ).loc main_arg3) : FVec Ideal S512x128 .f32) hreal.2 _
      (Cert.KernelIdeal.HostPrefix.hiLo_apply_hi _) (Cert.KernelIdeal.HostPrefix.hiLo_apply_lo _) _ _ _ hlt).trans ?_
    rw [hw]
  · rw [dif_neg hj]
    have hp : ¬ (⟨j.val / 131072, by omega⟩ : Fin 5).val < 4 := by show ¬ j.val / 131072 < 4; omega
    refine (Cert.KernelIdeal.Final.G_coarse m c b ⟨j.val / 131072, by omega⟩ hp _ _).trans ?_
    rw [Cert.KernelIdeal.HostPrefix.V_v45, Cert.KernelIdeal.HostPrefix.V_v35]
    have hn : (⟨j.val / 128 % 1024, Nat.mod_lt _ (by decide)⟩ : Fin 1024) = ⟨(j.val - 524288) / 128, by omega⟩ :=
      Fin.ext (coarse_position j.val (by omega) hjlt)
    have hw : (Cert.KernelIdeal.Final.wordRowC (F := Ideal)
          (shapeCast S64x1024 (Cert.KernelIdeal.HostPrefix.wordsC (F := Ideal) (m ((c : Thread nD τ).loc main_arg0)) (m ((c : Thread nD τ).loc main_arg4)))
            shapeCasts_S64x32x32_S64x1024) b)
          (ix2 (0 : Fin 1) (⟨j.val / 128 % 1024, Nat.mod_lt _ (by decide)⟩ : Fin 1024))
        = Cert.KernelIdeal.HostPrefix.wordsC (F := Ideal) (m ((c : Thread nD τ).loc main_arg0)) (m ((c : Thread nD τ).loc main_arg4))
            (ix3 b ⟨(j.val - 524288) / 128 / 32, by omega⟩ ⟨(j.val - 524288) / 128 % 32, Nat.mod_lt _ (by decide)⟩) := by
      show shapeCast S64x1024 _ shapeCasts_S64x32x32_S64x1024
          (ix2 b (⟨j.val / 128 % 1024, Nat.mod_lt _ (by decide)⟩ : Fin 1024)) = _
      rw [hn]
      exact Cert.KernelIdeal.HostPrefix.words35_apply _ b ⟨(j.val - 524288) / 128, by omega⟩
    have hlt := Cert.KernelIdeal.HostPrefix.wordsC_lt (F := Ideal) (m ((c : Thread nD τ).loc main_arg0)) (m ((c : Thread nD τ).loc main_arg4))
      (ix3 b ⟨(j.val - 524288) / 128 / 32, by omega⟩ ⟨(j.val - 524288) / 128 % 32, Nat.mod_lt _ (by decide)⟩)
    rw [← hw] at hlt
    refine (entry_of_table (m ((c : Thread nD τ).loc main_arg2) : FVec Ideal S512x128 .f32) hreal.1 _
      (Cert.KernelIdeal.HostPrefix.hiLo_apply_hi _) (Cert.KernelIdeal.HostPrefix.hiLo_apply_lo _) _ _ _ hlt).trans ?_
    rw [hw]

end Cert.KernelIdeal.KernelValue
-- ==== Proof.RefDefs.lean ====
/-
  The reference program's result as a term of its arguments: per grid the received index words (the sent word's nine
  bits, each flipped where the channel's uniform draw is below the bit-error rate, repacked and clipped into [0, 511]),
  then the codebook rows at those words, both grids flattened per batch row and laid side by side, fine first.
-/
import proofs.«423538_j72052371358246_3_alg».proof.Proof.Gen.ReferenceIdeal

noncomputable section

namespace Cert.ReferenceIdeal.RefSide

open Cert.ReferenceIdeal Cert.ReferenceIdeal.Gen Idealize.ShloMosaic Idealize.SL.Sem

variable {F : FTy → Type} [FloatOps F]

/-- The fine grid's received index words: per position the nine bits of the sent word, each flipped where the
    channel's uniform draw is below the bit-error rate, repacked, and clipped (signed) into [0, 511]. -/
def wordsF (a1 : IVec S64x64x64 32) (a5 : FVec F S64x64x64x9 .f32) : IVec S64x64x64 32 :=
  minsi (broadcastInDim S64x64x64 ![] bcast_S_S64x64x64 (id (constantI S_ 32 511#32))) (maxsi (broadcastInDim S64x64x64 ![] bcast_S_S64x64x64 (id (constantI S_ 32 0#32))) (Host.reduce IntOp.addi (Host.shli (xori (andi (Host.shrsi (broadcastInDim S64x64x64x9 ![0, 1, 2, 3] bcast_S64x64x64x1_S64x64x64x9_0_1_2_3 (broadcastInDim S64x64x64x1 ![0, 1, 2] bcast_S64x64x64_S64x64x64x1_0_1_2 a1)) (broadcastInDim S64x64x64x9 ![0, 1, 2, 3] bcast_S1x1x1x9_S64x64x64x9_0_1_2_3 (broadcastInDim S1x1x1x9 ![3] bcast_S9_S1x1x1x9_3 (iotaInDim S9 32 0)))) (broadcastInDim S64x64x64x9 ![] bcast_S_S64x64x64x9 (constantI S_ 32 1#32))) (extui 32 (cmpf .olt a5 (broadcastInDim S64x64x64x9 ![] bcast_S_S64x64x64x9 (constant S_ .f32 0x3CA3D70A#32))) natLt_1_32)) (broadcastInDim S64x64x64x9 ![0, 1, 2, 3] bcast_S1x1x1x9_S64x64x64x9_0_1_2_3 (broadcastInDim S1x1x1x9 ![3] bcast_S9_S1x1x1x9_3 (iotaInDim S9 32 0)))) (constantI S_ 32 0#32) reducesTo_S64x64x64x9_S64x64x64_d3 h_S_))

/-- The coarse grid's received index words, likewise. -/
def wordsC (a0 : IVec S64x32x32 32) (a4 : FVec F S64x32x32x9 .f32) : IVec S64x32x32 32 :=
  minsi (broadcastInDim S64x32x32 ![] bcast_S_S64x32x32 (id (constantI S_ 32 511#32))) (maxsi (broadcastInDim S64x32x32 ![] bcast_S_S64x32x32 (id (constantI S_ 32 0#32))) (Host.reduce IntOp.addi (Host.shli (xori (andi (Host.shrsi (broadcastInDim S64x32x32x9 ![0, 1, 2, 3] bcast_S64x32x32x1_S64x32x32x9_0_1_2_3 (broadcastInDim S64x32x32x1 ![0, 1, 2] bcast_S64x32x32_S64x32x32x1_0_1_2 a0)) (broadcastInDim S64x32x32x9 ![0, 1, 2, 3] bcast_S1x1x1x9_S64x32x32x9_0_1_2_3 (broadcastInDim S1x1x1x9 ![3] bcast_S9_S1x1x1x9_3 (iotaInDim S9 32 0)))) (broadcastInDim S64x32x32x9 ![] bcast_S_S64x32x32x9 (constantI S_ 32 1#32))) (extui 32 (cmpf .olt a4 (broadcastInDim S64x32x32x9 ![] bcast_S_S64x32x32x9 (constant S_ .f32 0x3CA3D70A#32))) natLt_1_32)) (broadcastInDim S64x32x32x9 ![0, 1, 2, 3] bcast_S1x1x1x9_S64x32x32x9_0_1_2_3 (broadcastInDim S1x1x1x9 ![3] bcast_S9_S1x1x1x9_3 (iotaInDim S9 32 0)))) (constantI S_ 32 0#32) reducesTo_S64x32x32x9_S64x32x32_d3 h_S_))

/-- The reference's result from the launch memory: each grid's words, a negative one wrapped by 512 (none is, after the
    clip), select the codebook's rows; the two gathered arrays are flattened per batch row and joined, fine first. -/
def refOut (m : (ℓ : Loc nD τ sig) → Buf (Elt F) ℓ) (c : Dev nD) : Buf (Elt F) ((c.tc : Thread nD τ).loc main_v50) :=
  concatenate S64x655360 1 [⟨S64x524288, (shapeCast _ (Host.gather gather_S512x128_S64x64x64x1_S64x64x64x128_3_0_n_n_0_3_1128 (m ((c.tc : Thread nD τ).loc main_arg3)) (broadcastInDim S64x64x64x1 ![0, 1, 2] bcast_S64x64x64_S64x64x64x1_0_1_2 (select (cmpi .slt (wordsF (m ((c.tc : Thread nD τ).loc main_arg1)) (m ((c.tc : Thread nD τ).loc main_arg5))) (broadcastInDim S64x64x64 ![] bcast_S_S64x64x64 (constantI S_ 32 0#32))) (addi (wordsF (m ((c.tc : Thread nD τ).loc main_arg1)) (m ((c.tc : Thread nD τ).loc main_arg5))) (broadcastInDim S64x64x64 ![] bcast_S_S64x64x64 (constantI S_ 32 512#32))) (wordsF (m ((c.tc : Thread nD τ).loc main_arg1)) (m ((c.tc : Thread nD τ).loc main_arg5)))))) shapeCasts_S64x64x64x128_S64x524288)⟩, ⟨S64x131072, (shapeCast _ (Host.gather gather_S512x128_S64x32x32x1_S64x32x32x128_3_0_n_n_0_3_1128 (m ((c.tc : Thread nD τ).loc main_arg2)) (broadcastInDim S64x32x32x1 ![0, 1, 2] bcast_S64x32x32_S64x32x32x1_0_1_2 (select (cmpi .slt (wordsC (m ((c.tc : Thread nD τ).loc main_arg0)) (m ((c.tc : Thread nD τ).loc main_arg4))) (broadcastInDim S64x32x32 ![] bcast_S_S64x32x32 (constantI S_ 32 0#32))) (addi (wordsC (m ((c.tc : Thread nD τ).loc main_arg0)) (m ((c.tc : Thread nD τ).loc main_arg4))) (broadcastInDim S64x32x32 ![] bcast_S_S64x32x32 (constantI S_ 32 512#32))) (wordsC (m ((c.tc : Thread nD τ).loc main_arg0)) (m ((c.tc : Thread nD τ).loc main_arg4)))))) shapeCasts_S64x32x32x128_S64x131072)⟩] concatenates_S64x524288_S64x131072_S64x655360_d1

end Cert.ReferenceIdeal.RefSide

end
-- ==== Proof.RefRunC1.lean ====
/-
  The reference's run, operations 1 to 27: the coarse grid's word chain. From any contents of the device's
  buffers the stretch leaves at its last buffer the received index words — the sent word's nine bits, each flipped
  where the channel's draw is below the bit-error rate, repacked, clipped into [0, 511] — as a function of the two
  arguments it reads, and leaves every buffer it does not write as it was.
-/
import proofs.«423538_j72052371358246_3_alg».proof.Proof.RefDefs
import Idealize.ShloMosaic.Lib.StableHlo.Run

noncomputable section

namespace Cert.ReferenceIdeal.RefRunH

open Cert.ReferenceIdeal Cert.ReferenceIdeal.Gen Cert.ReferenceIdeal.RefSide Idealize.ShloMosaic Idealize.ShloMosaic.TcCoe Idealize.SL.Sem
  Idealize.ShloMosaic.StableHlo

variable {F : FTy → Type} [FloatOps F]

/-- A reference on a list names a buffer among the list's. -/
private theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Operations 1 … 27 of @main's 75, in program order (the clip's six stand in its call's place). -/
abbrev opsC1 : List (HloOp τ sig (Elt F)) :=
  [ nullary main_v0 (iotaInDim S9 32 0),
    unary main_arg0 main_v1 (broadcastInDim S64x32x32x1 ![0, 1, 2] bcast_S64x32x32_S64x32x32x1_0_1_2 : (⟨S64x32x32, .i32⟩ : BufTy).Contents (Elt F) → (⟨S64x32x32x1, .i32⟩ : BufTy).Contents (Elt F)),
    unary main_v0 main_v2 (broadcastInDim S1x1x1x9 ![3] bcast_S9_S1x1x1x9_3 : (⟨S9, .i32⟩ : BufTy).Contents (Elt F) → (⟨S1x1x1x9, .i32⟩ : BufTy).Contents (Elt F)),
    unary main_v1 main_v3 (broadcastInDim S64x32x32x9 ![0, 1, 2, 3] bcast_S64x32x32x1_S64x32x32x9_0_1_2_3 : (⟨S64x32x32x1, .i32⟩ : BufTy).Contents (Elt F) → (⟨S64x32x32x9, .i32⟩ : BufTy).Contents (Elt F)),
    unary main_v2 main_v4 (broadcastInDim S64x32x32x9 ![0, 1, 2, 3] bcast_S1x1x1x9_S64x32x32x9_0_1_2_3 : (⟨S1x1x1x9, .i32⟩ : BufTy).Contents (Elt F) → (⟨S64x32x32x9, .i32⟩ : BufTy).Contents (Elt F)),
    binary main_v3 main_v4 main_v5 (Host.shrsi : (⟨S64x32x32x9, .i32⟩ : BufTy).Contents (Elt F) → (⟨S64x32x32x9, .i32⟩ : BufTy).Contents (Elt F) → (⟨S64x32x32x9, .i32⟩ : BufTy).Contents (Elt F)),
    nullary main_c (constantI S_ 32 1#32),
    unary main_c main_v6 (broadcastInDim S64x32x32x9 ![] bcast_S_S64x32x32x9 : (⟨S_, .i32⟩ : BufTy).Contents (Elt F) → (⟨S64x32x32x9, .i32⟩ : BufTy).Contents (Elt F)),
    binary main_v5 main_v6 main_v7 (andi : (⟨S64x32x32x9, .i32⟩ : BufTy).Contents (Elt F) → (⟨S64x32x32x9, .i32⟩ : BufTy).Contents (Elt F) → (⟨S64x32x32x9, .i32⟩ : BufTy).Contents (Elt F)),
    nullary main_cst (constant S_ .f32 0x3CA3D70A#32),
    unary main_cst main_v8 (broadcastInDim S64x32x32x9 ![] bcast_S_S64x32x32x9 : (⟨S_, .f32⟩ : BufTy).Contents (Elt F) → (⟨S64x32x32x9, .f32⟩ : BufTy).Contents (Elt F)),
    binary main_arg4 main_v8 main_v9 (cmpf .olt : (⟨S64x32x32x9, .f32⟩ : BufTy).Contents (Elt F) → (⟨S64x32x32x9, .f32⟩ : BufTy).Contents (Elt F) → (⟨S64x32x32x9, .i1⟩ : BufTy).Contents (Elt F)),
    unary main_v9 main_v10 ((extui 32 · natLt_1_32) : (⟨S64x32x32x9, .i1⟩ : BufTy).Contents (Elt F) → (⟨S64x32x32x9, .i32⟩ : BufTy).Contents (Elt F)),
    binary main_v7 main_v10 main_v11 (xori : (⟨S64x32x32x9, .i32⟩ : BufTy).Contents (Elt F) → (⟨S64x32x32x9, .i32⟩ : BufTy).Contents (Elt F) → (⟨S64x32x32x9, .i32⟩ : BufTy).Contents (Elt F)),
    unary main_v0 main_v12 (broadcastInDim S1x1x1x9 ![3] bcast_S9_S1x1x1x9_3 : (⟨S9, .i32⟩ : BufTy).Contents (Elt F) → (⟨S1x1x1x9, .i32⟩ : BufTy).Contents (Elt F)),
    unary main_v12 main_v13 (broadcastInDim S64x32x32x9 ![0, 1, 2, 3] bcast_S1x1x1x9_S64x32x32x9_0_1_2_3 : (⟨S1x1x1x9, .i32⟩ : BufTy).Contents (Elt F) → (⟨S64x32x32x9, .i32⟩ : BufTy).Contents (Elt F)),
    binary main_v11 main_v13 main_v14 (Host.shli : (⟨S64x32x32x9, .i32⟩ : BufTy).Contents (Elt F) → (⟨S64x32x32x9, .i32⟩ : BufTy).Contents (Elt F) → (⟨S64x32x32x9, .i32⟩ : BufTy).Contents (Elt F)),
    nullary main_c_0 (constantI S_ 32 0#32),
    binary main_v14 main_c_0 main_v15 ((fun x v => Host.reduce IntOp.addi x v reducesTo_S64x32x32x9_S64x32x32_d3 h_S_) : (⟨S64x32x32x9, .i32⟩ : BufTy).Contents (Elt F) → (⟨S_, .i32⟩ : BufTy).Contents (Elt F) → (⟨S64x32x32, .i32⟩ : BufTy).Contents (Elt F)),
    nullary main_c_1 (constantI S_ 32 0#32),
    nullary main_c_2 (constantI S_ 32 511#32),
    TRef.unary (TRef.of (T := ⟨S_, .i32⟩) main_c_1) (TRef.of (T := ⟨S_, .i32⟩) main_call0_v0) id,
    TRef.unary (TRef.of (T := ⟨S_, .i32⟩) main_call0_v0) (TRef.of (T := ⟨S64x32x32, .i32⟩) main_call0_v1) (broadcastInDim S64x32x32 ![] bcast_S_S64x32x32),
    TRef.binary (TRef.of (T := ⟨S64x32x32, .i32⟩) main_call0_v1) (TRef.of (T := ⟨S64x32x32, .i32⟩) main_v15) (TRef.of (T := ⟨S64x32x32, .i32⟩) main_call0_v2) maxsi,
    TRef.unary (TRef.of (T := ⟨S_, .i32⟩) main_c_2) (TRef.of (T := ⟨S_, .i32⟩) main_call0_v3) id,
    TRef.unary (TRef.of (T := ⟨S_, .i32⟩) main_call0_v3) (TRef.of (T := ⟨S64x32x32, .i32⟩) main_call0_v4) (broadcastInDim S64x32x32 ![] bcast_S_S64x32x32),
    TRef.binary (TRef.of (T := ⟨S64x32x32, .i32⟩) main_call0_v4) (TRef.of (T := ⟨S64x32x32, .i32⟩) main_call0_v2) (TRef.of (T := ⟨S64x32x32, .i32⟩) main_v16) minsi ]

/-- The buffers they write, in order. -/
abbrev wC1 : List (Ref sig .tc) := [main_v0, main_v1, main_v2, main_v3, main_v4, main_v5, main_c, main_v6, main_v7, main_cst, main_v8, main_v9, main_v10, main_v11, main_v12, main_v13, main_v14, main_c_0, main_v15, main_c_1, main_c_2, main_call0_v0, main_call0_v1, main_call0_v2, main_call0_v3, main_call0_v4, main_v16]

/-- Each operation writes a buffer of that list. -/
theorem opsC1_writes : (opsC1 : List (HloOp τ sig (Elt F))).Forall fun op => op.writes ⊆ ((wC1).map (Proc.devRef (τ := τ) .tc)).toFinset :=
  ⟨wsub (y := main_v0) (by decide), wsub (y := main_v1) (by decide), wsub (y := main_v2) (by decide), wsub (y := main_v3) (by decide), wsub (y := main_v4) (by decide), wsub (y := main_v5) (by decide), wsub (y := main_c) (by decide), wsub (y := main_v6) (by decide), wsub (y := main_v7) (by decide), wsub (y := main_cst) (by decide), wsub (y := main_v8) (by decide), wsub (y := main_v9) (by decide), wsub (y := main_v10) (by decide), wsub (y := main_v11) (by decide), wsub (y := main_v12) (by decide), wsub (y := main_v13) (by decide), wsub (y := main_v14) (by decide), wsub (y := main_c_0) (by decide), wsub (y := main_v15) (by decide), wsub (y := main_c_1) (by decide), wsub (y := main_c_2) (by decide), wsub (y := main_call0_v0) (by decide), wsub (y := main_call0_v1) (by decide), wsub (y := main_call0_v2) (by decide), wsub (y := main_call0_v3) (by decide), wsub (y := main_call0_v4) (by decide), wsub (y := main_v16) (by decide)⟩

/-- A buffer off that list keeps its contents through the stretch. -/
theorem opsC1_frame (V : Valuation τ sig (Elt F)) {r : Ref sig .tc} (hr : r ∉ wC1) :
    after opsC1 V (Proc.devRef .tc r) = V (Proc.devRef .tc r) :=
  after_of_writes_sub opsC1 V opsC1_writes hr

/-- The operations touch TensorCore references only. -/
theorem opsC1_sub : (opsC1 : List (HloOp τ sig (Elt F))).Forall fun op => op.bufs ⊆ tcRefs τ sig :=
  ⟨nullary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., binary_bufs_sub .., nullary_bufs_sub .., nullary_bufs_sub .., unary_bufs_sub .., unary_bufs_sub .., binary_bufs_sub .., unary_bufs_sub .., unary_bufs_sub .., binary_bufs_sub ..⟩

/-- Each determines its results. -/
theorem opsC1_fresh : ∀ op ∈ (opsC1 : List (HloOp τ sig (Elt F))), op.fresh = ∅ := by
  intro _ h; (repeat (cases h with | head => rfl | tail _ h => ?_)); exact nomatch h

/-! ## The last buffer

The stretch is read in two parts, each from any contents of the buffers: the operations up to the sum over the bit
axis, together with the clip's two bounds, and then the clip, an inlined function whose typed references carry each
value along an identity. Cut there, every comparison is between terms whose leaves are variables. -/

/-- The coarse grid's repacked words before the clip: the sent word's nine bits, each flipped where the channel's draw
    is below the bit-error rate, summed with their weights. -/
private def sumC (a0 : IVec S64x32x32 32) (a4 : FVec F S64x32x32x9 .f32) : IVec S64x32x32 32 :=
  Host.reduce IntOp.addi (Host.shli (xori (andi (Host.shrsi (broadcastInDim S64x32x32x9 ![0, 1, 2, 3] bcast_S64x32x32x1_S64x32x32x9_0_1_2_3 (broadcastInDim S64x32x32x1 ![0, 1, 2] bcast_S64x32x32_S64x32x32x1_0_1_2 a0)) (broadcastInDim S64x32x32x9 ![0, 1, 2, 3] bcast_S1x1x1x9_S64x32x32x9_0_1_2_3 (broadcastInDim S1x1x1x9 ![3] bcast_S9_S1x1x1x9_3 (iotaInDim S9 32 0)))) (broadcastInDim S64x32x32x9 ![] bcast_S_S64x32x32x9 (constantI S_ 32 1#32))) (extui 32 (cmpf .olt a4 (broadcastInDim S64x32x32x9 ![] bcast_S_S64x32x32x9 (constant S_ .f32 0x3CA3D70A#32))) natLt_1_32)) (broadcastInDim S64x32x32x9 ![0, 1, 2, 3] bcast_S1x1x1x9_S64x32x32x9_0_1_2_3 (broadcastInDim S1x1x1x9 ![3] bcast_S9_S1x1x1x9_3 (iotaInDim S9 32 0)))) (constantI S_ 32 0#32) reducesTo_S64x32x32x9_S64x32x32_d3 h_S_

/-- The received words are the clip of the repacked words. -/
private theorem wordsC_eq (a0 : IVec S64x32x32 32) (a4 : FVec F S64x32x32x9 .f32) :
    wordsC a0 a4 = minsi (broadcastInDim S64x32x32 ![] bcast_S_S64x32x32 (id (constantI S_ 32 511#32)))
      (maxsi (broadcastInDim S64x32x32 ![] bcast_S_S64x32x32 (id (constantI S_ 32 0#32))) (sumC a0 a4)) := rfl

/-- Running two stretches of operations one after the other is running the second from where the first ends. -/
private theorem after_append (l₁ l₂ : List (HloOp τ sig (Elt F))) (V : Valuation τ sig (Elt F)) :
    after (l₁ ++ l₂) V = after l₂ (after l₁ V) := by
  induction l₁ generalizing V with
  | nil => rfl
  | cons op ops ih => exact ih _

/-- Operations 1 … 21: up to the sum over the bit axis, and the clip's two bounds. -/
private abbrev opsC1a : List (HloOp τ sig (Elt F)) :=
  [ nullary main_v0 (iotaInDim S9 32 0),
    unary main_arg0 main_v1 (broadcastInDim S64x32x32x1 ![0, 1, 2] bcast_S64x32x32_S64x32x32x1_0_1_2 : (⟨S64x32x32, .i32⟩ : BufTy).Contents (Elt F) → (⟨S64x32x32x1, .i32⟩ : BufTy).Contents (Elt F)),
    unary main_v0 main_v2 (broadcastInDim S1x1x1x9 ![3] bcast_S9_S1x1x1x9_3 : (⟨S9, .i32⟩ : BufTy).Contents (Elt F) → (⟨S1x1x1x9, .i32⟩ : BufTy).Contents (Elt F)),
    unary main_v1 main_v3 (broadcastInDim S64x32x32x9 ![0, 1, 2, 3] bcast_S64x32x32x1_S64x32x32x9_0_1_2_3 : (⟨S64x32x32x1, .i32⟩ : BufTy).Contents (Elt F) → (⟨S64x32x32x9, .i32⟩ : BufTy).Contents (Elt F)),
    unary main_v2 main_v4 (broadcastInDim S64x32x32x9 ![0, 1, 2, 3] bcast_S1x1x1x9_S64x32x32x9_0_1_2_3 : (⟨S1x1x1x9, .i32⟩ : BufTy).Contents (Elt F) → (⟨S64x32x32x9, .i32⟩ : BufTy).Contents (Elt F)),
    binary main_v3 main_v4 main_v5 (Host.shrsi : (⟨S64x32x32x9, .i32⟩ : BufTy).Contents (Elt F) → (⟨S64x32x32x9, .i32⟩ : BufTy).Contents (Elt F) → (⟨S64x32x32x9, .i32⟩ : BufTy).Contents (Elt F)),
    nullary main_c (constantI S_ 32 1#32),
    unary main_c main_v6 (broadcastInDim S64x32x32x9 ![] bcast_S_S64x32x32x9 : (⟨S_, .i32⟩ : BufTy).Contents (Elt F) → (⟨S64x32x32x9, .i32⟩ : BufTy).Contents (Elt F)),
    binary main_v5 main_v6 main_v7 (andi : (⟨S64x32x32x9, .i32⟩ : BufTy).Contents (Elt F) → (⟨S64x32x32x9, .i32⟩ : BufTy).Contents (Elt F) → (⟨S64x32x32x9, .i32⟩ : BufTy).Contents (Elt F)),
    nullary main_cst (constant S_ .f32 0x3CA3D70A#32),
    unary main_cst main_v8 (broadcastInDim S64x32x32x9 ![] bcast_S_S64x32x32x9 : (⟨S_, .f32⟩ : BufTy).Contents (Elt F) → (⟨S64x32x32x9, .f32⟩ : BufTy).Contents (Elt F)),
    binary main_arg4 main_v8 main_v9 (cmpf .olt : (⟨S64x32x32x9, .f32⟩ : BufTy).Contents (Elt F) → (⟨S64x32x32x9, .f32⟩ : BufTy).Contents (Elt F) → (⟨S64x32x32x9, .i1⟩ : BufTy).Contents (Elt F)),
    unary main_v9 main_v10 ((extui 32 · natLt_1_32) : (⟨S64x32x32x9, .i1⟩ : BufTy).Contents (Elt F) → (⟨S64x32x32x9, .i32⟩ : BufTy).Contents (Elt F)),
    binary main_v7 main_v10 main_v11 (xori : (⟨S64x32x32x9, .i32⟩ : BufTy).Contents (Elt F) → (⟨S64x32x32x9, .i32⟩ : BufTy).Contents (Elt F) → (⟨S64x32x32x9, .i32⟩ : BufTy).Contents (Elt F)),
    unary main_v0 main_v12 (broadcastInDim S1x1x1x9 ![3] bcast_S9_S1x1x1x9_3 : (⟨S9, .i32⟩ : BufTy).Contents (Elt F) → (⟨S1x1x1x9, .i32⟩ : BufTy).Contents (Elt F)),
    unary main_v12 main_v13 (broadcastInDim S64x32x32x9 ![0, 1, 2, 3] bcast_S1x1x1x9_S64x32x32x9_0_1_2_3 : (⟨S1x1x1x9, .i32⟩ : BufTy).Contents (Elt F) → (⟨S64x32x32x9, .i32⟩ : BufTy).Contents (Elt F)),
    binary main_v11 main_v13 main_v14 (Host.shli : (⟨S64x32x32x9, .i32⟩ : BufTy).Contents (Elt F) → (⟨S64x32x32x9, .i32⟩ : BufTy).Contents (Elt F) → (⟨S64x32x32x9, .i32⟩ : BufTy).Contents (Elt F)),
    nullary main_c_0 (constantI S_ 32 0#32),
    binary main_v14 main_c_0 main_v15 ((fun x v => Host.reduce IntOp.addi x v reducesTo_S64x32x32x9_S64x32x32_d3 h_S_) : (⟨S64x32x32x9, .i32⟩ : BufTy).Contents (Elt F) → (⟨S_, .i32⟩ : BufTy).Contents (Elt F) → (⟨S64x32x32, .i32⟩ : BufTy).Contents (Elt F)),
    nullary main_c_1 (constantI S_ 32 0#32),
    nullary main_c_2 (constantI S_ 32 511#32) ]

/-- Operations 22 … 27: the clip. -/
private abbrev opsC1b : List (HloOp τ sig (Elt F)) :=
  [ TRef.unary (TRef.of (T := ⟨S_, .i32⟩) main_c_1) (TRef.of (T := ⟨S_, .i32⟩) main_call0_v0) id,
    TRef.unary (TRef.of (T := ⟨S_, .i32⟩) main_call0_v0) (TRef.of (T := ⟨S64x32x32, .i32⟩) main_call0_v1) (broadcastInDim S64x32x32 ![] bcast_S_S64x32x32),
    TRef.binary (TRef.of (T := ⟨S64x32x32, .i32⟩) main_call0_v1) (TRef.of (T := ⟨S64x32x32, .i32⟩) main_v15) (TRef.of (T := ⟨S64x32x32, .i32⟩) main_call0_v2) maxsi,
    TRef.unary (TRef.of (T := ⟨S_, .i32⟩) main_c_2) (TRef.of (T := ⟨S_, .i32⟩) main_call0_v3) id,
    TRef.unary (TRef.of (T := ⟨S_, .i32⟩) main_call0_v3) (TRef.of (T := ⟨S64x32x32, .i32⟩) main_call0_v4) (broadcastInDim S64x32x32 ![] bcast_S_S64x32x32),
    TRef.binary (TRef.of (T := ⟨S64x32x32, .i32⟩) main_call0_v4) (TRef.of (T := ⟨S64x32x32, .i32⟩) main_call0_v2) (TRef.of (T := ⟨S64x32x32, .i32⟩) main_v16) minsi ]

/-- The stretch is the two parts in order. -/
private theorem opsC1_eq : (opsC1 : List (HloOp τ sig (Elt F))) = opsC1a ++ opsC1b := rfl

section Parts
variable (V : Valuation τ sig (Elt F))

set_option maxHeartbeats 4000000 in
/-- The first part leaves the repacked words, -/
private theorem opsC1a_v15 :
    (after opsC1a V (Proc.devRef .tc main_v15) : IVec S64x32x32 32)
      = sumC (V (Proc.devRef .tc main_arg0)) (V (Proc.devRef .tc main_arg4)) := by
  simp only [opsC1a]
  after_results_simp
  rfl

set_option maxHeartbeats 4000000 in
/-- the clip's lower bound -/
private theorem opsC1a_c1 :
    (after opsC1a V (Proc.devRef .tc main_c_1) : IVec S_ 32) = constantI S_ 32 0#32 := by
  simp only [opsC1a]
  after_results_simp

set_option maxHeartbeats 4000000 in
/-- and its upper bound. -/
private theorem opsC1a_c2 :
    (after opsC1a V (Proc.devRef .tc main_c_2) : IVec S_ 32) = constantI S_ 32 511#32 := by
  simp only [opsC1a]
  after_results_simp

set_option maxHeartbeats 4000000 in
/-- The clip, from any contents of the bounds and of the words. -/
private theorem opsC1b_v16 :
    (after opsC1b V (Proc.devRef .tc main_v16) : IVec S64x32x32 32)
      = minsi (broadcastInDim S64x32x32 ![] bcast_S_S64x32x32 (id (V (Proc.devRef .tc main_c_2) : IVec S_ 32)))
          (maxsi (broadcastInDim S64x32x32 ![] bcast_S_S64x32x32 (id (V (Proc.devRef .tc main_c_1) : IVec S_ 32)))
            (V (Proc.devRef .tc main_v15) : IVec S64x32x32 32)) := by
  simp only [opsC1b]
  after_results_simp
  rfl

end Parts

/-- The stretch's last buffer holds the coarse grid's received words, as a function of what the stretch found in the two
    arguments it reads. -/
theorem opsC1_v16 (V : Valuation τ sig (Elt F)) :
    after opsC1 V (Proc.devRef .tc main_v16) = wordsC (V (Proc.devRef .tc main_arg0)) (V (Proc.devRef .tc main_arg4)) := by
  rw [opsC1_eq, after_append, opsC1b_v16, opsC1a_v15, opsC1a_c1, opsC1a_c2]
  exact (wordsC_eq _ _).symm

end Cert.ReferenceIdeal.RefRunH

end
-- ==== Proof.RefRunF1.lean ====
/-
  The reference's run, operations 28 to 54: the fine grid's word chain. From any contents of the device's
  buffers the stretch leaves at its last buffer the received index words — the sent word's nine bits, each flipped
  where the channel's draw is below the bit-error rate, repacked, clipped into [0, 511] — as a function of the two
  arguments it reads, and leaves every buffer it does not write as it was.
-/
import proofs.«423538_j72052371358246_3_alg».proof.Proof.RefDefs
import Idealize.ShloMosaic.Lib.StableHlo.Run

noncomputable section

namespace Cert.ReferenceIdeal.RefRunH

open Cert.ReferenceIdeal Cert.ReferenceIdeal.Gen Cert.ReferenceIdeal.RefSide Idealize.ShloMosaic Idealize.ShloMosaic.TcCoe Idealize.SL.Sem
  Idealize.ShloMosaic.StableHlo

variable {F : FTy → Type} [FloatOps F]

/-- A reference on a list names a buffer among the list's. -/
private theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Operations 28 … 54 of @main's 75, in program order (the clip's six stand in its call's place). -/
abbrev opsF1 : List (HloOp τ sig (Elt F)) :=
  [ nullary main_v17 (iotaInDim S9 32 0),
    unary main_arg1 main_v18 (broadcastInDim S64x64x64x1 ![0, 1, 2] bcast_S64x64x64_S64x64x64x1_0_1_2 : (⟨S64x64x64, .i32⟩ : BufTy).Contents (Elt F) → (⟨S64x64x64x1, .i32⟩ : BufTy).Contents (Elt F)),
    unary main_v17 main_v19 (broadcastInDim S1x1x1x9 ![3] bcast_S9_S1x1x1x9_3 : (⟨S9, .i32⟩ : BufTy).Contents (Elt F) → (⟨S1x1x1x9, .i32⟩ : BufTy).Contents (Elt F)),
    unary main_v18 main_v20 (broadcastInDim S64x64x64x9 ![0, 1, 2, 3] bcast_S64x64x64x1_S64x64x64x9_0_1_2_3 : (⟨S64x64x64x1, .i32⟩ : BufTy).Contents (Elt F) → (⟨S64x64x64x9, .i32⟩ : BufTy).Contents (Elt F)),
    unary main_v19 main_v21 (broadcastInDim S64x64x64x9 ![0, 1, 2, 3] bcast_S1x1x1x9_S64x64x64x9_0_1_2_3 : (⟨S1x1x1x9, .i32⟩ : BufTy).Contents (Elt F) → (⟨S64x64x64x9, .i32⟩ : BufTy).Contents (Elt F)),
    binary main_v20 main_v21 main_v22 (Host.shrsi : (⟨S64x64x64x9, .i32⟩ : BufTy).Contents (Elt F) → (⟨S64x64x64x9, .i32⟩ : BufTy).Contents (Elt F) → (⟨S64x64x64x9, .i32⟩ : BufTy).Contents (Elt F)),
    nullary main_c_3 (constantI S_ 32 1#32),
    unary main_c_3 main_v23 (broadcastInDim S64x64x64x9 ![] bcast_S_S64x64x64x9 : (⟨S_, .i32⟩ : BufTy).Contents (Elt F) → (⟨S64x64x64x9, .i32⟩ : BufTy).Contents (Elt F)),
    binary main_v22 main_v23 main_v24 (andi : (⟨S64x64x64x9, .i32⟩ : BufTy).Contents (Elt F) → (⟨S64x64x64x9, .i32⟩ : BufTy).Contents (Elt F) → (⟨S64x64x64x9, .i32⟩ : BufTy).Contents (Elt F)),
    nullary main_cst_4 (constant S_ .f32 0x3CA3D70A#32),
    unary main_cst_4 main_v25 (broadcastInDim S64x64x64x9 ![] bcast_S_S64x64x64x9 : (⟨S_, .f32⟩ : BufTy).Contents (Elt F) → (⟨S64x64x64x9, .f32⟩ : BufTy).Contents (Elt F)),
    binary main_arg5 main_v25 main_v26 (cmpf .olt : (⟨S64x64x64x9, .f32⟩ : BufTy).Contents (Elt F) → (⟨S64x64x64x9, .f32⟩ : BufTy).Contents (Elt F) → (⟨S64x64x64x9, .i1⟩ : BufTy).Contents (Elt F)),
    unary main_v26 main_v27 ((extui 32 · natLt_1_32) : (⟨S64x64x64x9, .i1⟩ : BufTy).Contents (Elt F) → (⟨S64x64x64x9, .i32⟩ : BufTy).Contents (Elt F)),
    binary main_v24 main_v27 main_v28 (xori : (⟨S64x64x64x9, .i32⟩ : BufTy).Contents (Elt F) → (⟨S64x64x64x9, .i32⟩ : BufTy).Contents (Elt F) → (⟨S64x64x64x9, .i32⟩ : BufTy).Contents (Elt F)),
    unary main_v17 main_v29 (broadcastInDim S1x1x1x9 ![3] bcast_S9_S1x1x1x9_3 : (⟨S9, .i32⟩ : BufTy).Contents (Elt F) → (⟨S1x1x1x9, .i32⟩ : BufTy).Contents (Elt F)),
    unary main_v29 main_v30 (broadcastInDim S64x64x64x9 ![0, 1, 2, 3] bcast_S1x1x1x9_S64x64x64x9_0_1_2_3 : (⟨S1x1x1x9, .i32⟩ : BufTy).Contents (Elt F) → (⟨S64x64x64x9, .i32⟩ : BufTy).Contents (Elt F)),
    binary main_v28 main_v30 main_v31 (Host.shli : (⟨S64x64x64x9, .i32⟩ : BufTy).Contents (Elt F) → (⟨S64x64x64x9, .i32⟩ : BufTy).Contents (Elt F) → (⟨S64x64x64x9, .i32⟩ : BufTy).Contents (Elt F)),
    nullary main_c_5 (constantI S_ 32 0#32),
    binary main_v31 main_c_5 main_v32 ((fun x v => Host.reduce IntOp.addi x v reducesTo_S64x64x64x9_S64x64x64_d3 h_S_) : (⟨S64x64x64x9, .i32⟩ : BufTy).Contents (Elt F) → (⟨S_, .i32⟩ : BufTy).Contents (Elt F) → (⟨S64x64x64, .i32⟩ : BufTy).Contents (Elt F)),
    nullary main_c_6 (constantI S_ 32 0#32),
    nullary main_c_7 (constantI S_ 32 511#32),
    TRef.unary (TRef.of (T := ⟨S_, .i32⟩) main_c_6) (TRef.of (T := ⟨S_, .i32⟩) main_call1_v0) id,
    TRef.unary (TRef.of (T := ⟨S_, .i32⟩) main_call1_v0) (TRef.of (T := ⟨S64x64x64, .i32⟩) main_call1_v1) (broadcastInDim S64x64x64 ![] bcast_S_S64x64x64),
    TRef.binary (TRef.of (T := ⟨S64x64x64, .i32⟩) main_call1_v1) (TRef.of (T := ⟨S64x64x64, .i32⟩) main_v32) (TRef.of (T := ⟨S64x64x64, .i32⟩) main_call1_v2) maxsi,
    TRef.unary (TRef.of (T := ⟨S_, .i32⟩) main_c_7) (TRef.of (T := ⟨S_, .i32⟩) main_call1_v3) id,
    TRef.unary (TRef.of (T := ⟨S_, .i32⟩) main_call1_v3) (TRef.of (T := ⟨S64x64x64, .i32⟩) main_call1_v4) (broadcastInDim S64x64x64 ![] bcast_S_S64x64x64),
    TRef.binary (TRef.of (T := ⟨S64x64x64, .i32⟩) main_call1_v4) (TRef.of (T := ⟨S64x64x64, .i32⟩) main_call1_v2) (TRef.of (T := ⟨S64x64x64, .i32⟩) main_v33) minsi ]

/-- The buffers they write, in order. -/
abbrev wF1 : List (Ref sig .tc) := [main_v17, main_v18, main_v19, main_v20, main_v21, main_v22, main_c_3, main_v23, main_v24, main_cst_4, main_v25, main_v26, main_v27, main_v28, main_v29, main_v30, main_v31, main_c_5, main_v32, main_c_6, main_c_7, main_call1_v0, main_call1_v1, main_call1_v2, main_call1_v3, main_call1_v4, main_v33]

/-- Each operation writes a buffer of that list. -/
theorem opsF1_writes : (opsF1 : List (HloOp τ sig (Elt F))).Forall fun op => op.writes ⊆ ((wF1).map (Proc.devRef (τ := τ) .tc)).toFinset :=
  ⟨wsub (y := main_v17) (by decide), wsub (y := main_v18) (by decide), wsub (y := main_v19) (by decide), wsub (y := main_v20) (by decide), wsub (y := main_v21) (by decide), wsub (y := main_v22) (by decide), wsub (y := main_c_3) (by decide), wsub (y := main_v23) (by decide), wsub (y := main_v24) (by decide), wsub (y := main_cst_4) (by decide), wsub (y := main_v25) (by decide), wsub (y := main_v26) (by decide), wsub (y := main_v27) (by decide), wsub (y := main_v28) (by decide), wsub (y := main_v29) (by decide), wsub (y := main_v30) (by decide), wsub (y := main_v31) (by decide), wsub (y := main_c_5) (by decide), wsub (y := main_v32) (by decide), wsub (y := main_c_6) (by decide), wsub (y := main_c_7) (by decide), wsub (y := main_call1_v0) (by decide), wsub (y := main_call1_v1) (by decide), wsub (y := main_call1_v2) (by decide), wsub (y := main_call1_v3) (by decide), wsub (y := main_call1_v4) (by decide), wsub (y := main_v33) (by decide)⟩

/-- A buffer off that list keeps its contents through the stretch. -/
theorem opsF1_frame (V : Valuation τ sig (Elt F)) {r : Ref sig .tc} (hr : r ∉ wF1) :
    after opsF1 V (Proc.devRef .tc r) = V (Proc.devRef .tc r) :=
  after_of_writes_sub opsF1 V opsF1_writes hr

/-- The operations touch TensorCore references only. -/
theorem opsF1_sub : (opsF1 : List (HloOp τ sig (Elt F))).Forall fun op => op.bufs ⊆ tcRefs τ sig :=
  ⟨nullary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., binary_bufs_sub .., nullary_bufs_sub .., nullary_bufs_sub .., unary_bufs_sub .., unary_bufs_sub .., binary_bufs_sub .., unary_bufs_sub .., unary_bufs_sub .., binary_bufs_sub ..⟩

/-- Each determines its results. -/
theorem opsF1_fresh : ∀ op ∈ (opsF1 : List (HloOp τ sig (Elt F))), op.fresh = ∅ := by
  intro _ h; (repeat (cases h with | head => rfl | tail _ h => ?_)); exact nomatch h

/-! ## The last buffer

The stretch is read in two parts, each from any contents of the buffers: the operations up to the sum over the bit
axis, together with the clip's two bounds, and then the clip, an inlined function whose typed references carry each
value along an identity. Cut there, every comparison is between terms whose leaves are variables. -/

/-- The fine grid's repacked words before the clip: the sent word's nine bits, each flipped where the channel's draw is
    below the bit-error rate, summed with their weights. -/
private def sumF (a1 : IVec S64x64x64 32) (a5 : FVec F S64x64x64x9 .f32) : IVec S64x64x64 32 :=
  Host.reduce IntOp.addi (Host.shli (xori (andi (Host.shrsi (broadcastInDim S64x64x64x9 ![0, 1, 2, 3] bcast_S64x64x64x1_S64x64x64x9_0_1_2_3 (broadcastInDim S64x64x64x1 ![0, 1, 2] bcast_S64x64x64_S64x64x64x1_0_1_2 a1)) (broadcastInDim S64x64x64x9 ![0, 1, 2, 3] bcast_S1x1x1x9_S64x64x64x9_0_1_2_3 (broadcastInDim S1x1x1x9 ![3] bcast_S9_S1x1x1x9_3 (iotaInDim S9 32 0)))) (broadcastInDim S64x64x64x9 ![] bcast_S_S64x64x64x9 (constantI S_ 32 1#32))) (extui 32 (cmpf .olt a5 (broadcastInDim S64x64x64x9 ![] bcast_S_S64x64x64x9 (constant S_ .f32 0x3CA3D70A#32))) natLt_1_32)) (broadcastInDim S64x64x64x9 ![0, 1, 2, 3] bcast_S1x1x1x9_S64x64x64x9_0_1_2_3 (broadcastInDim S1x1x1x9 ![3] bcast_S9_S1x1x1x9_3 (iotaInDim S9 32 0)))) (constantI S_ 32 0#32) reducesTo_S64x64x64x9_S64x64x64_d3 h_S_

/-- The received words are the clip of the repacked words. -/
private theorem wordsF_eq (a1 : IVec S64x64x64 32) (a5 : FVec F S64x64x64x9 .f32) :
    wordsF a1 a5 = minsi (broadcastInDim S64x64x64 ![] bcast_S_S64x64x64 (id (constantI S_ 32 511#32)))
      (maxsi (broadcastInDim S64x64x64 ![] bcast_S_S64x64x64 (id (constantI S_ 32 0#32))) (sumF a1 a5)) := rfl

/-- Running two stretches of operations one after the other is running the second from where the first ends. -/
private theorem after_append (l₁ l₂ : List (HloOp τ sig (Elt F))) (V : Valuation τ sig (Elt F)) :
    after (l₁ ++ l₂) V = after l₂ (after l₁ V) := by
  induction l₁ generalizing V with
  | nil => rfl
  | cons op ops ih => exact ih _

/-- Operations 28 … 48: up to the sum over the bit axis, and the clip's two bounds. -/
private abbrev opsF1a : List (HloOp τ sig (Elt F)) :=
  [ nullary main_v17 (iotaInDim S9 32 0),
    unary main_arg1 main_v18 (broadcastInDim S64x64x64x1 ![0, 1, 2] bcast_S64x64x64_S64x64x64x1_0_1_2 : (⟨S64x64x64, .i32⟩ : BufTy).Contents (Elt F) → (⟨S64x64x64x1, .i32⟩ : BufTy).Contents (Elt F)),
    unary main_v17 main_v19 (broadcastInDim S1x1x1x9 ![3] bcast_S9_S1x1x1x9_3 : (⟨S9, .i32⟩ : BufTy).Contents (Elt F) → (⟨S1x1x1x9, .i32⟩ : BufTy).Contents (Elt F)),
    unary main_v18 main_v20 (broadcastInDim S64x64x64x9 ![0, 1, 2, 3] bcast_S64x64x64x1_S64x64x64x9_0_1_2_3 : (⟨S64x64x64x1, .i32⟩ : BufTy).Contents (Elt F) → (⟨S64x64x64x9, .i32⟩ : BufTy).Contents (Elt F)),
    unary main_v19 main_v21 (broadcastInDim S64x64x64x9 ![0, 1, 2, 3] bcast_S1x1x1x9_S64x64x64x9_0_1_2_3 : (⟨S1x1x1x9, .i32⟩ : BufTy).Contents (Elt F) → (⟨S64x64x64x9, .i32⟩ : BufTy).Contents (Elt F)),
    binary main_v20 main_v21 main_v22 (Host.shrsi : (⟨S64x64x64x9, .i32⟩ : BufTy).Contents (Elt F) → (⟨S64x64x64x9, .i32⟩ : BufTy).Contents (Elt F) → (⟨S64x64x64x9, .i32⟩ : BufTy).Contents (Elt F)),
    nullary main_c_3 (constantI S_ 32 1#32),
    unary main_c_3 main_v23 (broadcastInDim S64x64x64x9 ![] bcast_S_S64x64x64x9 : (⟨S_, .i32⟩ : BufTy).Contents (Elt F) → (⟨S64x64x64x9, .i32⟩ : BufTy).Contents (Elt F)),
    binary main_v22 main_v23 main_v24 (andi : (⟨S64x64x64x9, .i32⟩ : BufTy).Contents (Elt F) → (⟨S64x64x64x9, .i32⟩ : BufTy).Contents (Elt F) → (⟨S64x64x64x9, .i32⟩ : BufTy).Contents (Elt F)),
    nullary main_cst_4 (constant S_ .f32 0x3CA3D70A#32),
    unary main_cst_4 main_v25 (broadcastInDim S64x64x64x9 ![] bcast_S_S64x64x64x9 : (⟨S_, .f32⟩ : BufTy).Contents (Elt F) → (⟨S64x64x64x9, .f32⟩ : BufTy).Contents (Elt F)),
    binary main_arg5 main_v25 main_v26 (cmpf .olt : (⟨S64x64x64x9, .f32⟩ : BufTy).Contents (Elt F) → (⟨S64x64x64x9, .f32⟩ : BufTy).Contents (Elt F) → (⟨S64x64x64x9, .i1⟩ : BufTy).Contents (Elt F)),
    unary main_v26 main_v27 ((extui 32 · natLt_1_32) : (⟨S64x64x64x9, .i1⟩ : BufTy).Contents (Elt F) → (⟨S64x64x64x9, .i32⟩ : BufTy).Contents (Elt F)),
    binary main_v24 main_v27 main_v28 (xori : (⟨S64x64x64x9, .i32⟩ : BufTy).Contents (Elt F) → (⟨S64x64x64x9, .i32⟩ : BufTy).Contents (Elt F) → (⟨S64x64x64x9, .i32⟩ : BufTy).Contents (Elt F)),
    unary main_v17 main_v29 (broadcastInDim S1x1x1x9 ![3] bcast_S9_S1x1x1x9_3 : (⟨S9, .i32⟩ : BufTy).Contents (Elt F) → (⟨S1x1x1x9, .i32⟩ : BufTy).Contents (Elt F)),
    unary main_v29 main_v30 (broadcastInDim S64x64x64x9 ![0, 1, 2, 3] bcast_S1x1x1x9_S64x64x64x9_0_1_2_3 : (⟨S1x1x1x9, .i32⟩ : BufTy).Contents (Elt F) → (⟨S64x64x64x9, .i32⟩ : BufTy).Contents (Elt F)),
    binary main_v28 main_v30 main_v31 (Host.shli : (⟨S64x64x64x9, .i32⟩ : BufTy).Contents (Elt F) → (⟨S64x64x64x9, .i32⟩ : BufTy).Contents (Elt F) → (⟨S64x64x64x9, .i32⟩ : BufTy).Contents (Elt F)),
    nullary main_c_5 (constantI S_ 32 0#32),
    binary main_v31 main_c_5 main_v32 ((fun x v => Host.reduce IntOp.addi x v reducesTo_S64x64x64x9_S64x64x64_d3 h_S_) : (⟨S64x64x64x9, .i32⟩ : BufTy).Contents (Elt F) → (⟨S_, .i32⟩ : BufTy).Contents (Elt F) → (⟨S64x64x64, .i32⟩ : BufTy).Contents (Elt F)),
    nullary main_c_6 (constantI S_ 32 0#32),
    nullary main_c_7 (constantI S_ 32 511#32) ]

/-- Operations 49 … 54: the clip. -/
private abbrev opsF1b : List (HloOp τ sig (Elt F)) :=
  [ TRef.unary (TRef.of (T := ⟨S_, .i32⟩) main_c_6) (TRef.of (T := ⟨S_, .i32⟩) main_call1_v0) id,
    TRef.unary (TRef.of (T := ⟨S_, .i32⟩) main_call1_v0) (TRef.of (T := ⟨S64x64x64, .i32⟩) main_call1_v1) (broadcastInDim S64x64x64 ![] bcast_S_S64x64x64),
    TRef.binary (TRef.of (T := ⟨S64x64x64, .i32⟩) main_call1_v1) (TRef.of (T := ⟨S64x64x64, .i32⟩) main_v32) (TRef.of (T := ⟨S64x64x64, .i32⟩) main_call1_v2) maxsi,
    TRef.unary (TRef.of (T := ⟨S_, .i32⟩) main_c_7) (TRef.of (T := ⟨S_, .i32⟩) main_call1_v3) id,
    TRef.unary (TRef.of (T := ⟨S_, .i32⟩) main_call1_v3) (TRef.of (T := ⟨S64x64x64, .i32⟩) main_call1_v4) (broadcastInDim S64x64x64 ![] bcast_S_S64x64x64),
    TRef.binary (TRef.of (T := ⟨S64x64x64, .i32⟩) main_call1_v4) (TRef.of (T := ⟨S64x64x64, .i32⟩) main_call1_v2) (TRef.of (T := ⟨S64x64x64, .i32⟩) main_v33) minsi ]

/-- The stretch is the two parts in order. -/
private theorem opsF1_eq : (opsF1 : List (HloOp τ sig (Elt F))) = opsF1a ++ opsF1b := rfl

section Parts
variable (V : Valuation τ sig (Elt F))

set_option maxHeartbeats 4000000 in
/-- The first part leaves the repacked words, -/
private theorem opsF1a_v32 :
    (after opsF1a V (Proc.devRef .tc main_v32) : IVec S64x64x64 32)
      = sumF (V (Proc.devRef .tc main_arg1)) (V (Proc.devRef .tc main_arg5)) := by
  simp only [opsF1a]
  after_results_simp
  rfl

set_option maxHeartbeats 4000000 in
/-- the clip's lower bound -/
private theorem opsF1a_c6 :
    (after opsF1a V (Proc.devRef .tc main_c_6) : IVec S_ 32) = constantI S_ 32 0#32 := by
  simp only [opsF1a]
  after_results_simp

set_option maxHeartbeats 4000000 in
/-- and its upper bound. -/
private theorem opsF1a_c7 :
    (after opsF1a V (Proc.devRef .tc main_c_7) : IVec S_ 32) = constantI S_ 32 511#32 := by
  simp only [opsF1a]
  after_results_simp

set_option maxHeartbeats 4000000 in
/-- The clip, from any contents of the bounds and of the words. -/
private theorem opsF1b_v33 :
    (after opsF1b V (Proc.devRef .tc main_v33) : IVec S64x64x64 32)
      = minsi (broadcastInDim S64x64x64 ![] bcast_S_S64x64x64 (id (V (Proc.devRef .tc main_c_7) : IVec S_ 32)))
          (maxsi (broadcastInDim S64x64x64 ![] bcast_S_S64x64x64 (id (V (Proc.devRef .tc main_c_6) : IVec S_ 32)))
            (V (Proc.devRef .tc main_v32) : IVec S64x64x64 32)) := by
  simp only [opsF1b]
  after_results_simp
  rfl

end Parts

/-- The stretch's last buffer holds the fine grid's received words, as a function of what the stretch found in the two
    arguments it reads. -/
theorem opsF1_v33 (V : Valuation τ sig (Elt F)) :
    after opsF1 V (Proc.devRef .tc main_v33) = wordsF (V (Proc.devRef .tc main_arg1)) (V (Proc.devRef .tc main_arg5)) := by
  rw [opsF1_eq, after_append, opsF1b_v33, opsF1a_v32, opsF1a_c6, opsF1a_c7]
  exact (wordsF_eq _ _).symm

end Cert.ReferenceIdeal.RefRunH

end
-- ==== Proof.RefRun.lean ====
/-
  The reference program's run, read stretch by stretch. @main is a straight line of 75 tensor operations; cut into five
  stretches (each grid's word chain through the clip, each grid's wrap and gather, the two reshapes with the join), the
  line's fold over any starting contents is read at one buffer per stretch, a later stretch leaving untouched whatever
  it does not write. Chained from the last stretch back to the first, the result buffer ends at `refOut` of the launch
  contents, and the six arguments, which no operation writes, end as they were launched.
-/
import proofs.«423538_j72052371358246_3_alg».proof.Proof.RefDefs
import proofs.«423538_j72052371358246_3_alg».proof.Proof.RefRunC1
import proofs.«423538_j72052371358246_3_alg».proof.Proof.RefRunF1
import Idealize.ShloMosaic.Lib.StableHlo.Run
import Idealize.ShloMosaic.Lib.Pipeline.Frame

noncomputable section

namespace Cert.ReferenceIdeal.RefRunH

open Cert.ReferenceIdeal Cert.ReferenceIdeal.Gen Cert.ReferenceIdeal.RefSide Idealize.ShloMosaic Idealize.ShloMosaic.TcCoe Idealize.SL.Sem Idealize.ShloMosaic.StableHlo

variable {F : FTy → Type} [FloatOps F]

/-- A reference on a list names a buffer among the list's. -/
private theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- @main's 75 operations, in order (the callee's operations stand in its two calls' places, over typed references). -/
abbrev ops : List (HloOp τ sig (Elt F)) :=
  [ nullary main_v0 (iotaInDim S9 32 0),
    unary main_arg0 main_v1 (broadcastInDim S64x32x32x1 ![0, 1, 2] bcast_S64x32x32_S64x32x32x1_0_1_2 : (⟨S64x32x32, .i32⟩ : BufTy).Contents (Elt F) → (⟨S64x32x32x1, .i32⟩ : BufTy).Contents (Elt F)),
    unary main_v0 main_v2 (broadcastInDim S1x1x1x9 ![3] bcast_S9_S1x1x1x9_3 : (⟨S9, .i32⟩ : BufTy).Contents (Elt F) → (⟨S1x1x1x9, .i32⟩ : BufTy).Contents (Elt F)),
    unary main_v1 main_v3 (broadcastInDim S64x32x32x9 ![0, 1, 2, 3] bcast_S64x32x32x1_S64x32x32x9_0_1_2_3 : (⟨S64x32x32x1, .i32⟩ : BufTy).Contents (Elt F) → (⟨S64x32x32x9, .i32⟩ : BufTy).Contents (Elt F)),
    unary main_v2 main_v4 (broadcastInDim S64x32x32x9 ![0, 1, 2, 3] bcast_S1x1x1x9_S64x32x32x9_0_1_2_3 : (⟨S1x1x1x9, .i32⟩ : BufTy).Contents (Elt F) → (⟨S64x32x32x9, .i32⟩ : BufTy).Contents (Elt F)),
    binary main_v3 main_v4 main_v5 (Host.shrsi : (⟨S64x32x32x9, .i32⟩ : BufTy).Contents (Elt F) → (⟨S64x32x32x9, .i32⟩ : BufTy).Contents (Elt F) → (⟨S64x32x32x9, .i32⟩ : BufTy).Contents (Elt F)),
    nullary main_c (constantI S_ 32 1#32),
    unary main_c main_v6 (broadcastInDim S64x32x32x9 ![] bcast_S_S64x32x32x9 : (⟨S_, .i32⟩ : BufTy).Contents (Elt F) → (⟨S64x32x32x9, .i32⟩ : BufTy).Contents (Elt F)),
    binary main_v5 main_v6 main_v7 (andi : (⟨S64x32x32x9, .i32⟩ : BufTy).Contents (Elt F) → (⟨S64x32x32x9, .i32⟩ : BufTy).Contents (Elt F) → (⟨S64x32x32x9, .i32⟩ : BufTy).Contents (Elt F)),
    nullary main_cst (constant S_ .f32 0x3CA3D70A#32),
    unary main_cst main_v8 (broadcastInDim S64x32x32x9 ![] bcast_S_S64x32x32x9 : (⟨S_, .f32⟩ : BufTy).Contents (Elt F) → (⟨S64x32x32x9, .f32⟩ : BufTy).Contents (Elt F)),
    binary main_arg4 main_v8 main_v9 (cmpf .olt : (⟨S64x32x32x9, .f32⟩ : BufTy).Contents (Elt F) → (⟨S64x32x32x9, .f32⟩ : BufTy).Contents (Elt F) → (⟨S64x32x32x9, .i1⟩ : BufTy).Contents (Elt F)),
    unary main_v9 main_v10 ((extui 32 · natLt_1_32) : (⟨S64x32x32x9, .i1⟩ : BufTy).Contents (Elt F) → (⟨S64x32x32x9, .i32⟩ : BufTy).Contents (Elt F)),
    binary main_v7 main_v10 main_v11 (xori : (⟨S64x32x32x9, .i32⟩ : BufTy).Contents (Elt F) → (⟨S64x32x32x9, .i32⟩ : BufTy).Contents (Elt F) → (⟨S64x32x32x9, .i32⟩ : BufTy).Contents (Elt F)),
    unary main_v0 main_v12 (broadcastInDim S1x1x1x9 ![3] bcast_S9_S1x1x1x9_3 : (⟨S9, .i32⟩ : BufTy).Contents (Elt F) → (⟨S1x1x1x9, .i32⟩ : BufTy).Contents (Elt F)),
    unary main_v12 main_v13 (broadcastInDim S64x32x32x9 ![0, 1, 2, 3] bcast_S1x1x1x9_S64x32x32x9_0_1_2_3 : (⟨S1x1x1x9, .i32⟩ : BufTy).Contents (Elt F) → (⟨S64x32x32x9, .i32⟩ : BufTy).Contents (Elt F)),
    binary main_v11 main_v13 main_v14 (Host.shli : (⟨S64x32x32x9, .i32⟩ : BufTy).Contents (Elt F) → (⟨S64x32x32x9, .i32⟩ : BufTy).Contents (Elt F) → (⟨S64x32x32x9, .i32⟩ : BufTy).Contents (Elt F)),
    nullary main_c_0 (constantI S_ 32 0#32),
    binary main_v14 main_c_0 main_v15 ((fun x v => Host.reduce IntOp.addi x v reducesTo_S64x32x32x9_S64x32x32_d3 h_S_) : (⟨S64x32x32x9, .i32⟩ : BufTy).Contents (Elt F) → (⟨S_, .i32⟩ : BufTy).Contents (Elt F) → (⟨S64x32x32, .i32⟩ : BufTy).Contents (Elt F)),
    nullary main_c_1 (constantI S_ 32 0#32),
    nullary main_c_2 (constantI S_ 32 511#32),
    TRef.unary (TRef.of (T := ⟨S_, .i32⟩) main_c_1) (TRef.of (T := ⟨S_, .i32⟩) main_call0_v0) id,
    TRef.unary (TRef.of (T := ⟨S_, .i32⟩) main_call0_v0) (TRef.of (T := ⟨S64x32x32, .i32⟩) main_call0_v1) (broadcastInDim S64x32x32 ![] bcast_S_S64x32x32),
    TRef.binary (TRef.of (T := ⟨S64x32x32, .i32⟩) main_call0_v1) (TRef.of (T := ⟨S64x32x32, .i32⟩) main_v15) (TRef.of (T := ⟨S64x32x32, .i32⟩) main_call0_v2) maxsi,
    TRef.unary (TRef.of (T := ⟨S_, .i32⟩) main_c_2) (TRef.of (T := ⟨S_, .i32⟩) main_call0_v3) id,
    TRef.unary (TRef.of (T := ⟨S_, .i32⟩) main_call0_v3) (TRef.of (T := ⟨S64x32x32, .i32⟩) main_call0_v4) (broadcastInDim S64x32x32 ![] bcast_S_S64x32x32),
    TRef.binary (TRef.of (T := ⟨S64x32x32, .i32⟩) main_call0_v4) (TRef.of (T := ⟨S64x32x32, .i32⟩) main_call0_v2) (TRef.of (T := ⟨S64x32x32, .i32⟩) main_v16) minsi,
    nullary main_v17 (iotaInDim S9 32 0),
    unary main_arg1 main_v18 (broadcastInDim S64x64x64x1 ![0, 1, 2] bcast_S64x64x64_S64x64x64x1_0_1_2 : (⟨S64x64x64, .i32⟩ : BufTy).Contents (Elt F) → (⟨S64x64x64x1, .i32⟩ : BufTy).Contents (Elt F)),
    unary main_v17 main_v19 (broadcastInDim S1x1x1x9 ![3] bcast_S9_S1x1x1x9_3 : (⟨S9, .i32⟩ : BufTy).Contents (Elt F) → (⟨S1x1x1x9, .i32⟩ : BufTy).Contents (Elt F)),
    unary main_v18 main_v20 (broadcastInDim S64x64x64x9 ![0, 1, 2, 3] bcast_S64x64x64x1_S64x64x64x9_0_1_2_3 : (⟨S64x64x64x1, .i32⟩ : BufTy).Contents (Elt F) → (⟨S64x64x64x9, .i32⟩ : BufTy).Contents (Elt F)),
    unary main_v19 main_v21 (broadcastInDim S64x64x64x9 ![0, 1, 2, 3] bcast_S1x1x1x9_S64x64x64x9_0_1_2_3 : (⟨S1x1x1x9, .i32⟩ : BufTy).Contents (Elt F) → (⟨S64x64x64x9, .i32⟩ : BufTy).Contents (Elt F)),
    binary main_v20 main_v21 main_v22 (Host.shrsi : (⟨S64x64x64x9, .i32⟩ : BufTy).Contents (Elt F) → (⟨S64x64x64x9, .i32⟩ : BufTy).Contents (Elt F) → (⟨S64x64x64x9, .i32⟩ : BufTy).Contents (Elt F)),
    nullary main_c_3 (constantI S_ 32 1#32),
    unary main_c_3 main_v23 (broadcastInDim S64x64x64x9 ![] bcast_S_S64x64x64x9 : (⟨S_, .i32⟩ : BufTy).Contents (Elt F) → (⟨S64x64x64x9, .i32⟩ : BufTy).Contents (Elt F)),
    binary main_v22 main_v23 main_v24 (andi : (⟨S64x64x64x9, .i32⟩ : BufTy).Contents (Elt F) → (⟨S64x64x64x9, .i32⟩ : BufTy).Contents (Elt F) → (⟨S64x64x64x9, .i32⟩ : BufTy).Contents (Elt F)),
    nullary main_cst_4 (constant S_ .f32 0x3CA3D70A#32),
    unary main_cst_4 main_v25 (broadcastInDim S64x64x64x9 ![] bcast_S_S64x64x64x9 : (⟨S_, .f32⟩ : BufTy).Contents (Elt F) → (⟨S64x64x64x9, .f32⟩ : BufTy).Contents (Elt F)),
    binary main_arg5 main_v25 main_v26 (cmpf .olt : (⟨S64x64x64x9, .f32⟩ : BufTy).Contents (Elt F) → (⟨S64x64x64x9, .f32⟩ : BufTy).Contents (Elt F) → (⟨S64x64x64x9, .i1⟩ : BufTy).Contents (Elt F)),
    unary main_v26 main_v27 ((extui 32 · natLt_1_32) : (⟨S64x64x64x9, .i1⟩ : BufTy).Contents (Elt F) → (⟨S64x64x64x9, .i32⟩ : BufTy).Contents (Elt F)),
    binary main_v24 main_v27 main_v28 (xori : (⟨S64x64x64x9, .i32⟩ : BufTy).Contents (Elt F) → (⟨S64x64x64x9, .i32⟩ : BufTy).Contents (Elt F) → (⟨S64x64x64x9, .i32⟩ : BufTy).Contents (Elt F)),
    unary main_v17 main_v29 (broadcastInDim S1x1x1x9 ![3] bcast_S9_S1x1x1x9_3 : (⟨S9, .i32⟩ : BufTy).Contents (Elt F) → (⟨S1x1x1x9, .i32⟩ : BufTy).Contents (Elt F)),
    unary main_v29 main_v30 (broadcastInDim S64x64x64x9 ![0, 1, 2, 3] bcast_S1x1x1x9_S64x64x64x9_0_1_2_3 : (⟨S1x1x1x9, .i32⟩ : BufTy).Contents (Elt F) → (⟨S64x64x64x9, .i32⟩ : BufTy).Contents (Elt F)),
    binary main_v28 main_v30 main_v31 (Host.shli : (⟨S64x64x64x9, .i32⟩ : BufTy).Contents (Elt F) → (⟨S64x64x64x9, .i32⟩ : BufTy).Contents (Elt F) → (⟨S64x64x64x9, .i32⟩ : BufTy).Contents (Elt F)),
    nullary main_c_5 (constantI S_ 32 0#32),
    binary main_v31 main_c_5 main_v32 ((fun x v => Host.reduce IntOp.addi x v reducesTo_S64x64x64x9_S64x64x64_d3 h_S_) : (⟨S64x64x64x9, .i32⟩ : BufTy).Contents (Elt F) → (⟨S_, .i32⟩ : BufTy).Contents (Elt F) → (⟨S64x64x64, .i32⟩ : BufTy).Contents (Elt F)),
    nullary main_c_6 (constantI S_ 32 0#32),
    nullary main_c_7 (constantI S_ 32 511#32),
    TRef.unary (TRef.of (T := ⟨S_, .i32⟩) main_c_6) (TRef.of (T := ⟨S_, .i32⟩) main_call1_v0) id,
    TRef.unary (TRef.of (T := ⟨S_, .i32⟩) main_call1_v0) (TRef.of (T := ⟨S64x64x64, .i32⟩) main_call1_v1) (broadcastInDim S64x64x64 ![] bcast_S_S64x64x64),
    TRef.binary (TRef.of (T := ⟨S64x64x64, .i32⟩) main_call1_v1) (TRef.of (T := ⟨S64x64x64, .i32⟩) main_v32) (TRef.of (T := ⟨S64x64x64, .i32⟩) main_call1_v2) maxsi,
    TRef.unary (TRef.of (T := ⟨S_, .i32⟩) main_c_7) (TRef.of (T := ⟨S_, .i32⟩) main_call1_v3) id,
    TRef.unary (TRef.of (T := ⟨S_, .i32⟩) main_call1_v3) (TRef.of (T := ⟨S64x64x64, .i32⟩) main_call1_v4) (broadcastInDim S64x64x64 ![] bcast_S_S64x64x64),
    TRef.binary (TRef.of (T := ⟨S64x64x64, .i32⟩) main_call1_v4) (TRef.of (T := ⟨S64x64x64, .i32⟩) main_call1_v2) (TRef.of (T := ⟨S64x64x64, .i32⟩) main_v33) minsi,
    nullary main_c_8 (constantI S_ 32 0#32),
    unary main_c_8 main_v34 (broadcastInDim S64x32x32 ![] bcast_S_S64x32x32 : (⟨S_, .i32⟩ : BufTy).Contents (Elt F) → (⟨S64x32x32, .i32⟩ : BufTy).Contents (Elt F)),
    binary main_v16 main_v34 main_v35 (cmpi .slt : (⟨S64x32x32, .i32⟩ : BufTy).Contents (Elt F) → (⟨S64x32x32, .i32⟩ : BufTy).Contents (Elt F) → (⟨S64x32x32, .i1⟩ : BufTy).Contents (Elt F)),
    nullary main_c_9 (constantI S_ 32 512#32),
    unary main_c_9 main_v36 (broadcastInDim S64x32x32 ![] bcast_S_S64x32x32 : (⟨S_, .i32⟩ : BufTy).Contents (Elt F) → (⟨S64x32x32, .i32⟩ : BufTy).Contents (Elt F)),
    binary main_v16 main_v36 main_v37 (addi : (⟨S64x32x32, .i32⟩ : BufTy).Contents (Elt F) → (⟨S64x32x32, .i32⟩ : BufTy).Contents (Elt F) → (⟨S64x32x32, .i32⟩ : BufTy).Contents (Elt F)),
    ternary main_v35 main_v37 main_v16 main_v38 (select : (⟨S64x32x32, .i1⟩ : BufTy).Contents (Elt F) → (⟨S64x32x32, .i32⟩ : BufTy).Contents (Elt F) → (⟨S64x32x32, .i32⟩ : BufTy).Contents (Elt F) → (⟨S64x32x32, .i32⟩ : BufTy).Contents (Elt F)),
    unary main_v38 main_v39 (broadcastInDim S64x32x32x1 ![0, 1, 2] bcast_S64x32x32_S64x32x32x1_0_1_2 : (⟨S64x32x32, .i32⟩ : BufTy).Contents (Elt F) → (⟨S64x32x32x1, .i32⟩ : BufTy).Contents (Elt F)),
    binary main_arg2 main_v39 main_v40 ((fun x i => Host.gather gather_S512x128_S64x32x32x1_S64x32x32x128_3_0_n_n_0_3_1128 x i) : (⟨S512x128, .f32⟩ : BufTy).Contents (Elt F) → (⟨S64x32x32x1, .i32⟩ : BufTy).Contents (Elt F) → (⟨S64x32x32x128, .f32⟩ : BufTy).Contents (Elt F)),
    nullary main_c_10 (constantI S_ 32 0#32),
    unary main_c_10 main_v41 (broadcastInDim S64x64x64 ![] bcast_S_S64x64x64 : (⟨S_, .i32⟩ : BufTy).Contents (Elt F) → (⟨S64x64x64, .i32⟩ : BufTy).Contents (Elt F)),
    binary main_v33 main_v41 main_v42 (cmpi .slt : (⟨S64x64x64, .i32⟩ : BufTy).Contents (Elt F) → (⟨S64x64x64, .i32⟩ : BufTy).Contents (Elt F) → (⟨S64x64x64, .i1⟩ : BufTy).Contents (Elt F)),
    nullary main_c_11 (constantI S_ 32 512#32),
    unary main_c_11 main_v43 (broadcastInDim S64x64x64 ![] bcast_S_S64x64x64 : (⟨S_, .i32⟩ : BufTy).Contents (Elt F) → (⟨S64x64x64, .i32⟩ : BufTy).Contents (Elt F)),
    binary main_v33 main_v43 main_v44 (addi : (⟨S64x64x64, .i32⟩ : BufTy).Contents (Elt F) → (⟨S64x64x64, .i32⟩ : BufTy).Contents (Elt F) → (⟨S64x64x64, .i32⟩ : BufTy).Contents (Elt F)),
    ternary main_v42 main_v44 main_v33 main_v45 (select : (⟨S64x64x64, .i1⟩ : BufTy).Contents (Elt F) → (⟨S64x64x64, .i32⟩ : BufTy).Contents (Elt F) → (⟨S64x64x64, .i32⟩ : BufTy).Contents (Elt F) → (⟨S64x64x64, .i32⟩ : BufTy).Contents (Elt F)),
    unary main_v45 main_v46 (broadcastInDim S64x64x64x1 ![0, 1, 2] bcast_S64x64x64_S64x64x64x1_0_1_2 : (⟨S64x64x64, .i32⟩ : BufTy).Contents (Elt F) → (⟨S64x64x64x1, .i32⟩ : BufTy).Contents (Elt F)),
    binary main_arg3 main_v46 main_v47 ((fun x i => Host.gather gather_S512x128_S64x64x64x1_S64x64x64x128_3_0_n_n_0_3_1128 x i) : (⟨S512x128, .f32⟩ : BufTy).Contents (Elt F) → (⟨S64x64x64x1, .i32⟩ : BufTy).Contents (Elt F) → (⟨S64x64x64x128, .f32⟩ : BufTy).Contents (Elt F)),
    reshape main_v47 main_v48 rfl shapeCasts_S64x64x64x128_S64x524288,
    reshape main_v40 main_v49 rfl shapeCasts_S64x32x32x128_S64x131072,
    binary main_v48 main_v49 main_v50 ((fun a b => concatenate S64x655360 1 [⟨S64x524288, a⟩, ⟨S64x131072, b⟩] concatenates_S64x524288_S64x131072_S64x655360_d1) : (⟨S64x524288, .f32⟩ : BufTy).Contents (Elt F) → (⟨S64x131072, .f32⟩ : BufTy).Contents (Elt F) → (⟨S64x655360, .f32⟩ : BufTy).Contents (Elt F)) ]

set_option maxRecDepth 8192 in
set_option maxHeartbeats 4000000 in
/-- @main is that straight line. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub .., reshape_bufs_sub .., binary_bufs_sub ..⟩

/-- Operations 55 to 63 of the 75, in program order. -/
abbrev opsC2 : List (HloOp τ sig (Elt F)) :=
  [ nullary main_c_8 (constantI S_ 32 0#32),
    unary main_c_8 main_v34 (broadcastInDim S64x32x32 ![] bcast_S_S64x32x32 : (⟨S_, .i32⟩ : BufTy).Contents (Elt F) → (⟨S64x32x32, .i32⟩ : BufTy).Contents (Elt F)),
    binary main_v16 main_v34 main_v35 (cmpi .slt : (⟨S64x32x32, .i32⟩ : BufTy).Contents (Elt F) → (⟨S64x32x32, .i32⟩ : BufTy).Contents (Elt F) → (⟨S64x32x32, .i1⟩ : BufTy).Contents (Elt F)),
    nullary main_c_9 (constantI S_ 32 512#32),
    unary main_c_9 main_v36 (broadcastInDim S64x32x32 ![] bcast_S_S64x32x32 : (⟨S_, .i32⟩ : BufTy).Contents (Elt F) → (⟨S64x32x32, .i32⟩ : BufTy).Contents (Elt F)),
    binary main_v16 main_v36 main_v37 (addi : (⟨S64x32x32, .i32⟩ : BufTy).Contents (Elt F) → (⟨S64x32x32, .i32⟩ : BufTy).Contents (Elt F) → (⟨S64x32x32, .i32⟩ : BufTy).Contents (Elt F)),
    ternary main_v35 main_v37 main_v16 main_v38 (select : (⟨S64x32x32, .i1⟩ : BufTy).Contents (Elt F) → (⟨S64x32x32, .i32⟩ : BufTy).Contents (Elt F) → (⟨S64x32x32, .i32⟩ : BufTy).Contents (Elt F) → (⟨S64x32x32, .i32⟩ : BufTy).Contents (Elt F)),
    unary main_v38 main_v39 (broadcastInDim S64x32x32x1 ![0, 1, 2] bcast_S64x32x32_S64x32x32x1_0_1_2 : (⟨S64x32x32, .i32⟩ : BufTy).Contents (Elt F) → (⟨S64x32x32x1, .i32⟩ : BufTy).Contents (Elt F)),
    binary main_arg2 main_v39 main_v40 ((fun x i => Host.gather gather_S512x128_S64x32x32x1_S64x32x32x128_3_0_n_n_0_3_1128 x i) : (⟨S512x128, .f32⟩ : BufTy).Contents (Elt F) → (⟨S64x32x32x1, .i32⟩ : BufTy).Contents (Elt F) → (⟨S64x32x32x128, .f32⟩ : BufTy).Contents (Elt F)) ]

/-- The buffers operations 55 to 63 write. -/
abbrev wC2 : List (Ref sig .tc) := [main_c_8, main_v34, main_v35, main_c_9, main_v36, main_v37, main_v38, main_v39, main_v40]

theorem opsC2_writes : (opsC2 : List (HloOp τ sig (Elt F))).Forall fun op => op.writes ⊆ ((wC2).map (Proc.devRef (τ := τ) .tc)).toFinset :=
  ⟨wsub (y := main_c_8) (by decide), wsub (y := main_v34) (by decide), wsub (y := main_v35) (by decide), wsub (y := main_c_9) (by decide), wsub (y := main_v36) (by decide), wsub (y := main_v37) (by decide), wsub (y := main_v38) (by decide), wsub (y := main_v39) (by decide), wsub (y := main_v40) (by decide)⟩

/-- A buffer outside that list holds after them what it held before. -/
theorem opsC2_frame (V : Valuation τ sig (Elt F)) {r : Ref sig .tc} (hr : r ∉ wC2) :
    after opsC2 V (Proc.devRef .tc r) = V (Proc.devRef .tc r) :=
  after_of_writes_sub opsC2 V opsC2_writes hr

/-- Operations 64 to 72 of the 75, in program order. -/
abbrev opsF2 : List (HloOp τ sig (Elt F)) :=
  [ nullary main_c_10 (constantI S_ 32 0#32),
    unary main_c_10 main_v41 (broadcastInDim S64x64x64 ![] bcast_S_S64x64x64 : (⟨S_, .i32⟩ : BufTy).Contents (Elt F) → (⟨S64x64x64, .i32⟩ : BufTy).Contents (Elt F)),
    binary main_v33 main_v41 main_v42 (cmpi .slt : (⟨S64x64x64, .i32⟩ : BufTy).Contents (Elt F) → (⟨S64x64x64, .i32⟩ : BufTy).Contents (Elt F) → (⟨S64x64x64, .i1⟩ : BufTy).Contents (Elt F)),
    nullary main_c_11 (constantI S_ 32 512#32),
    unary main_c_11 main_v43 (broadcastInDim S64x64x64 ![] bcast_S_S64x64x64 : (⟨S_, .i32⟩ : BufTy).Contents (Elt F) → (⟨S64x64x64, .i32⟩ : BufTy).Contents (Elt F)),
    binary main_v33 main_v43 main_v44 (addi : (⟨S64x64x64, .i32⟩ : BufTy).Contents (Elt F) → (⟨S64x64x64, .i32⟩ : BufTy).Contents (Elt F) → (⟨S64x64x64, .i32⟩ : BufTy).Contents (Elt F)),
    ternary main_v42 main_v44 main_v33 main_v45 (select : (⟨S64x64x64, .i1⟩ : BufTy).Contents (Elt F) → (⟨S64x64x64, .i32⟩ : BufTy).Contents (Elt F) → (⟨S64x64x64, .i32⟩ : BufTy).Contents (Elt F) → (⟨S64x64x64, .i32⟩ : BufTy).Contents (Elt F)),
    unary main_v45 main_v46 (broadcastInDim S64x64x64x1 ![0, 1, 2] bcast_S64x64x64_S64x64x64x1_0_1_2 : (⟨S64x64x64, .i32⟩ : BufTy).Contents (Elt F) → (⟨S64x64x64x1, .i32⟩ : BufTy).Contents (Elt F)),
    binary main_arg3 main_v46 main_v47 ((fun x i => Host.gather gather_S512x128_S64x64x64x1_S64x64x64x128_3_0_n_n_0_3_1128 x i) : (⟨S512x128, .f32⟩ : BufTy).Contents (Elt F) → (⟨S64x64x64x1, .i32⟩ : BufTy).Contents (Elt F) → (⟨S64x64x64x128, .f32⟩ : BufTy).Contents (Elt F)) ]

/-- The buffers operations 64 to 72 write. -/
abbrev wF2 : List (Ref sig .tc) := [main_c_10, main_v41, main_v42, main_c_11, main_v43, main_v44, main_v45, main_v46, main_v47]

theorem opsF2_writes : (opsF2 : List (HloOp τ sig (Elt F))).Forall fun op => op.writes ⊆ ((wF2).map (Proc.devRef (τ := τ) .tc)).toFinset :=
  ⟨wsub (y := main_c_10) (by decide), wsub (y := main_v41) (by decide), wsub (y := main_v42) (by decide), wsub (y := main_c_11) (by decide), wsub (y := main_v43) (by decide), wsub (y := main_v44) (by decide), wsub (y := main_v45) (by decide), wsub (y := main_v46) (by decide), wsub (y := main_v47) (by decide)⟩

/-- A buffer outside that list holds after them what it held before. -/
theorem opsF2_frame (V : Valuation τ sig (Elt F)) {r : Ref sig .tc} (hr : r ∉ wF2) :
    after opsF2 V (Proc.devRef .tc r) = V (Proc.devRef .tc r) :=
  after_of_writes_sub opsF2 V opsF2_writes hr

/-- Operations 73 to 75 of the 75, in program order. -/
abbrev opsT : List (HloOp τ sig (Elt F)) :=
  [ reshape main_v47 main_v48 rfl shapeCasts_S64x64x64x128_S64x524288,
    reshape main_v40 main_v49 rfl shapeCasts_S64x32x32x128_S64x131072,
    binary main_v48 main_v49 main_v50 ((fun a b => concatenate S64x655360 1 [⟨S64x524288, a⟩, ⟨S64x131072, b⟩] concatenates_S64x524288_S64x131072_S64x655360_d1) : (⟨S64x524288, .f32⟩ : BufTy).Contents (Elt F) → (⟨S64x131072, .f32⟩ : BufTy).Contents (Elt F) → (⟨S64x655360, .f32⟩ : BufTy).Contents (Elt F)) ]

/-- The buffers operations 73 to 75 write. -/
abbrev wT : List (Ref sig .tc) := [main_v48, main_v49, main_v50]

theorem opsT_writes : (opsT : List (HloOp τ sig (Elt F))).Forall fun op => op.writes ⊆ ((wT).map (Proc.devRef (τ := τ) .tc)).toFinset :=
  ⟨wsub (y := main_v48) (by decide), wsub (y := main_v49) (by decide), wsub (y := main_v50) (by decide)⟩

/-- A buffer outside that list holds after them what it held before. -/
theorem opsT_frame (V : Valuation τ sig (Elt F)) {r : Ref sig .tc} (hr : r ∉ wT) :
    after opsT V (Proc.devRef .tc r) = V (Proc.devRef .tc r) :=
  after_of_writes_sub opsT V opsT_writes hr

/-- The coarse wrap and gather: a negative word is moved up by 512, a unit index axis appended, and the codebook's rows
    taken at the words. -/
theorem opsC2_v40 (V : Valuation τ sig (Elt F)) :
    after opsC2 V (Proc.devRef .tc main_v40)
      = Host.gather gather_S512x128_S64x32x32x1_S64x32x32x128_3_0_n_n_0_3_1128 (V (Proc.devRef .tc main_arg2)) (broadcastInDim S64x32x32x1 ![0, 1, 2] bcast_S64x32x32_S64x32x32x1_0_1_2 (select (cmpi .slt (V (Proc.devRef .tc main_v16)) (broadcastInDim S64x32x32 ![] bcast_S_S64x32x32 (constantI S_ 32 0#32))) (addi (V (Proc.devRef .tc main_v16)) (broadcastInDim S64x32x32 ![] bcast_S_S64x32x32 (constantI S_ 32 512#32))) (V (Proc.devRef .tc main_v16)))) := by
  after_results_simp <;> rfl

/-- The fine wrap and gather. -/
theorem opsF2_v47 (V : Valuation τ sig (Elt F)) :
    after opsF2 V (Proc.devRef .tc main_v47)
      = Host.gather gather_S512x128_S64x64x64x1_S64x64x64x128_3_0_n_n_0_3_1128 (V (Proc.devRef .tc main_arg3)) (broadcastInDim S64x64x64x1 ![0, 1, 2] bcast_S64x64x64_S64x64x64x1_0_1_2 (select (cmpi .slt (V (Proc.devRef .tc main_v33)) (broadcastInDim S64x64x64 ![] bcast_S_S64x64x64 (constantI S_ 32 0#32))) (addi (V (Proc.devRef .tc main_v33)) (broadcastInDim S64x64x64 ![] bcast_S_S64x64x64 (constantI S_ 32 512#32))) (V (Proc.devRef .tc main_v33)))) := by
  after_results_simp <;> rfl

/-- The two gathered arrays flattened per batch row and laid side by side, fine first. -/
theorem opsT_v50 (V : Valuation τ sig (Elt F)) :
    after opsT V (Proc.devRef .tc main_v50)
      = concatenate S64x655360 1 [⟨S64x524288, shapeCast _ (V (Proc.devRef .tc main_v47)) shapeCasts_S64x64x64x128_S64x524288⟩, ⟨S64x131072, shapeCast _ (V (Proc.devRef .tc main_v40)) shapeCasts_S64x32x32x128_S64x131072⟩] concatenates_S64x524288_S64x131072_S64x655360_d1 := by
  after_results
  rfl

/-- The line is its five stretches in a row. -/
theorem ops_eq : (ops : List (HloOp τ sig (Elt F))) = opsC1 ++ (opsF1 ++ (opsC2 ++ (opsF2 ++ opsT))) := rfl

attribute [local irreducible] wordsF wordsC Host.gather concatenate shapeCast select cmpi addi broadcastInDim constantI in
/-- The whole line at the result buffer: the stretches' results chained from the last back to the first, each later
    stretch leaving untouched what it reads of the earlier ones and of the arguments. -/
theorem ops_v50 (m : (ℓ : Loc nD τ sig) → Buf (Elt F) ℓ) (c : Dev nD) :
    after ops (launchContents m c) (Proc.devRef .tc main_v50) = refOut m c := by
  unfold refOut
  rw [ops_eq, after_append, after_append, after_append, after_append]
  rw [opsT_v50, opsF2_v47, opsF2_frame _ (r := main_v40) (by decide),
    opsC2_v40, opsC2_frame _ (r := main_arg3) (by decide), opsC2_frame _ (r := main_v33) (by decide),
    opsF1_v33, opsF1_frame _ (r := main_arg2) (by decide), opsF1_frame _ (r := main_v16) (by decide), opsF1_frame _ (r := main_arg3) (by decide),
    opsC1_v16, opsC1_frame _ (r := main_arg1) (by decide), opsC1_frame _ (r := main_arg5) (by decide),
    opsC1_frame _ (r := main_arg2) (by decide), opsC1_frame _ (r := main_arg3) (by decide)]

/-- A buffer no stretch writes keeps its contents through the line. -/
theorem ops_frame (V : Valuation τ sig (Elt F)) {r : Ref sig .tc} (h1 : r ∉ wC1) (h2 : r ∉ wF1) (h3 : r ∉ wC2) (h4 : r ∉ wF2) (h5 : r ∉ wT) :
    after ops V (Proc.devRef .tc r) = V (Proc.devRef .tc r) := by
  rw [ops_eq, after_append, after_append, after_append, after_append, opsT_frame _ h5, opsF2_frame _ h4, opsC2_frame _ h3, opsF1_frame _ h2, opsC1_frame _ h1]

set_option maxRecDepth 8192 in
set_option maxHeartbeats 4000000 in
/-- On every device, for any float values, from any memory with zero counters: every weakly fair execution of @main
    terminates with the result buffer at `refOut` of the launch contents and the six arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50) = Cert.ReferenceIdeal.RefSide.refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v50).trans (ops_v50 m c),
      (h c main_arg0).trans (ops_frame _ (by decide) (by decide) (by decide) (by decide) (by decide)),
      (h c main_arg1).trans (ops_frame _ (by decide) (by decide) (by decide) (by decide) (by decide)),
      (h c main_arg2).trans (ops_frame _ (by decide) (by decide) (by decide) (by decide) (by decide)),
      (h c main_arg3).trans (ops_frame _ (by decide) (by decide) (by decide) (by decide) (by decide)),
      (h c main_arg4).trans (ops_frame _ (by decide) (by decide) (by decide) (by decide) (by decide)),
      (h c main_arg5).trans (ops_frame _ (by decide) (by decide) (by decide) (by decide) (by decide))⟩)
    (run_seq scopedRefs_eq scopedSems_eq defs main (fun _ => ops) main_eq (fun _ => ops_sub) m ρ)

end Cert.ReferenceIdeal.RefRunH

end
-- ==== Proof.RefSide.lean ====
/-
  The reference program's result, read index by index: both gathers take rows of a codebook at clipped
  index words, the two reshaped results are laid side by side along the feature axis. Entry (b, j) of the result is
  feature j % 128 of the codebook row that the received word of position j / 128 names: the fine codebook at the fine
  words for the first 524288 columns, the coarse codebook at the coarse words for the rest. The clip puts every word in
  [0, 511], so the wrap of negative words and the gather's clamp of its start index both leave it as it is.
-/
import proofs.«423538_j72052371358246_3_alg».proof.Proof.RefDefs
import proofs.«423538_j72052371358246_3_alg».proof.Proof.Spec
import Idealize.ShloMosaic.Lib.StableHlo.Predicate
import Idealize.ShloMosaic.Lib.Pipeline.Value
import Idealize.ShloMosaic.Lib.ValueIdx

noncomputable section

namespace Cert.ReferenceIdeal.RefSide

open Cert.ReferenceIdeal Cert.ReferenceIdeal.Gen Idealize.ShloMosaic Idealize.ShloMosaic.ValueIdx Idealize.SL.Sem

variable {F : FTy → Type} [FloatOps F]

/-! ## The result's pieces, named -/

/-- The fine gather's start indices: a negative word wraps by 512 (none is negative after the clip), then a unit
    index-vector axis is appended. -/
def startF (w : IVec S64x64x64 32) : IVec S64x64x64x1 32 :=
  broadcastInDim S64x64x64x1 ![0, 1, 2] bcast_S64x64x64_S64x64x64x1_0_1_2 (select (cmpi .slt w (broadcastInDim S64x64x64 ![] bcast_S_S64x64x64 (constantI S_ 32 0#32))) (addi w (broadcastInDim S64x64x64 ![] bcast_S_S64x64x64 (constantI S_ 32 512#32))) w)

/-- The coarse gather's start indices, likewise. -/
def startC (w : IVec S64x32x32 32) : IVec S64x32x32x1 32 :=
  broadcastInDim S64x32x32x1 ![0, 1, 2] bcast_S64x32x32_S64x32x32x1_0_1_2 (select (cmpi .slt w (broadcastInDim S64x32x32 ![] bcast_S_S64x32x32 (constantI S_ 32 0#32))) (addi w (broadcastInDim S64x32x32 ![] bcast_S_S64x32x32 (constantI S_ 32 512#32))) w)

/-- The two gathered arrays flattened per batch row and laid side by side, fine first. -/
def joined (vF : FVec F S64x64x64x128 .f32) (vC : FVec F S64x32x32x128 .f32) : FVec F S64x655360 .f32 :=
  concatenate S64x655360 1 [⟨S64x524288, shapeCast _ vF shapeCasts_S64x64x64x128_S64x524288⟩, ⟨S64x131072, shapeCast _ vC shapeCasts_S64x32x32x128_S64x131072⟩] concatenates_S64x524288_S64x131072_S64x655360_d1

/-- The reference's result is the join of the two gathers at the wrapped words (the same term, its pieces named). -/
theorem refOut_eq (m : (ℓ : Loc nD τ sig) → Buf (Elt F) ℓ) (c : Dev nD) :
    refOut m c = joined
      (Host.gather gather_S512x128_S64x64x64x1_S64x64x64x128_3_0_n_n_0_3_1128 (m ((c.tc : Thread nD τ).loc main_arg3))
        (startF (wordsF (m ((c.tc : Thread nD τ).loc main_arg1)) (m ((c.tc : Thread nD τ).loc main_arg5)))))
      (Host.gather gather_S512x128_S64x32x32x1_S64x32x32x128_3_0_n_n_0_3_1128 (m ((c.tc : Thread nD τ).loc main_arg2))
        (startC (wordsC (m ((c.tc : Thread nD τ).loc main_arg0)) (m ((c.tc : Thread nD τ).loc main_arg4))))) := by
  unfold refOut joined startF startC
  rfl

/-- A signed clip into [0, 511] leaves a word whose value is below 512. -/
theorem clip_lt (x : BitVec 32) : (IntOp.minsi 511#32 (IntOp.maxsi 0#32 x)).toNat < 512 := by
  have h0 : (0#32 : BitVec 32).toInt = 0 := by decide
  have h511 : (511#32 : BitVec 32).toInt = 511 := by decide
  have hy : (IntOp.maxsi 0#32 x).toNat < 2 ^ 31 := by
    unfold IntOp.maxsi
    split
    · decide
    · rename_i hc
      simp only [BitVec.slt, h0, decide_eq_true_eq, not_lt] at hc
      rw [BitVec.toInt_eq_toNat_cond] at hc
      have := x.isLt
      split at hc <;> omega
  generalize IntOp.maxsi 0#32 x = y at hy
  have hyi : y.toInt = y.toNat := StableHlo.Predicate.toInt_eq_toNat_of_lt hy
  unfold IntOp.minsi
  split
  · decide
  · rename_i hc
    simp only [BitVec.slt, h511, hyi, decide_eq_true_eq, not_lt] at hc
    omega

/-- Every fine word is a row number of the codebook. -/
theorem wordsF_lt (a1 : IVec S64x64x64 32) (a5 : FVec F S64x64x64x9 .f32) (i : S64x64x64.Idx) : (wordsF (F := F) a1 a5 i).toNat < 512 := by
  unfold wordsF
  exact clip_lt _

/-- Every coarse word is a row number of the codebook. -/
theorem wordsC_lt (a0 : IVec S64x32x32 32) (a4 : FVec F S64x32x32x9 .f32) (i : S64x32x32.Idx) : (wordsC (F := F) a0 a4 i).toNat < 512 := by
  unfold wordsC
  exact clip_lt _

/-! ## A row gather read at an index -/

/-- The dimension numbers of `table[idx]` for a table `[N, D]` and start indices `[B, H, W, 1]`: the start index names the
    row (axis 0, collapsed), the result's last axis runs along the row. -/
abbrev rowDims (N D B H W : Nat) (wf : GatherDims.WF ⟨2, ![N, D]⟩ ⟨4, ![B, H, W, 1]⟩ ⟨4, ![B, H, W, D]⟩ [3] [0] [] [0] [] 3 ![1, D]) :
    GatherDims ⟨2, ![N, D]⟩ ⟨4, ![B, H, W, 1]⟩ ⟨4, ![B, H, W, D]⟩ where
  offsetDims := [3]
  collapsedSliceDims := [0]
  operandBatchingDims := []
  startIndicesBatchingDims := []
  startIndexMap := [0]
  indexVectorDim := 3
  sliceSizes := ![1, D]
  wf := wf

/-- The row gather at `(b, h, v, d)`: feature `d` of the table's row at the start index `idx[b, h, v, 0]`, read signed and
    clamped into `[0, N − 1]`. -/
theorem gather_rows_apply {α : Type} {N D B H W w : Nat} (hN : 0 < N)
    (wf : GatherDims.WF ⟨2, ![N, D]⟩ ⟨4, ![B, H, W, 1]⟩ ⟨4, ![B, H, W, D]⟩ [3] [0] [] [0] [] 3 ![1, D])
    (x : (⟨2, ![N, D]⟩ : Shape).Idx → α) (idx : IVec ⟨4, ![B, H, W, 1]⟩ w) (b : Fin B) (h : Fin H) (v : Fin W) (d : Fin D) :
    Host.gather (rowDims N D B H W wf) x idx (ix4 b h v d)
      = x (ix2 ⟨min (idx (ix4 b h v (0 : Fin 1))).toInt.toNat (N - 1), by omega⟩ d) := by
  unfold Host.gather
  congr 1
  funext a
  refine Fin.ext ?_
  show (rowDims N D B H W wf).start (ix4 b h v d) idx a + (rowDims N D B H W wf).batchCoord (ix4 b h v d) a
      + (rowDims N D B H W wf).offCoord (ix4 b h v d) a = _
  rw [GatherDims.batchCoord_eq_zero _ _ _ List.not_mem_nil]
  have hcases : a = (0 : Fin 2) ∨ a = (1 : Fin 2) := by
    rcases a with ⟨k, hk⟩
    have hk2 : k < 2 := hk
    rcases k with _ | _ | k
    · exact Or.inl rfl
    · exact Or.inr rfl
    · omega
  have h10 : ¬ (1 : Fin 2) ∈ ([0] : List (Fin 2)) := by decide
  rcases hcases with rfl | rfl
  · rw [GatherDims.offCoord_eq_zero _ _ _ (fun hk => ((GatherDims.mem_sKept _ _).mp hk).1 (List.mem_singleton.mpr rfl))]
    simp only [Nat.add_zero]
    unfold GatherDims.start
    rw [dif_pos (show (0 : Fin 2) ∈ (rowDims N D B H W wf).startIndexMap from List.mem_singleton.mpr rfl)]
    have hsi : (rowDims N D B H W wf).siIdx (ix4 b h v d) ⟨List.idxOf (0 : Fin 2) (rowDims N D B H W wf).startIndexMap,
        List.idxOf_lt_length_iff.2 (List.mem_singleton.mpr rfl)⟩ = ix4 b h v (0 : Fin 1) := by
      funext k; refine Fin.ext ?_
      match k with
      | ⟨0, _⟩ => rfl
      | ⟨1, _⟩ => rfl
      | ⟨2, _⟩ => rfl
      | ⟨3, _⟩ => rfl
    rw [hsi]
    rfl
  · have hs : (rowDims N D B H W wf).start (ix4 b h v d) idx (1 : Fin 2) = 0 := by
      unfold GatherDims.start
      exact dif_neg h10
    have ho : (rowDims N D B H W wf).offCoord (ix4 b h v d) (1 : Fin 2) = d.val := by
      unfold GatherDims.offCoord
      rw [dif_pos ((GatherDims.mem_sKept _ _).mpr ⟨h10, List.not_mem_nil⟩)]
      rfl
    rw [hs, ho, Nat.zero_add]

/-- The fine start index at `(b, h, v, 0)` is the word at `(b, h, v)`: a word below 512 is not negative, so the wrap leaves it. -/
theorem startF_apply (w : IVec S64x64x64 32) (hw : ∀ i, (w i).toNat < 512) (b : Fin 64) (h : Fin 64) (v : Fin 64) :
    startF w (ix4 b h v (0 : Fin 1)) = w (ix3 b h v) := by
  unfold startF
  refine (broadcastInDim_apply _ bcast_S64x64x64_S64x64x64x1_0_1_2 _ (ix4 b h v (0 : Fin 1)) (ix3 b h v) (fun a => match a with
    | ⟨0, _⟩ => by show b.val = if (64 : Nat) = 1 then 0 else b.val; rw [if_neg (by decide)]
    | ⟨1, _⟩ => by show h.val = if (64 : Nat) = 1 then 0 else h.val; rw [if_neg (by decide)]
    | ⟨2, _⟩ => by show v.val = if (64 : Nat) = 1 then 0 else v.val; rw [if_neg (by decide)])).trans ?_
  show Scalar.select (IntOp.cmpi .slt (w (ix3 b h v)) 0#32) (IntOp.addi (w (ix3 b h v)) 512#32) (w (ix3 b h v)) = w (ix3 b h v)
  have hlt := hw (ix3 b h v)
  have hn : ¬ IntOp.cmpi .slt (w (ix3 b h v)) 0#32 = 1#1 := by
    rw [StableHlo.Predicate.slt_iff_toNat (by omega) (by decide)]
    exact Nat.not_lt_zero _
  rw [eq_zero_of_ne_one hn, select_zero]

/-- The coarse start index at `(b, h, v, 0)` is the word at `(b, h, v)`: a word below 512 is not negative, so the wrap leaves it. -/
theorem startC_apply (w : IVec S64x32x32 32) (hw : ∀ i, (w i).toNat < 512) (b : Fin 64) (h : Fin 32) (v : Fin 32) :
    startC w (ix4 b h v (0 : Fin 1)) = w (ix3 b h v) := by
  unfold startC
  refine (broadcastInDim_apply _ bcast_S64x32x32_S64x32x32x1_0_1_2 _ (ix4 b h v (0 : Fin 1)) (ix3 b h v) (fun a => match a with
    | ⟨0, _⟩ => by show b.val = if (64 : Nat) = 1 then 0 else b.val; rw [if_neg (by decide)]
    | ⟨1, _⟩ => by show h.val = if (32 : Nat) = 1 then 0 else h.val; rw [if_neg (by decide)]
    | ⟨2, _⟩ => by show v.val = if (32 : Nat) = 1 then 0 else v.val; rw [if_neg (by decide)])).trans ?_
  show Scalar.select (IntOp.cmpi .slt (w (ix3 b h v)) 0#32) (IntOp.addi (w (ix3 b h v)) 512#32) (w (ix3 b h v)) = w (ix3 b h v)
  have hlt := hw (ix3 b h v)
  have hn : ¬ IntOp.cmpi .slt (w (ix3 b h v)) 0#32 = 1#1 := by
    rw [StableHlo.Predicate.slt_iff_toNat (by omega) (by decide)]
    exact Nat.not_lt_zero _
  rw [eq_zero_of_ne_one hn, select_zero]

/-- The joined array at a column below 524288 is the fine array at the position and feature the column names. -/
theorem joined_apply_left (vF : FVec F S64x64x64x128 .f32) (vC : FVec F S64x32x32x128 .f32) (b : Fin 64) (j : Fin 655360) (hj : j.val < 524288) :
    joined vF vC (ix2 b j)
      = vF (ix4 b (⟨j.val / 128 / 64, by omega⟩ : Fin 64) (⟨j.val / 128 % 64, Nat.mod_lt _ (by decide)⟩ : Fin 64) (⟨j.val % 128, Nat.mod_lt _ (by decide)⟩ : Fin 128)) := by
  unfold joined
  refine (concatenate_pair_apply_left _ _ _ concatenates_S64x524288_S64x131072_S64x655360_d1 (ix2 b j) rfl (ix2 b (⟨j.val, hj⟩ : Fin 524288))
    (fun a => match a with
      | ⟨0, _⟩ => rfl
      | ⟨1, _⟩ => rfl)).trans ?_
  exact shapeCast_apply vF shapeCasts_S64x64x64x128_S64x524288 (ix2 b (⟨j.val, hj⟩ : Fin 524288)) _
    (by rw [Shape.rowMajor_val_four, Shape.rowMajor_val_two]
        show ((b.val * 64 + j.val / 128 / 64) * 64 + j.val / 128 % 64) * 128 + j.val % 128 = b.val * 524288 + j.val
        omega)

/-- The joined array at a column from 524288 on is the coarse array at the position and feature the column, less 524288, names. -/
theorem joined_apply_right (vF : FVec F S64x64x64x128 .f32) (vC : FVec F S64x32x32x128 .f32) (b : Fin 64) (j : Fin 655360) (hj : ¬ j.val < 524288) :
    joined vF vC (ix2 b j)
      = vC (ix4 b (⟨(j.val - 524288) / 128 / 32, by have := j.isLt; omega⟩ : Fin 32) (⟨(j.val - 524288) / 128 % 32, Nat.mod_lt _ (by decide)⟩ : Fin 32)
          (⟨j.val % 128, Nat.mod_lt _ (by decide)⟩ : Fin 128)) := by
  have hj' : j.val - 524288 < 131072 := by have := j.isLt; omega
  have hi : ∀ a : Fin S64x131072.rank, a.cast (rfl : S64x131072.rank = S64x655360.rank) ≠ (1 : Fin S64x655360.rank) →
      ((ix2 b (⟨j.val - 524288, hj'⟩ : Fin 131072) : S64x131072.Idx) a).val = ((ix2 b j : S64x655360.Idx) (a.cast rfl)).val := by
    intro a ha
    rcases a with ⟨k, hk⟩
    have hk2 : k < 2 := hk
    rcases k with _ | _ | k
    · rfl
    · exact absurd rfl ha
    · omega
  have ha : ((ix2 b (⟨j.val - 524288, hj'⟩ : Fin 131072) : S64x131072.Idx) ((1 : Fin S64x655360.rank).cast (rfl : S64x131072.rank = S64x655360.rank).symm)).val
      + S64x524288.size ((1 : Fin S64x655360.rank).cast (rfl : S64x524288.rank = S64x655360.rank).symm) = ((ix2 b j : S64x655360.Idx) 1).val := by
    show (j.val - 524288) + 524288 = j.val
    omega
  unfold joined
  refine (concatenate_pair_apply_right (1 : Fin S64x655360.rank) _ _ concatenates_S64x524288_S64x131072_S64x655360_d1 (ix2 b j) rfl rfl
    (ix2 b (⟨j.val - 524288, hj'⟩ : Fin 131072)) hi ha).trans ?_
  exact shapeCast_apply vC shapeCasts_S64x32x32x128_S64x131072 (ix2 b (⟨j.val - 524288, hj'⟩ : Fin 131072)) _
    (by rw [Shape.rowMajor_val_four, Shape.rowMajor_val_two]
        show ((b.val * 32 + (j.val - 524288) / 128 / 32) * 32 + (j.val - 524288) / 128 % 32) * 128 + j.val % 128 = b.val * 131072 + (j.val - 524288)
        omega)

/-- A word below 512, read signed and clamped into [0, 511], is its value. -/
theorem clamp_id (x : BitVec 32) (hx : x.toNat < 512) : min x.toInt.toNat (512 - 1) = x.toNat := by
  rw [StableHlo.Predicate.toInt_eq_toNat_of_lt (by omega)]
  simp only [Int.toNat_natCast]
  omega

/-- The fine gather at `(b, h, v, d)`: feature `d` of the codebook row the word at `(b, h, v)` names. -/
theorem gatherF_apply (cb : FVec F S512x128 .f32) (w : IVec S64x64x64 32) (hw : ∀ i, (w i).toNat < 512) (b h v : Fin 64) (d : Fin 128) :
    Host.gather gather_S512x128_S64x64x64x1_S64x64x64x128_3_0_n_n_0_3_1128 cb (startF w) (ix4 b h v d)
      = cb (ix2 (⟨(w (ix3 b h v)).toNat, hw _⟩ : Fin 512) d) := by
  refine (gather_rows_apply (N := 512) (D := 128) (B := 64) (H := 64) (W := 64) (by decide) gather_S512x128_S64x64x64x1_S64x64x64x128_3_0_n_n_0_3_1128_wf
    cb (startF w) b h v d).trans ?_
  congr 1
  have e := startF_apply w hw b h v
  refine congrArg (fun k : Fin 512 => ix2 k d) (Fin.ext ?_)
  show min ((startF w (ix4 b h v (0 : Fin 1))).toInt.toNat) (512 - 1) = (w (ix3 b h v)).toNat
  rw [e]
  exact clamp_id _ (hw _)

/-- The coarse gather at `(b, h, v, d)`, likewise. -/
theorem gatherC_apply (cb : FVec F S512x128 .f32) (w : IVec S64x32x32 32) (hw : ∀ i, (w i).toNat < 512) (b : Fin 64) (h v : Fin 32) (d : Fin 128) :
    Host.gather gather_S512x128_S64x32x32x1_S64x32x32x128_3_0_n_n_0_3_1128 cb (startC w) (ix4 b h v d)
      = cb (ix2 (⟨(w (ix3 b h v)).toNat, hw _⟩ : Fin 512) d) := by
  refine (gather_rows_apply (N := 512) (D := 128) (B := 64) (H := 32) (W := 32) (by decide) gather_S512x128_S64x32x32x1_S64x32x32x128_3_0_n_n_0_3_1128_wf
    cb (startC w) b h v d).trans ?_
  congr 1
  have e := startC_apply w hw b h v
  refine congrArg (fun k : Fin 512 => ix2 k d) (Fin.ext ?_)
  show min ((startC w (ix4 b h v (0 : Fin 1))).toInt.toNat) (512 - 1) = (w (ix3 b h v)).toNat
  rw [e]
  exact clamp_id _ (hw _)

/-- THE REFERENCE'S RESULT AT `(b, j)`: the codebook row the received word of column `j`'s position names, at column `j`'s
    feature; the first 524288 columns read the fine codebook at the fine words, the rest the coarse. -/
theorem refOut_apply (m : (ℓ : Loc nD τ sig) → Buf (Elt Ideal) ℓ) (c : Dev nD) (b : Fin 64) (j : Fin 655360) :
    (refOut (F := Ideal) m c : FVec Ideal S64x655360 .f32) (ix2 b j)
      = Cert.Spec.result (fun k d => (m ((c.tc : Thread nD τ).loc main_arg3) : FVec Ideal S512x128 .f32) (ix2 k d))
          (fun k d => (m ((c.tc : Thread nD τ).loc main_arg2) : FVec Ideal S512x128 .f32) (ix2 k d))
          (fun b n => wordsF (F := Ideal) (m ((c.tc : Thread nD τ).loc main_arg1)) (m ((c.tc : Thread nD τ).loc main_arg5))
            (ix3 b ⟨n.val / 64, by have := n.isLt; omega⟩ ⟨n.val % 64, Nat.mod_lt _ (by decide)⟩))
          (fun b n => wordsC (F := Ideal) (m ((c.tc : Thread nD τ).loc main_arg0)) (m ((c.tc : Thread nD τ).loc main_arg4))
            (ix3 b ⟨n.val / 32, by have := n.isLt; omega⟩ ⟨n.val % 32, Nat.mod_lt _ (by decide)⟩)) b j := by
  rw [refOut_eq]
  unfold Cert.Spec.result
  by_cases hj : j.val < 524288
  · rw [dif_pos hj]
    refine (joined_apply_left (F := Ideal) _ _ b j hj).trans ?_
    refine (gatherF_apply (F := Ideal) _ _ (wordsF_lt (F := Ideal) _ _) b _ _ _).trans ?_
    exact (Cert.Spec.rowAt_of_lt (fun k d => (m ((c.tc : Thread nD τ).loc main_arg3) : FVec Ideal S512x128 .f32) (ix2 k d)) _ _ (wordsF_lt (F := Ideal) _ _ _)).symm
  · rw [dif_neg hj]
    refine (joined_apply_right (F := Ideal) _ _ b j hj).trans ?_
    refine (gatherC_apply (F := Ideal) _ _ (wordsC_lt (F := Ideal) _ _) b _ _ _).trans ?_
    exact (Cert.Spec.rowAt_of_lt (fun k d => (m ((c.tc : Thread nD τ).loc main_arg2) : FVec Ideal S512x128 .f32) (ix2 k d)) _ _ (wordsC_lt (F := Ideal) _ _ _)).symm

end Cert.ReferenceIdeal.RefSide

end
-- ==== Proof.lean ====
/-
  The certificate: the kernel gathers codebook rows by a one-hot matrix product over the split table
  hi | lo, the reference by a row gather; at the idealized instance both give, for every received index word
  (clipped into the codebook's range by both programs' shared word chain), the codebook row itself —
  the one-hot sum picks one row, and hi + lo is the entry plus (entry − entry), the entry for a finite codebook.
  The three frames are the two body runs' frame runs (word-level and idealized program, one text) and the
  reference's run; nothing was rewritten by the idealization, so the preservation claim is empty.
-/
import proofs.«423538_j72052371358246_3_alg».proof.Defs
import proofs.«423538_j72052371358246_3_alg».proof.Proof.Gen.Kernel
import proofs.«423538_j72052371358246_3_alg».proof.Proof.Gen.KernelIdeal
import proofs.«423538_j72052371358246_3_alg».proof.Proof.Gen.ReferenceIdeal
import proofs.«423538_j72052371358246_3_alg».proof.Proof.Gen.Pre_finite_inputs
import proofs.«423538_j72052371358246_3_alg».proof.Proof.K.Body
import proofs.«423538_j72052371358246_3_alg».proof.Proof.KI.KernelRun
import proofs.«423538_j72052371358246_3_alg».proof.Proof.KI.KernelValue
import proofs.«423538_j72052371358246_3_alg».proof.Proof.RefRun
import proofs.«423538_j72052371358246_3_alg».proof.Proof.RefSide
import Idealize.ShloMosaic.Adequacy
import Idealize.ShloMosaic.Init

noncomputable section

namespace Cert.Proof

open Idealize.ShloMosaic Idealize.SL.Sem Idealize.ShloMosaic.ValueIdx

/-- Both programs run the same sixteen operations on the index words: the two word chains are one function. -/
theorem wordsF_same (a1 : IVec Cert.KernelIdeal.S64x64x64 32) (a5 : FVec Ideal Cert.KernelIdeal.S64x64x64x9 .f32) :
    Cert.ReferenceIdeal.RefSide.wordsF (F := Ideal) a1 a5 = Cert.KernelIdeal.HostPrefix.wordsF (F := Ideal) a1 a5 := rfl
theorem wordsC_same (a0 : IVec Cert.KernelIdeal.S64x32x32 32) (a4 : FVec Ideal Cert.KernelIdeal.S64x32x32x9 .f32) :
    Cert.ReferenceIdeal.RefSide.wordsC (F := Ideal) a0 a4 = Cert.KernelIdeal.HostPrefix.wordsC (F := Ideal) a0 a4 := rfl

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2) (Cert.ReferenceIdeal.RefRunH.run (F := Ideal) m ρ)

/-- Entry by entry the two results are the specification's: the kernel's by `kernel_entry` (under the finiteness
    precondition), the reference's by `refOut_apply`; the arguments agree and the word chains are one function. -/
theorem algebraic : Cert.algebraic_KernelIdeal_ReferenceIdeal := by
  intro m ρ m' ρ' hpre hagree
  refine ⟨fun c => shapeCast Cert.KernelIdeal.S64x655360 (Cert.KernelIdeal.Final.G (F := Ideal) m c) Cert.KernelIdeal.Facts₀.shapeCasts_S64x5x1024x128_S64x655360,
    Cert.KernelIdeal.KernelRun.run (F := Ideal) m ρ, ?_⟩
  refine (θ_run Cert.ReferenceIdeal.defs _ _).mono (fun _ h c => ⟨(h c).1.trans ?_, (h c).2⟩)
    (Cert.ReferenceIdeal.RefRunH.run (F := Ideal) m' ρ')
  show (Cert.ReferenceIdeal.RefSide.refOut (F := Ideal) m' c : FVec Ideal Cert.ReferenceIdeal.S64x655360 .f32) = _
  funext i
  obtain ⟨b, j, rfl⟩ : ∃ (b : Fin 64) (j : Fin 655360), i = ix2 b j := ⟨i 0, i 1, eq_ix2 i⟩
  rw [Cert.ReferenceIdeal.RefSide.refOut_apply m' c b j]
  refine Eq.trans ?_ (Cert.KernelIdeal.KernelValue.kernel_entry m hpre c b j).symm
  rw [(hagree c).1, (hagree c).2.1, (hagree c).2.2.1, (hagree c).2.2.2.1, (hagree c).2.2.2.2.1, (hagree c).2.2.2.2.2]
  simp only [wordsF_same, wordsC_same]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
